-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S2048x64 : Shape := ⟨2, ![2048, 64]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S2048x64 .f32) (main_arg2 : FVec F S3072x1024 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S2048x64 : Shape := ⟨2, ![2048, 64]⟩
abbrev S3072x1024 : Shape := ⟨2, ![3072, 1024]⟩
abbrev S1024x1024 : Shape := ⟨2, ![1024, 1024]⟩
abbrev S1024 : Shape := ⟨1, ![1024]⟩
abbrev S3072 : Shape := ⟨1, ![3072]⟩
abbrev S64 : Shape := ⟨1, ![64]⟩
abbrev S_ : Shape := ⟨0, ![]⟩
abbrev S3072x1 : Shape := ⟨2, ![3072, 1]⟩
abbrev S64x1 : Shape := ⟨2, ![64, 1]⟩
abbrev S32 : Shape := ⟨1, ![32]⟩
abbrev S1x64 : Shape := ⟨2, ![1, 64]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S1x512x128 : Shape := ⟨3, ![1, 512, 128]⟩
abbrev S1x2048x128 : Shape := ⟨3, ![1, 2048, 128]⟩
abbrev S512x64 : Shape := ⟨2, ![512, 64]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 49
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S2048x64, .f32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S3072, .i32⟩
  | .hbm, ⟨6, _⟩ => ⟨S3072, .i1⟩
  | .hbm, ⟨7, _⟩ => ⟨S64, .i32⟩
  | .hbm, ⟨8, _⟩ => ⟨S64, .i1⟩
  | .hbm, ⟨9, _⟩ => ⟨S64, .i1⟩
  | .hbm, ⟨10, _⟩ => ⟨S_, .i32⟩
  | .hbm, ⟨11, _⟩ => ⟨S3072, .i32⟩
  | .hbm, ⟨12, _⟩ => ⟨S3072, .i32⟩
  | .hbm, ⟨13, _⟩ => ⟨S3072, .i32⟩
  | .hbm, ⟨14, _⟩ => ⟨S3072x1, .i32⟩
  | .hbm, ⟨15, _⟩ => ⟨S3072x1024, .f32⟩
  | .hbm, ⟨16, _⟩ => ⟨S3072x1024, .bf16⟩
  | .hbm, ⟨17, _⟩ => ⟨S1024x1024, .bf16⟩
  | .hbm, ⟨18, _⟩ => ⟨S2048x64, .f32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S64, .i32⟩
  | .hbm, ⟨23, _⟩ => ⟨S64x1, .i32⟩
  | .hbm, ⟨24, _⟩ => ⟨S2048x64, .f32⟩
  | .hbm, ⟨25, _⟩ => ⟨S2048x64, .f32⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64, .i32⟩
  | .hbm, ⟨30, _⟩ => ⟨S64x1, .i32⟩
  | .hbm, ⟨31, _⟩ => ⟨S2048x64, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S64, .f32⟩
  | .hbm, ⟨38, _⟩ => ⟨S1x64, .f32⟩
  | .hbm, ⟨39, _⟩ => ⟨S2048x64, .f32⟩
  | .hbm, ⟨40, _⟩ => ⟨S2048x64, .f32⟩
  | .hbm, ⟨41, _⟩ => ⟨S8192x1024, .f32⟩
  | .hbm, ⟨42, _⟩ => ⟨S8192x3072, .bf16⟩
  | .hbm, ⟨43, _⟩ => ⟨S4x2048x3072, .bf16⟩
  | .hbm, ⟨44, _⟩ => ⟨S4x2048x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S1x512x128, .bf16⟩
  | .local _ .vmem, ⟨6, _⟩ => ⟨S1x512x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S2048x64, .f32⟩
  | .local _ .vmem, ⟨16, _⟩ => ⟨S2048x64, .f32⟩
  | .local _ .vmem, ⟨17, _⟩ => ⟨S1x512x128, .f32⟩
  | .local _ .vmem, ⟨18, _⟩ => ⟨S1x512x128, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_6 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 1 → Memref sig .tc .vmem S2048x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S2048x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1x512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S3072 : S_.BroadcastsInDim S3072 (![] : Fin 0 → Fin S3072.rank)
  bcast_S3072_S3072x1_0 : S3072.BroadcastsInDim S3072x1 (![0] : Fin 1 → Fin S3072x1.rank)
  bitsLt_bf16_f32 : FTy.bits .bf16 < FTy.bits .f32
  bcast_S_S64 : S_.BroadcastsInDim S64 (![] : Fin 0 → Fin S64.rank)
  bcast_S64_S64x1_0 : S64.BroadcastsInDim S64x1 (![0] : Fin 1 → Fin S64x1.rank)
  bcast_S_S32 : S_.BroadcastsInDim S32 (![] : Fin 0 → Fin S32.rank)
  concatenates_S32_S32_S64_d0 : Shape.Concatenates [S32, S32] S64 0
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  slices_S512x128_o0_0_S512x64 : S512x128.Slices ![0, 0] S512x64
  slices_S2048x128_o0_0_S2048x64 : S2048x128.Slices ![0, 0] S2048x64
  rotates_S512x64_d1 : S512x64.Rotates 1 none
  rotates_S2048x64_d1 : S2048x64.Rotates 1 none
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  gather_S3072x1024_S3072x1_S3072x1024_1_0_n_n_0_1_11024_wf : GatherDims.WF S3072x1024 S3072x1 S3072x1024 [1] [0] [] [0] [] 1 ![1, 1024]
  gather_S2048x64_S64x1_S2048x64_0_1_n_n_1_1_20481_wf : GatherDims.WF S2048x64 S64x1 S2048x64 [0] [1] [] [1] [] 1 ![2048, 1]
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S8192x3072.size a
  hwx0_2 : ∀ i : grid0.Coords, EltTy.bits .bf16 = 32 ∨ (Rect.block (s := S8192x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x3072.size a
  hwx1_0 : ∀ i : grid1.Coords, EltTy.bits .bf16 = 32 ∨ (Rect.block (s := S4x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x3072.size a
  hwx1_1 : ∀ i : grid1.Coords, EltTy.bits .bf16 = 32 ∨ (Rect.block (s := S4x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x3072.size a
  hwx1_2 : ∀ i : grid1.Coords, EltTy.bits .bf16 = 32 ∨ (Rect.block (s := S4x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S2048x64.size a
  hwx1_3 : ∀ i : grid1.Coords, EltTy.bits .f32 = 32 ∨ (Rect.block (s := S2048x64) S512x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S2048x64.size a
  hwx1_4 : ∀ i : grid1.Coords, EltTy.bits .f32 = 32 ∨ (Rect.block (s := S2048x64) S512x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S2048x64.size a
  hwx1_5 : ∀ i : grid1.Coords, EltTy.bits .f32 = 32 ∨ (Rect.block (s := S2048x64) S2048x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x64.size a ≤ S2048x64.size a
  hwx1_6 : ∀ i : grid1.Coords, EltTy.bits .f32 = 32 ∨ (Rect.block (s := S2048x64) S2048x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x128.size a ≤ S4x2048x1024.size a
  hwx1_7 : ∀ i : grid1.Coords, EltTy.bits .f32 = 32 ∨ (Rect.block (s := S4x2048x1024) S1x512x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def gather_S3072x1024_S3072x1_S3072x1024_1_0_n_n_0_1_11024 : GatherDims S3072x1024 S3072x1 S3072x1024 where
  offsetDims := [1]
  collapsedSliceDims := [0]
  operandBatchingDims := []
  startIndicesBatchingDims := []
  startIndexMap := [0]
  indexVectorDim := 1
  sliceSizes := ![1, 1024]
  wf := gather_S3072x1024_S3072x1_S3072x1024_1_0_n_n_0_1_11024_wf
def gather_S2048x64_S64x1_S2048x64_0_1_n_n_1_1_20481 : GatherDims S2048x64 S64x1 S2048x64 where
  offsetDims := [0]
  collapsedSliceDims := [1]
  operandBatchingDims := []
  startIndicesBatchingDims := []
  startIndexMap := [1]
  indexVectorDim := 1
  sliceSizes := ![2048, 1]
  wf := gather_S2048x64_S64x1_S2048x64_0_1_n_n_1_1_20481_wf
def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v26) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S512x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12) S2048x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S2048x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x512x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v30) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S2048x64 : Shape := ⟨2, ![2048, 64]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S1x1x2048x64 : Shape := ⟨4, ![1, 1, 2048, 64]⟩
abbrev S4x16x2048x32x2 : Shape := ⟨5, ![4, 16, 2048, 32, 2]⟩
abbrev S4x16x2048x32x1 : Shape := ⟨5, ![4, 16, 2048, 32, 1]⟩
abbrev S4x16x2048x32 : Shape := ⟨4, ![4, 16, 2048, 32]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x64, .f32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S4x2048x3x16x64, .f32⟩
  | .hbm, ⟨7, _⟩ => ⟨S3x4x16x2048x64, .f32⟩
  | .hbm, ⟨8, _⟩ => ⟨S1x4x16x2048x64, .f32⟩
  | .hbm, ⟨9, _⟩ => ⟨S4x16x2048x64, .f32⟩
  | .hbm, ⟨10, _⟩ => ⟨S1x4x16x2048x64, .f32⟩
  | .hbm, ⟨11, _⟩ => ⟨S4x16x2048x64, .f32⟩
  | .hbm, ⟨12, _⟩ => ⟨S1x4x16x2048x64, .f32⟩
  | .hbm, ⟨13, _⟩ => ⟨S4x16x2048x64, .f32⟩
  | .hbm, ⟨14, _⟩ => ⟨S2048x64, .f32⟩
  | .hbm, ⟨15, _⟩ => ⟨S1x1x2048x64, .f32⟩
  | .hbm, ⟨16, _⟩ => ⟨S4x16x2048x64, .f32⟩
  | .hbm, ⟨17, _⟩ => ⟨S4x16x2048x64, .f32⟩
  | .hbm, ⟨18, _⟩ => ⟨S4x16x2048x32x2, .f32⟩
  | .hbm, ⟨19, _⟩ => ⟨S4x16x2048x32x1, .f32⟩
  | .hbm, ⟨20, _⟩ => ⟨S4x16x2048x32, .f32⟩
  | .hbm, ⟨21, _⟩ => ⟨S4x16x2048x32x1, .f32⟩
  | .hbm, ⟨22, _⟩ => ⟨S4x16x2048x32, .f32⟩
  | .hbm, ⟨23, _⟩ => ⟨S4x16x2048x32, .f32⟩
  | .hbm, ⟨24, _⟩ => ⟨S4x16x2048x32x1, .f32⟩
  | .hbm, ⟨25, _⟩ => ⟨S4x16x2048x32x1, .f32⟩
  | .hbm, ⟨26, _⟩ => ⟨S4x16x2048x32x2, .f32⟩
  | .hbm, ⟨27, _⟩ => ⟨S4x16x2048x64, .f32⟩
  | .hbm, ⟨28, _⟩ => ⟨S2048x64, .f32⟩
  | .hbm, ⟨29, _⟩ => ⟨S1x1x2048x64, .f32⟩
  | .hbm, ⟨30, _⟩ => ⟨S4x16x2048x64, .f32⟩
  | .hbm, ⟨31, _⟩ => ⟨S4x16x2048x64, .f32⟩
  | .hbm, ⟨32, _⟩ => ⟨S4x16x2048x64, .f32⟩
  | .hbm, ⟨33, _⟩ => ⟨S2048x64, .f32⟩
  | .hbm, ⟨34, _⟩ => ⟨S1x1x2048x64, .f32⟩
  | .hbm, ⟨35, _⟩ => ⟨S4x16x2048x64, .f32⟩
  | .hbm, ⟨36, _⟩ => ⟨S4x16x2048x64, .f32⟩
  | .hbm, ⟨37, _⟩ => ⟨S4x16x2048x32x2, .f32⟩
  | .hbm, ⟨38, _⟩ => ⟨S4x16x2048x32x1, .f32⟩
  | .hbm, ⟨39, _⟩ => ⟨S4x16x2048x32, .f32⟩
  | .hbm, ⟨40, _⟩ => ⟨S4x16x2048x32x1, .f32⟩
  | .hbm, ⟨41, _⟩ => ⟨S4x16x2048x32, .f32⟩
  | .hbm, ⟨42, _⟩ => ⟨S4x16x2048x32, .f32⟩
  | .hbm, ⟨43, _⟩ => ⟨S4x16x2048x32x1, .f32⟩
  | .hbm, ⟨44, _⟩ => ⟨S4x16x2048x32x1, .f32⟩
  | .hbm, ⟨45, _⟩ => ⟨S4x16x2048x32x2, .f32⟩
  | .hbm, ⟨46, _⟩ => ⟨S4x16x2048x64, .f32⟩
  | .hbm, ⟨47, _⟩ => ⟨S2048x64, .f32⟩
  | .hbm, ⟨48, _⟩ => ⟨S1x1x2048x64, .f32⟩
  | .hbm, ⟨49, _⟩ => ⟨S4x16x2048x64, .f32⟩
  | .hbm, ⟨50, _⟩ => ⟨S4x16x2048x64, .f32⟩
  | .hbm, ⟨51, _⟩ => ⟨S4x16x2048x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4x16x2048x2048, .f32⟩
  | .hbm, ⟨57, _⟩ => ⟨S4x16x2048x2048, .f32⟩
  | .hbm, ⟨58, _⟩ => ⟨S4x16x2048x2048, .f32⟩
  | .hbm, ⟨59, _⟩ => ⟨S_, .f32⟩
  | .hbm, ⟨60, _⟩ => ⟨S4x16x2048, .f32⟩
  | .hbm, ⟨61, _⟩ => ⟨S_, .f32⟩
  | .hbm, ⟨62, _⟩ => ⟨S4x16x2048, .f32⟩
  | .hbm, ⟨63, _⟩ => ⟨S4x16x2048, .f32⟩
  | .hbm, ⟨64, _⟩ => ⟨S4x16x2048x1, .f32⟩
  | .hbm, ⟨65, _⟩ => ⟨S4x16x2048x2048, .f32⟩
  | .hbm, ⟨66, _⟩ => ⟨S4x16x2048x2048, .f32⟩
  | .hbm, ⟨67, _⟩ => ⟨S4x16x2048x2048, .f32⟩
  | .hbm, ⟨68, _⟩ => ⟨S_, .f32⟩
  | .hbm, ⟨69, _⟩ => ⟨S4x16x2048, .f32⟩
  | .hbm, ⟨70, _⟩ => ⟨S4x16x2048x1, .f32⟩
  | .hbm, ⟨71, _⟩ => ⟨S4x16x2048x2048, .f32⟩
  | .hbm, ⟨72, _⟩ => ⟨S4x16x2048x2048, .f32⟩
  | .hbm, ⟨73, _⟩ => ⟨S4x16x2048x64, .f32⟩
  | .hbm, ⟨74, _⟩ => ⟨S4x2048x16x64, .f32⟩
  | .hbm, ⟨75, _⟩ => ⟨S4x2048x1024, .f32⟩
  | .hbm, ⟨76, _⟩ => ⟨S4x2048x1024, .f32⟩
  | .hbm, ⟨77, _⟩ => ⟨S1x1x1024, .f32⟩
  | .hbm, ⟨78, _⟩ => ⟨S4x2048x1024, .f32⟩
  | .hbm, ⟨79, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst : Ref sig .tc := ⟨.hbm, 52, rfl⟩
abbrev main_v47 : Ref sig .tc := ⟨.hbm, 53, rfl⟩
abbrev main_cst_0 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_1 : Ref sig .tc := ⟨.hbm, 59, rfl⟩
abbrev main_v52 : Ref sig .tc := ⟨.hbm, 60, rfl⟩
abbrev main_cst_2 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_3 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S2048x64_S1x1x2048x64_2_3 : S2048x64.BroadcastsInDim S1x1x2048x64 (![2, 3] : Fin 2 → Fin S1x1x2048x64.rank)
  bcast_S1x1x2048x64_S4x16x2048x64_0_1_2_3 : S1x1x2048x64.BroadcastsInDim S4x16x2048x64 (![0, 1, 2, 3] : Fin 4 → Fin S4x16x2048x64.rank)
  shapeCasts_S4x16x2048x64_S4x16x2048x32x2 : S4x16x2048x64.ShapeCasts S4x16x2048x32x2
  slices_S4x16x2048x32x2_S4x16x2048x32x1_0_0_0_0_0 : S4x16x2048x32x2.Slices ![0, 0, 0, 0, 0] S4x16x2048x32x1
  shapeCasts_S4x16x2048x32x1_S4x16x2048x32 : S4x16x2048x32x1.ShapeCasts S4x16x2048x32
  slices_S4x16x2048x32x2_S4x16x2048x32x1_0_0_0_0_1 : S4x16x2048x32x2.Slices ![0, 0, 0, 0, 1] S4x16x2048x32x1
  bcast_S4x16x2048x32_S4x16x2048x32x1_0_1_2_3 : S4x16x2048x32.BroadcastsInDim S4x16x2048x32x1 (![0, 1, 2, 3] : Fin 4 → Fin S4x16x2048x32x1.rank)
  concatenates_S4x16x2048x32x1_S4x16x2048x32x1_S4x16x2048x32x2_d4 : Shape.Concatenates [S4x16x2048x32x1, S4x16x2048x32x1] S4x16x2048x32x2 4
  shapeCasts_S4x16x2048x32x2_S4x16x2048x64 : S4x16x2048x32x2.ShapeCasts S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.Spec.lean ====
/-
  The mathematics of the two programs, as functions of the five argument arrays over the extended reals.

  Both programs are one attention block: a projection of `x` by `W_qkv` into query, key and value features of 16 heads
  of 64 lanes, a rotation of each query and key row by position-dependent angles (cosine and sine of `freqs`), scores
  `q · k` scaled by one eighth, a softmax over the keys, the weighted sum of the values, and a projection by `W_proj`
  with the bias added.

  The reference rotates ADJACENT lanes: lane `2i` takes `-v(2i+1)`, lane `2i+1` takes `v(2i)` (`rotR`). The kernel
  first permutes the query and key ROWS of `W_qkv` inside each head, even lanes first and odd lanes after
  (`lperm`, `permRow`), permutes the angle tables the same way (`cosP`, `sinS`), folds the sign into the sine table
  (`sgn`), and then rotates by HALF a head (`rot32`). Lane `j` of the kernel's rotated row is lane `lperm j` of the
  reference's, and a score sums over all 64 lanes, so it does not see the permutation.

  Written here: the two whole-array functions `kernelOut` and `refOut` and their parts. Nothing is proved here.
-/
import Idealize.ShloMosaic.PureOps.Ideal
import Idealize.ShloMosaic.Lib.ValueIdx

noncomputable section

namespace Cert.Attn

open Idealize.ShloMosaic Idealize.ShloMosaic.ValueIdx
open scoped BigOperators

/-! ## Shapes, by their extents -/

abbrev A3 (n0 n1 n2 : Nat) : Type := (⟨3, ![n0, n1, n2]⟩ : Shape).Idx → EReal
abbrev A2 (n0 n1 : Nat) : Type := (⟨2, ![n0, n1]⟩ : Shape).Idx → EReal
abbrev A1 (n0 : Nat) : Type := (⟨1, ![n0]⟩ : Shape).Idx → EReal

/-! ## The softmax row, shared by both programs -/

/-- Minus infinity, as the word both programs print for the maximum's start value. -/
abbrev negInf : EReal := Ideal.ofBits .f32 0xFF800000#32
/-- One eighth, as the word the kernel prints for its score scale. -/
abbrev eighth : EReal := Ideal.ofBits .f32 0x3E000000#32

/-- The running maximum of 2048 scores, started from minus infinity. -/
def fmax (s : Fin 2048 → EReal) : EReal := (Finset.univ : Finset (Fin 2048)).fold max negInf s

/-- One entry of `softmax(s) · v`: the exponentials of the scores less their maximum, each divided by their sum,
    weighting the values. -/
def attnRow (s v : Fin 2048 → EReal) : EReal :=
  ∑ k : Fin 2048, Ideal.div (Ideal.exp (s k - fmax s)) (∑ k' : Fin 2048, Ideal.exp (s k' - fmax s)) * v k

/-! ## Lanes, heads and feature columns -/

/-- Column of part `p` (0 query, 1 key, 2 value), head `H`, lane `j` among the 3072 projected features. -/
def col (p : Fin 3) (H : Fin 16) (j : Fin 64) : Fin 3072 := ⟨p.val * 1024 + H.val * 64 + j.val, by omega⟩

/-- The head of an output column, and its lane. -/
def headOf (o : Fin 1024) : Fin 16 := ⟨o.val / 64, by omega⟩
def laneOf (o : Fin 1024) : Fin 64 := ⟨o.val % 64, by omega⟩

/-- Half a head further round: lane `j` reads lane `j + 32` modulo 64. -/
def rot32 (j : Fin 64) : Fin 64 := ⟨(j.val + 32) % 64, Nat.mod_lt _ (by decide)⟩

/-- The kernel's order of a head's lanes: the 32 even lanes, then the 32 odd ones. -/
def lperm (j : Fin 64) : Fin 64 :=
  if h : j.val < 32 then ⟨2 * j.val, by omega⟩ else ⟨2 * (j.val - 32) + 1, by omega⟩

/-- The sign the kernel folds into its sine table: minus one on the first half of a head, one on the second. -/
def sgn (j : Fin 64) : EReal := if j.val < 32 then -1 else 1

/-- The kernel's order of `W_qkv`'s rows: query and key rows permuted inside each head by `lperm`, value rows kept. -/
def permRow (f : Fin 3072) : Fin 3072 :=
  if h : f.val < 2048 then ⟨f.val / 64 * 64 + (lperm ⟨f.val % 64, Nat.mod_lt _ (by decide)⟩).val, by
    have := (lperm ⟨f.val % 64, Nat.mod_lt _ (by decide)⟩).isLt; omega⟩ else f

/-! ## Batch and position as one row index, and back -/

def flat3 {C : Nat} (x : A3 4 2048 C) : A2 8192 C :=
  fun j => x (ix3 (⟨(j 0).val / 2048, by have h : (j 0).val < 8192 := (j 0).isLt; omega⟩ : Fin 4)
    (⟨(j 0).val % 2048, Nat.mod_lt _ (by decide)⟩ : Fin 2048) (j 1))

def unflat3 {C : Nat} (y : A2 8192 C) : A3 4 2048 C :=
  fun i => y (ix2 (⟨(i 0).val * 2048 + (i 1).val, by
    have h0 : (i 0).val < 4 := (i 0).isLt; have h1 : (i 1).val < 2048 := (i 1).isLt; omega⟩ : Fin 8192) (i 2))

/-- A vector as a one-row matrix. -/
def row1 (b : A1 1024) : A2 1 1024 := fun j => b (ix1 (j 1))

/-! ## The kernel's three stages, each as a function of whole arrays -/

/-- Rows of `a` against rows of `w`: the projection into 3072 features. -/
def proj0 (a : A2 8192 1024) (w : A2 3072 1024) : A2 8192 3072 :=
  fun j => ∑ k : Fin 1024, a (ix2 (j 0) k) * w (ix2 (j 1) k)

/-- Rows of `a` against rows of `w`, plus the bias row: the output projection. -/
def proj2 (a : A2 8192 1024) (w : A2 1024 1024) (bias : A2 1 1024) : A2 8192 1024 :=
  fun j => (∑ k : Fin 1024, a (ix2 (j 0) k) * w (ix2 (j 1) k)) + bias (ix2 (0 : Fin 1) (j 1))

/-- The kernel's rotated query (`p = 0`) or key (`p = 1`) lane: the lane times its cosine plus the lane half a head
    round times its signed sine. -/
def ropeK (qkv : A3 4 2048 3072) (cs sn : A2 2048 64) (p : Fin 3) (b : Fin 4) (H : Fin 16) (t : Fin 2048) (j : Fin 64) : EReal :=
  qkv (ix3 b t (col p H j)) * cs (ix2 t j) + qkv (ix3 b t (col p H (rot32 j))) * sn (ix2 t j)

/-- The kernel's score of query position `tq` against key position `tk`. -/
def scoreK (qkv : A3 4 2048 3072) (cs sn : A2 2048 64) (b : Fin 4) (H : Fin 16) (tq tk : Fin 2048) : EReal :=
  (∑ j : Fin 64, ropeK qkv cs sn 0 b H tq j * ropeK qkv cs sn 1 b H tk j) * eighth

/-- The kernel's attention output, in `[batch, position, head × lane]` layout. -/
def attnK (qkv : A3 4 2048 3072) (cs sn : A2 2048 64) : A3 4 2048 1024 :=
  fun i => attnRow (fun tk => scoreK qkv cs sn (i 0) (headOf (i 2)) (i 1) tk)
    (fun tk => qkv (ix3 (i 0) tk (col 2 (headOf (i 2)) (laneOf (i 2)))))

/-- `W_qkv` with its rows in the kernel's order. -/
def wqkvP (W : A2 3072 1024) : A2 3072 1024 := fun j => W (ix2 (permRow (j 0)) (j 1))
/-- The cosine table with its lanes in the kernel's order. -/
def cosP (fr : A2 2048 64) : A2 2048 64 := fun j => Ideal.cos (fr (ix2 (j 0) (lperm (j 1))))
/-- The sine table with its lanes in the kernel's order and the sign folded in. -/
def sinS (fr : A2 2048 64) : A2 2048 64 := fun j => Ideal.sin (fr (ix2 (j 0) (lperm (j 1)))) * sgn (j 1)

/-- What the kernel's program computes. -/
def kernelOut (x : A3 4 2048 1024) (fr : A2 2048 64) (Wq : A2 3072 1024) (Wp : A2 1024 1024) (bp : A1 1024) : A3 4 2048 1024 :=
  unflat3 (proj2 (flat3 (attnK (unflat3 (proj0 (flat3 x) (wqkvP Wq))) (cosP fr) (sinS fr))) Wp (row1 bp))

/-! ## The reference's stages -/

/-- The reference's scale: one over the square root of 64, as it prints it. -/
abbrev scaleR : EReal := Ideal.div (Ideal.ofBits .f32 0x3F800000#32) (Ideal.sqrt (Ideal.ofBits .f32 0x42800000#32))

/-- The projected feature `f` at batch `b`, position `t`. -/
def qkvR (x : A3 4 2048 1024) (Wq : A2 3072 1024) (b : Fin 4) (t : Fin 2048) (f : Fin 3072) : EReal :=
  ∑ c : Fin 1024, x (ix3 b t c) * Wq (ix2 f c)

/-- Adjacent lanes rotated: an even lane takes minus its odd neighbour, an odd lane its even neighbour. -/
def rotR (v : Fin 64 → EReal) (d : Fin 64) : EReal :=
  if h : d.val % 2 = 0 then -(v ⟨d.val + 1, by omega⟩) else v ⟨d.val - 1, by omega⟩

/-- The reference's rotated query (`p = 0`) or key (`p = 1`) lane. -/
def ropeR (x : A3 4 2048 1024) (Wq : A2 3072 1024) (fr : A2 2048 64) (p : Fin 3) (b : Fin 4) (H : Fin 16) (t : Fin 2048) (d : Fin 64) : EReal :=
  qkvR x Wq b t (col p H d) * Ideal.cos (fr (ix2 t d))
    + rotR (fun d' => qkvR x Wq b t (col p H d')) d * Ideal.sin (fr (ix2 t d))

/-- The reference's score. -/
def scoreR (x : A3 4 2048 1024) (Wq : A2 3072 1024) (fr : A2 2048 64) (b : Fin 4) (H : Fin 16) (tq tk : Fin 2048) : EReal :=
  (∑ d : Fin 64, ropeR x Wq fr 0 b H tq d * ropeR x Wq fr 1 b H tk d) * scaleR

/-- The reference's attention output, in `[batch, position, head × lane]` layout. -/
def yR (x : A3 4 2048 1024) (Wq : A2 3072 1024) (fr : A2 2048 64) : A3 4 2048 1024 :=
  fun i => attnRow (fun tk => scoreR x Wq fr (i 0) (headOf (i 2)) (i 1) tk)
    (fun tk => qkvR x Wq (i 0) tk (col 2 (headOf (i 2)) (laneOf (i 2))))

/-- What the reference computes. -/
def refOut (x : A3 4 2048 1024) (fr : A2 2048 64) (Wq : A2 3072 1024) (Wp : A2 1024 1024) (bp : A1 1024) : A3 4 2048 1024 :=
  fun i => (∑ c : Fin 1024, yR x Wq fr (ix3 (i 0) (i 1) c) * Wp (ix2 (i 2) c)) + bp (ix1 (i 2))

end Cert.Attn

end
-- ==== Proof.Bridge.lean ====
/-
  The two programs compute one function: the kernel's whole-array function `kernelOut` is the reference's `refOut`.

  The kernel's projected features are the reference's read through the row order `permRow`: inside a query or key
  head, lane `j` of the kernel is lane `lperm j` of the reference, and value lanes are kept. Under that order the
  kernel's rotation by half a head, with the sign folded into the sine table, is the reference's rotation of adjacent
  lanes. A score sums a product over all 64 lanes, and `lperm` is a permutation of them, so the two scores agree once
  the two scales do: the kernel's one eighth is the reference's one over the square root of 64. The softmax row is then
  applied to equal scores and equal values, and the output projection is the same sum on both sides. Batch and
  position are folded into one row index and unfolded again around each stage; the fold and unfold cancel.
  Only commutative-semiring identities of the extended reals and the distribution of negation over a product are used;
  no input is assumed finite.
-/
import proofs.«416673_j71210557768228_3_alg».proof.Proof.Spec
import Mathlib.Algebra.BigOperators.Group.Finset.Defs
import Mathlib.Analysis.Real.Sqrt
import Mathlib.Data.EReal.Operations

noncomputable section

namespace Cert.Attn

open Idealize.ShloMosaic Idealize.ShloMosaic.ValueIdx
open scoped BigOperators

/-! ## Batch and position as one row: the round trip -/

/-- Row `b * 2048 + t` of the folded array is row `(b, t)` of the array. -/
theorem flat3_at {C : Nat} (x : A3 4 2048 C) (b : Fin 4) (t : Fin 2048) (c : Fin C) (h : b.val * 2048 + t.val < 8192) :
    flat3 x (ix2 (⟨b.val * 2048 + t.val, h⟩ : Fin 8192) c) = x (ix3 b t c) := by
  unfold flat3
  congr 1
  funext a
  match a with
  | ⟨0, _⟩ => exact Fin.ext (by show (b.val * 2048 + t.val) / 2048 = b.val; omega)
  | ⟨1, _⟩ => exact Fin.ext (by show (b.val * 2048 + t.val) % 2048 = t.val; omega)
  | ⟨2, _⟩ => rfl

/-- Row `(b, t)` of the unfolded array is row `b * 2048 + t` of the array. -/
theorem unflat3_at {C : Nat} (y : A2 8192 C) (b : Fin 4) (t : Fin 2048) (c : Fin C) :
    unflat3 y (ix3 b t c) = y (ix2 (⟨b.val * 2048 + t.val, by omega⟩ : Fin 8192) c) := rfl

/-- The first projection, between a fold and an unfold, is the row of `x` against the row of `W`. -/
theorem unflat3_proj0 (x : A3 4 2048 1024) (W : A2 3072 1024) (b : Fin 4) (t : Fin 2048) (f : Fin 3072) :
    unflat3 (proj0 (flat3 x) W) (ix3 b t f) = ∑ c : Fin 1024, x (ix3 b t c) * W (ix2 f c) := by
  rw [unflat3_at]
  unfold proj0
  refine Finset.sum_congr rfl fun c _ => ?_
  show flat3 x (ix2 (⟨b.val * 2048 + t.val, _⟩ : Fin 8192) c) * W (ix2 f c) = _
  rw [flat3_at]

/-- The output projection, between a fold and an unfold, is the row of `y` against the row of `W`, plus the bias. -/
theorem unflat3_proj2 (y : A3 4 2048 1024) (W : A2 1024 1024) (bp : A1 1024) (b : Fin 4) (t : Fin 2048) (o : Fin 1024) :
    unflat3 (proj2 (flat3 y) W (row1 bp)) (ix3 b t o)
      = (∑ c : Fin 1024, y (ix3 b t c) * W (ix2 o c)) + bp (ix1 o) := by
  rw [unflat3_at]
  unfold proj2
  show (∑ c : Fin 1024, flat3 y (ix2 (⟨b.val * 2048 + t.val, _⟩ : Fin 8192) c) * W (ix2 o c)) + bp (ix1 o) = _
  congr 1
  refine Finset.sum_congr rfl fun c _ => ?_
  rw [flat3_at]

/-! ## Lanes and feature columns -/

theorem lperm_val_lt (j : Fin 64) (h : j.val < 32) : (lperm j).val = 2 * j.val := by
  unfold lperm; rw [dif_pos h]

theorem lperm_val_ge (j : Fin 64) (h : ¬ j.val < 32) : (lperm j).val = 2 * (j.val - 32) + 1 := by
  unfold lperm; rw [dif_neg h]

theorem rot32_val (j : Fin 64) : (rot32 j).val = (j.val + 32) % 64 := rfl

/-- A query or key row of the kernel's order is the row of the permuted lane, in the same part and head. -/
theorem permRow_col_lt (p : Fin 3) (hp : p.val < 2) (H : Fin 16) (j : Fin 64) :
    permRow (col p H j) = col p H (lperm j) := by
  have hj := j.isLt
  have hH := H.isLt
  have hc : (col p H j).val = p.val * 1024 + H.val * 64 + j.val := rfl
  have hlt : (col p H j).val < 2048 := by rw [hc]; omega
  have hmod : (⟨(col p H j).val % 64, Nat.mod_lt _ (by decide)⟩ : Fin 64) = j := Fin.ext (by
    show (col p H j).val % 64 = j.val
    rw [hc]; omega)
  unfold permRow
  rw [dif_pos hlt]
  apply Fin.ext
  show (col p H j).val / 64 * 64 + (lperm ⟨(col p H j).val % 64, _⟩).val = p.val * 1024 + H.val * 64 + (lperm j).val
  rw [hmod, hc]
  omega

/-- A value row is kept. -/
theorem permRow_col_two (H : Fin 16) (d : Fin 64) : permRow (col 2 H d) = col 2 H d := by
  have hc : (col 2 H d).val = 2 * 1024 + H.val * 64 + d.val := rfl
  unfold permRow
  rw [dif_neg (by rw [hc]; omega)]

/-- The inverse of the kernel's lane order: an even lane goes to half its number, an odd one to that plus 32. -/
def lpermInv (d : Fin 64) : Fin 64 :=
  if h : d.val % 2 = 0 then ⟨d.val / 2, by omega⟩ else ⟨d.val / 2 + 32, by omega⟩

theorem lpermInv_lperm (j : Fin 64) : lpermInv (lperm j) = j := by
  by_cases h : j.val < 32
  · have hv := lperm_val_lt j h
    unfold lpermInv
    rw [dif_pos (by rw [hv]; omega)]
    exact Fin.ext (by show (lperm j).val / 2 = j.val; rw [hv]; omega)
  · have hv := lperm_val_ge j h
    have hj := j.isLt
    unfold lpermInv
    rw [dif_neg (by rw [hv]; omega)]
    exact Fin.ext (by show (lperm j).val / 2 + 32 = j.val; rw [hv]; omega)

theorem lperm_lpermInv (d : Fin 64) : lperm (lpermInv d) = d := by
  have hd := d.isLt
  by_cases h : d.val % 2 = 0
  · have hi : (lpermInv d).val = d.val / 2 := by unfold lpermInv; rw [dif_pos h]
    have hv := lperm_val_lt (lpermInv d) (by rw [hi]; omega)
    exact Fin.ext (by rw [hv, hi]; omega)
  · have hi : (lpermInv d).val = d.val / 2 + 32 := by unfold lpermInv; rw [dif_neg h]
    have hv := lperm_val_ge (lpermInv d) (by rw [hi]; omega)
    exact Fin.ext (by rw [hv, hi]; omega)

/-- The kernel's lane order as a permutation of the 64 lanes. -/
def lpermEquiv : Fin 64 ≃ Fin 64 where
  toFun := lperm
  invFun := lpermInv
  left_inv := lpermInv_lperm
  right_inv := lperm_lpermInv

/-- A sum over the lanes does not see the kernel's order. -/
theorem sum_lperm (f : Fin 64 → EReal) : ∑ j : Fin 64, f (lperm j) = ∑ d : Fin 64, f d :=
  Equiv.sum_comp lpermEquiv f

/-! ## The rotation -/

theorem rotR_even (v : Fin 64 → EReal) (d : Fin 64) (h : d.val % 2 = 0) (h' : d.val + 1 < 64) :
    rotR v d = -(v ⟨d.val + 1, h'⟩) := by
  unfold rotR; rw [dif_pos h]

theorem rotR_odd (v : Fin 64 → EReal) (d : Fin 64) (h : ¬ d.val % 2 = 0) (h' : d.val - 1 < 64) :
    rotR v d = v ⟨d.val - 1, h'⟩ := by
  unfold rotR; rw [dif_neg h]

/-- Half a head round in the kernel's order, with the folded sign, is the adjacent-lane rotation in the reference's:
    on the first half of a head lane `j` is the even lane `2j`, its partner the odd lane `2j + 1`, and the sign is
    minus one; on the second half lane `j` is the odd lane `2(j - 32) + 1`, its partner the even lane before it, and
    the sign is one. -/
theorem rot_lane (v : Fin 64 → EReal) (s : EReal) (j : Fin 64) :
    v (lperm (rot32 j)) * (s * sgn j) = rotR v (lperm j) * s := by
  have hj := j.isLt
  by_cases h : j.val < 32
  · have hv := lperm_val_lt j h
    have hr : (rot32 j).val = j.val + 32 := by rw [rot32_val]; omega
    have hv' := lperm_val_ge (rot32 j) (by rw [hr]; omega)
    rw [rotR_even v (lperm j) (by rw [hv]; omega) (by rw [hv]; omega)]
    have he : lperm (rot32 j) = ⟨(lperm j).val + 1, by rw [hv]; omega⟩ :=
      Fin.ext (by show (lperm (rot32 j)).val = (lperm j).val + 1; rw [hv', hr, hv]; omega)
    have hs : sgn j = -1 := by unfold sgn; rw [if_pos h]
    rw [he, hs, mul_neg, mul_one, mul_neg, neg_mul]
  · have hv := lperm_val_ge j h
    have hr : (rot32 j).val = j.val - 32 := by rw [rot32_val]; omega
    have hv' := lperm_val_lt (rot32 j) (by rw [hr]; omega)
    rw [rotR_odd v (lperm j) (by rw [hv]; omega) (by rw [hv]; omega)]
    have he : lperm (rot32 j) = ⟨(lperm j).val - 1, by rw [hv]; omega⟩ :=
      Fin.ext (by show (lperm (rot32 j)).val = (lperm j).val - 1; rw [hv', hr, hv]; omega)
    have hs : sgn j = 1 := by unfold sgn; rw [if_neg h]
    rw [he, hs, mul_one]

/-! ## The kernel's projected features are the reference's, in the kernel's row order -/

/-- The kernel's projected features. -/
def qkvK (x : A3 4 2048 1024) (Wq : A2 3072 1024) : A3 4 2048 3072 := unflat3 (proj0 (flat3 x) (wqkvP Wq))

theorem qkvK_at (x : A3 4 2048 1024) (Wq : A2 3072 1024) (b : Fin 4) (t : Fin 2048) (f : Fin 3072) :
    qkvK x Wq (ix3 b t f) = qkvR x Wq b t (permRow f) := by
  unfold qkvK
  rw [unflat3_proj0]
  rfl

/-- Lane `j` of the kernel's rotated query or key row is lane `lperm j` of the reference's. -/
theorem ropeK_eq (x : A3 4 2048 1024) (Wq : A2 3072 1024) (fr : A2 2048 64) (p : Fin 3) (hp : p.val < 2)
    (b : Fin 4) (H : Fin 16) (t : Fin 2048) (j : Fin 64) :
    ropeK (qkvK x Wq) (cosP fr) (sinS fr) p b H t j = ropeR x Wq fr p b H t (lperm j) := by
  unfold ropeK ropeR
  rw [qkvK_at, qkvK_at, permRow_col_lt p hp, permRow_col_lt p hp]
  show qkvR x Wq b t (col p H (lperm j)) * Ideal.cos (fr (ix2 t (lperm j)))
      + qkvR x Wq b t (col p H (lperm (rot32 j))) * (Ideal.sin (fr (ix2 t (lperm j))) * sgn j) = _
  rw [rot_lane (fun d' => qkvR x Wq b t (col p H d'))]

/-! ## The two scales -/

theorem ofBits_one : Ideal.ofBits .f32 0x3F800000#32 = ((1 : ℝ) : EReal) := by
  simp [Ideal.ofBits, Ideal.ieee, -EReal.coe_mul]; norm_num

theorem ofBits_sixtyfour : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem sqrt_sixtyfour : Real.sqrt 64 = 8 := by
  have h : (64 : ℝ) = 8 ^ 2 := by norm_num
  rw [h, Real.sqrt_sq (by norm_num)]

/-- One eighth is one over the square root of 64. -/
theorem eighth_eq_scaleR : eighth = scaleR := by
  show Ideal.ofBits .f32 0x3E000000#32
    = Ideal.div (Ideal.ofBits .f32 0x3F800000#32) (Ideal.sqrt (Ideal.ofBits .f32 0x42800000#32))
  rw [ofBits_eighth, ofBits_one, ofBits_sixtyfour, Ideal.sqrt_coe, if_neg (by norm_num), sqrt_sixtyfour,
    Ideal.div_coe (by norm_num), EReal.coe_one, one_mul]

/-! ## Scores, attention rows, and the whole function -/

/-- The kernel's score is the reference's: the lane sum re-indexed through the lane permutation, and the scales equal. -/
theorem scoreK_eq (x : A3 4 2048 1024) (Wq : A2 3072 1024) (fr : A2 2048 64) (b : Fin 4) (H : Fin 16) (tq tk : Fin 2048) :
    scoreK (qkvK x Wq) (cosP fr) (sinS fr) b H tq tk = scoreR x Wq fr b H tq tk := by
  unfold scoreK scoreR
  rw [eighth_eq_scaleR]
  congr 1
  rw [← sum_lperm (fun d => ropeR x Wq fr 0 b H tq d * ropeR x Wq fr 1 b H tk d)]
  refine Finset.sum_congr rfl fun j _ => ?_
  rw [ropeK_eq x Wq fr 0 (by decide), ropeK_eq x Wq fr 1 (by decide)]

/-- The kernel's attention output is the reference's. -/
theorem attnK_eq (x : A3 4 2048 1024) (Wq : A2 3072 1024) (fr : A2 2048 64) :
    attnK (qkvK x Wq) (cosP fr) (sinS fr) = yR x Wq fr := by
  funext i
  obtain ⟨b, t, o, rfl⟩ : ∃ (b : Fin 4) (t : Fin 2048) (o : Fin 1024), i = ix3 b t o := ⟨i 0, i 1, i 2, eq_ix3 i⟩
  show attnRow (fun tk => scoreK (qkvK x Wq) (cosP fr) (sinS fr) b (headOf o) t tk)
      (fun tk => qkvK x Wq (ix3 b tk (col 2 (headOf o) (laneOf o))))
    = attnRow (fun tk => scoreR x Wq fr b (headOf o) t tk)
      (fun tk => qkvR x Wq b tk (col 2 (headOf o) (laneOf o)))
  have hs : (fun tk => scoreK (qkvK x Wq) (cosP fr) (sinS fr) b (headOf o) t tk)
      = fun tk => scoreR x Wq fr b (headOf o) t tk := funext fun tk => scoreK_eq x Wq fr b (headOf o) t tk
  have hv : (fun tk => qkvK x Wq (ix3 b tk (col 2 (headOf o) (laneOf o))))
      = fun tk => qkvR x Wq b tk (col 2 (headOf o) (laneOf o)) := funext fun tk => by
    rw [qkvK_at, permRow_col_two]
  rw [hs, hv]

/-- The kernel's function of the five argument arrays is the reference's. -/
theorem kernelOut_eq_refOut (x : A3 4 2048 1024) (fr : A2 2048 64) (Wq : A2 3072 1024) (Wp : A2 1024 1024) (bp : A1 1024) :
    kernelOut x fr Wq Wp bp = refOut x fr Wq Wp bp := by
  funext i
  obtain ⟨b, t, o, rfl⟩ : ∃ (b : Fin 4) (t : Fin 2048) (o : Fin 1024), i = ix3 b t o := ⟨i 0, i 1, i 2, eq_ix3 i⟩
  show unflat3 (proj2 (flat3 (attnK (qkvK x Wq) (cosP fr) (sinS fr))) Wp (row1 bp)) (ix3 b t o)
    = (∑ c : Fin 1024, yR x Wq fr (ix3 b t c) * Wp (ix2 o c)) + bp (ix1 o)
  rw [unflat3_proj2, attnK_eq]

end Cert.Attn

end
-- ==== Proof.Ref.QKV.lean ====
/-
  The reference's rotated queries and keys and its values, read at an index.

  The reference projects `x` by `W_qkv` into 3072 features, splits feature `p·1024 + h·64 + d` into part `p`
  (query, key, value), head `h` and lane `d`, and moves the part and the head in front of the position. Read at
  batch `b`, head `h`, position `t`, lane `d`, part `p` of the result is `qkvR x W b t (col p h d)`
  (`v4_apply`, `v6_apply`, `v8_apply`).

  The rotation of adjacent lanes is the same text for queries and keys: the 64 lanes as 32 pairs, the two slots of the
  pairs taken apart, the second negated, the pairs put together again as (minus the second, the first), and merged back
  into 64 lanes. It is written once for any array of 64-lane rows (`rotHalf`) and is `rotR` of each row
  (`rotHalf_apply`). With the cosine and sine tables spread over batches and heads (`table_at`) the rotated query and
  key are `ropeR` (`v27_apply`, `v46_apply`).
-/
import proofs.«416673_j71210557768228_3_alg».proof.Proof.Spec
import proofs.«416673_j71210557768228_3_alg».proof.Proof.Gen.ReferenceIdeal.Read

noncomputable section

namespace Cert.ReferenceIdeal.RefValue

open Cert.ReferenceIdeal Cert.ReferenceIdeal.Gen Cert.ReferenceIdeal.Read Cert.Attn
open Idealize.ShloMosaic Idealize.ShloMosaic.ValueIdx
open scoped BigOperators

/-! ## The projection at coordinates -/

/-- The projection `x · W_qkvᵀ` at batch `b`, position `t`, feature `f`. -/
theorem v0_at (x0 : FVec Ideal S4x2048x1024 .f32) (x2 : FVec Ideal S3072x1024 .f32)
    (b : Fin 4) (t : Fin 2048) (f : Fin 3072) :
    val_main_v0 (F := Ideal) x0 x2 (ix3 b t f) = qkvR x0 x2 b t f := by
  rw [val_main_v0_apply]
  unfold qkvR
  refine Finset.sum_congr rfl fun k _ => ?_
  have el : lidx_main_v0 (ix3 b t f) k = ix3 b t k := funext fun a => Fin.ext (by
    match a with
    | ⟨0, _⟩ => rfl
    | ⟨1, _⟩ => rfl
    | ⟨2, _⟩ => rfl)
  have er : ridx_main_v0 (ix3 b t f) k = ix2 f k := funext fun a => Fin.ext (by
    match a with
    | ⟨0, _⟩ => rfl
    | ⟨1, _⟩ => rfl)
  rw [el, er]

/-- Splitting the 3072 features into part, head and lane: feature `p·1024 + h·64 + d`. -/
theorem idx_v1_at (b : Fin 4) (t : Fin 2048) (p : Fin 3) (h : Fin 16) (d : Fin 64) :
    idx_main_v1 (ix5 b t p h d) = ix3 b t (col p h d) := funext fun a => Fin.ext (by
  have hb := b.isLt; have ht := t.isLt; have hp := p.isLt; have hh := h.isLt; have hd := d.isLt
  match a with
  | ⟨0, _⟩ =>
    show ((((b.val * 2048 + t.val) * 3 + p.val) * 16 + h.val) * 64 + d.val) / 6291456 = b.val
    omega
  | ⟨1, _⟩ =>
    show ((((b.val * 2048 + t.val) * 3 + p.val) * 16 + h.val) * 64 + d.val) / 3072 % 2048 = t.val
    omega
  | ⟨2, _⟩ =>
    show ((((b.val * 2048 + t.val) * 3 + p.val) * 16 + h.val) * 64 + d.val) % 3072 = p.val * 1024 + h.val * 64 + d.val
    omega)

/-- The transpose to part-major order, read back. -/
theorem idx_v2_at (p : Fin 3) (b : Fin 4) (h : Fin 16) (t : Fin 2048) (d : Fin 64) :
    idx_main_v2 (ix5 p b h t d) = ix5 b t p h d := funext fun a => Fin.ext (by
  match a with
  | ⟨0, _⟩ => rfl
  | ⟨1, _⟩ => rfl
  | ⟨2, _⟩ => rfl
  | ⟨3, _⟩ => rfl
  | ⟨4, _⟩ => rfl)

/-- The transposed projection at part `p`, batch `b`, head `h`, position `t`, lane `d`. -/
theorem v2_at (x0 : FVec Ideal S4x2048x1024 .f32) (x2 : FVec Ideal S3072x1024 .f32)
    (p : Fin 3) (b : Fin 4) (h : Fin 16) (t : Fin 2048) (d : Fin 64) :
    val_main_v2 (F := Ideal) x0 x2 (ix5 p b h t d) = qkvR x0 x2 b t (col p h d) := by
  rw [val_main_v2_apply, idx_v2_at, val_main_v1_apply, idx_v1_at, v0_at]

/-- Dropping the unit axis in front: a rank-4 index as the rank-5 one with `0` in front. -/
theorem idx_v4_at (b : Fin 4) (h : Fin 16) (t : Fin 2048) (d : Fin 64) :
    idx_main_v4 (ix4 b h t d) = ix5 (0 : Fin 1) b h t d := funext fun a => Fin.ext (by
  have hb := b.isLt; have hh := h.isLt; have ht := t.isLt; have hd := d.isLt
  match a with
  | ⟨0, _⟩ => rfl
  | ⟨1, _⟩ =>
    show (((b.val * 16 + h.val) * 2048 + t.val) * 64 + d.val) / 2097152 % 4 = b.val
    omega
  | ⟨2, _⟩ =>
    show (((b.val * 16 + h.val) * 2048 + t.val) * 64 + d.val) / 131072 % 16 = h.val
    omega
  | ⟨3, _⟩ =>
    show (((b.val * 16 + h.val) * 2048 + t.val) * 64 + d.val) / 64 % 2048 = t.val
    omega
  | ⟨4, _⟩ =>
    show (((b.val * 16 + h.val) * 2048 + t.val) * 64 + d.val) % 64 = d.val
    omega)

theorem idx_v3_at (b : Fin 4) (h : Fin 16) (t : Fin 2048) (d : Fin 64) :
    idx_main_v3 (ix5 (0 : Fin 1) b h t d) = ix5 (0 : Fin 3) b h t d := funext fun a => Fin.ext (by
  match a with
  | ⟨0, _⟩ => rfl
  | ⟨1, _⟩ => rfl
  | ⟨2, _⟩ => rfl
  | ⟨3, _⟩ => rfl
  | ⟨4, _⟩ => rfl)

theorem idx_v5_at (b : Fin 4) (h : Fin 16) (t : Fin 2048) (d : Fin 64) :
    idx_main_v5 (ix5 (0 : Fin 1) b h t d) = ix5 (1 : Fin 3) b h t d := funext fun a => Fin.ext (by
  match a with
  | ⟨0, _⟩ => rfl
  | ⟨1, _⟩ => rfl
  | ⟨2, _⟩ => rfl
  | ⟨3, _⟩ => rfl
  | ⟨4, _⟩ => rfl)

theorem idx_v7_at (b : Fin 4) (h : Fin 16) (t : Fin 2048) (d : Fin 64) :
    idx_main_v7 (ix5 (0 : Fin 1) b h t d) = ix5 (2 : Fin 3) b h t d := funext fun a => Fin.ext (by
  match a with
  | ⟨0, _⟩ => rfl
  | ⟨1, _⟩ => rfl
  | ⟨2, _⟩ => rfl
  | ⟨3, _⟩ => rfl
  | ⟨4, _⟩ => rfl)

/-- The reference's query features. -/
theorem v4_apply (x0 : FVec Ideal S4x2048x1024 .f32) (x2 : FVec Ideal S3072x1024 .f32)
    (b : Fin 4) (h : Fin 16) (t : Fin 2048) (d : Fin 64) :
    val_main_v4 (F := Ideal) x0 x2 (ix4 b h t d) = qkvR x0 x2 b t (col 0 h d) := by
  rw [val_main_v4_apply, idx_v4_at, val_main_v3_apply, idx_v3_at, v2_at]

/-- The reference's key features. -/
theorem v6_apply (x0 : FVec Ideal S4x2048x1024 .f32) (x2 : FVec Ideal S3072x1024 .f32)
    (b : Fin 4) (h : Fin 16) (t : Fin 2048) (d : Fin 64) :
    val_main_v6 (F := Ideal) x0 x2 (ix4 b h t d) = qkvR x0 x2 b t (col 1 h d) := by
  rw [val_main_v6_apply, show idx_main_v6 (ix4 b h t d) = idx_main_v4 (ix4 b h t d) from rfl, idx_v4_at,
    val_main_v5_apply, idx_v5_at, v2_at]

/-- The reference's value. -/
theorem v8_apply (x0 : FVec Ideal S4x2048x1024 .f32) (x2 : FVec Ideal S3072x1024 .f32)
    (b : Fin 4) (h : Fin 16) (t : Fin 2048) (d : Fin 64) :
    val_main_v8 (F := Ideal) x0 x2 (ix4 b h t d) = qkvR x0 x2 b t (col 2 h d) := by
  rw [val_main_v8_apply, show idx_main_v8 (ix4 b h t d) = idx_main_v4 (ix4 b h t d) from rfl, idx_v4_at,
    val_main_v7_apply, idx_v7_at, v2_at]

/-! ## Rotating adjacent lanes, for any stage

The reference splits the 64 lanes into 32 pairs, takes the even and the odd lane of each pair apart, negates the odd one,
puts the pairs together again as (minus the odd lane, the even lane), and merges them back into 64 lanes. Each step is
read here at explicit coordinates, for any array it is applied to. -/

section Stage
variable {α : Type}

/-- Lanes as pairs: pair `i`, slot `e` is lane `2 i + e`. -/
theorem pairs_at (y : S4x16x2048x64.Idx → α) (b : Fin 4) (h : Fin 16) (t : Fin 2048) (i : Fin 32) (e : Fin 2)
    (d : Fin 64) (hd : d.val = 2 * i.val + e.val) :
    shapeCast S4x16x2048x32x2 y shapeCasts_S4x16x2048x64_S4x16x2048x32x2 (ix5 b h t i e) = y (ix4 b h t d) := by
  refine shapeCast_apply y _ (ix5 b h t i e) (ix4 b h t d) ?_
  rewrite [Shape.rowMajor_val_four, Shape.rowMajor_val_five]
  show ((b.val * 16 + h.val) * 2048 + t.val) * 64 + d.val
    = (((b.val * 16 + h.val) * 2048 + t.val) * 32 + i.val) * 2 + e.val
  omega

/-- Pairs merged back into lanes: an even lane `d` is slot 0 of pair `d / 2`. -/
theorem lanes_even (w : S4x16x2048x32x2.Idx → α) (b : Fin 4) (h : Fin 16) (t : Fin 2048) (d : Fin 64) (hd : d.val % 2 = 0) :
    shapeCast S4x16x2048x64 w shapeCasts_S4x16x2048x32x2_S4x16x2048x64 (ix4 b h t d)
      = w (ix5 b h t (⟨d.val / 2, by omega⟩ : Fin 32) (0 : Fin 2)) := by
  refine shapeCast_apply w _ (ix4 b h t d) (ix5 b h t (⟨d.val / 2, by omega⟩ : Fin 32) (0 : Fin 2)) ?_
  rewrite [Shape.rowMajor_val_four, Shape.rowMajor_val_five]
  show (((b.val * 16 + h.val) * 2048 + t.val) * 32 + d.val / 2) * 2 + 0
    = ((b.val * 16 + h.val) * 2048 + t.val) * 64 + d.val
  omega

/-- … and an odd lane `d` is slot 1 of pair `d / 2`. -/
theorem lanes_odd (w : S4x16x2048x32x2.Idx → α) (b : Fin 4) (h : Fin 16) (t : Fin 2048) (d : Fin 64) (hd : d.val % 2 = 1) :
    shapeCast S4x16x2048x64 w shapeCasts_S4x16x2048x32x2_S4x16x2048x64 (ix4 b h t d)
      = w (ix5 b h t (⟨d.val / 2, by omega⟩ : Fin 32) (1 : Fin 2)) := by
  refine shapeCast_apply w _ (ix4 b h t d) (ix5 b h t (⟨d.val / 2, by omega⟩ : Fin 32) (1 : Fin 2)) ?_
  rewrite [Shape.rowMajor_val_four, Shape.rowMajor_val_five]
  show (((b.val * 16 + h.val) * 2048 + t.val) * 32 + d.val / 2) * 2 + 1
    = ((b.val * 16 + h.val) * 2048 + t.val) * 64 + d.val
  omega

/-- A unit last axis added reads the array without it. -/
theorem bcast_at (w : S4x16x2048x32.Idx → α) (b : Fin 4) (h : Fin 16) (t : Fin 2048) (i : Fin 32) :
    broadcastInDim S4x16x2048x32x1 ![0, 1, 2, 3] bcast_S4x16x2048x32_S4x16x2048x32x1_0_1_2_3 w (ix5 b h t i (0 : Fin 1))
      = w (ix4 b h t i) :=
  broadcastInDim_apply _ bcast_S4x16x2048x32_S4x16x2048x32x1_0_1_2_3 w (ix5 b h t i (0 : Fin 1)) (ix4 b h t i)
    (fun a => match a with
      | ⟨0, _⟩ => by show b.val = if (4 : Nat) = 1 then 0 else b.val; rw [if_neg (by decide)]
      | ⟨1, _⟩ => by show h.val = if (16 : Nat) = 1 then 0 else h.val; rw [if_neg (by decide)]
      | ⟨2, _⟩ => by show t.val = if (2048 : Nat) = 1 then 0 else t.val; rw [if_neg (by decide)]
      | ⟨3, _⟩ => by show i.val = if (32 : Nat) = 1 then 0 else i.val; rw [if_neg (by decide)])

/-- A unit last axis dropped reads the array at `0` there. -/
theorem squeeze_at (u : S4x16x2048x32x1.Idx → α) (b : Fin 4) (h : Fin 16) (t : Fin 2048) (i : Fin 32) :
    shapeCast S4x16x2048x32 u shapeCasts_S4x16x2048x32x1_S4x16x2048x32 (ix4 b h t i) = u (ix5 b h t i (0 : Fin 1)) := by
  refine shapeCast_apply u _ (ix4 b h t i) (ix5 b h t i (0 : Fin 1)) ?_
  rewrite [Shape.rowMajor_val_four, Shape.rowMajor_val_five]
  show ((((b.val * 16 + h.val) * 2048 + t.val) * 32 + i.val) * 1 + 0)
    = ((b.val * 16 + h.val) * 2048 + t.val) * 32 + i.val
  omega

/-- The first slot of each pair. -/
theorem slot0_at (z : S4x16x2048x32x2.Idx → α) (b : Fin 4) (h : Fin 16) (t : Fin 2048) (i : Fin 32) :
    extractStridedSlice S4x16x2048x32x1 ![0, 0, 0, 0, 0] z slices_S4x16x2048x32x2_S4x16x2048x32x1_0_0_0_0_0
        (ix5 b h t i (0 : Fin 1))
      = z (ix5 b h t i (0 : Fin 2)) :=
  extractStridedSlice_apply ![0, 0, 0, 0, 0] z _ (ix5 b h t i (0 : Fin 1)) (ix5 b h t i (0 : Fin 2)) (fun a => match a with
    | ⟨0, _⟩ => by show b.val = 0 + b.val; omega
    | ⟨1, _⟩ => by show h.val = 0 + h.val; omega
    | ⟨2, _⟩ => by show t.val = 0 + t.val; omega
    | ⟨3, _⟩ => by show i.val = 0 + i.val; omega
    | ⟨4, _⟩ => by show 0 = 0 + 0; omega)

/-- The second slot of each pair. -/
theorem slot1_at (z : S4x16x2048x32x2.Idx → α) (b : Fin 4) (h : Fin 16) (t : Fin 2048) (i : Fin 32) :
    extractStridedSlice S4x16x2048x32x1 ![0, 0, 0, 0, 1] z slices_S4x16x2048x32x2_S4x16x2048x32x1_0_0_0_0_1
        (ix5 b h t i (0 : Fin 1))
      = z (ix5 b h t i (1 : Fin 2)) :=
  extractStridedSlice_apply ![0, 0, 0, 0, 1] z _ (ix5 b h t i (0 : Fin 1)) (ix5 b h t i (1 : Fin 2)) (fun a => match a with
    | ⟨0, _⟩ => by show b.val = 0 + b.val; omega
    | ⟨1, _⟩ => by show h.val = 0 + h.val; omega
    | ⟨2, _⟩ => by show t.val = 0 + t.val; omega
    | ⟨3, _⟩ => by show i.val = 0 + i.val; omega
    | ⟨4, _⟩ => by show 1 = 1 + 0; omega)

/-- Two arrays of single slots joined into pairs: slot 0 is the first array's. -/
theorem join_at0 (u v : S4x16x2048x32x1.Idx → α) (b : Fin 4) (h : Fin 16) (t : Fin 2048) (i : Fin 32) :
    concatenate S4x16x2048x32x2 4 [⟨S4x16x2048x32x1, u⟩, ⟨S4x16x2048x32x1, v⟩]
        concatenates_S4x16x2048x32x1_S4x16x2048x32x1_S4x16x2048x32x2_d4 (ix5 b h t i (0 : Fin 2))
      = u (ix5 b h t i (0 : Fin 1)) :=
  concatenate_pair_apply_left 4 u v _ (ix5 b h t i (0 : Fin 2)) rfl (ix5 b h t i (0 : Fin 1)) (fun a => match a with
    | ⟨0, _⟩ => rfl
    | ⟨1, _⟩ => rfl
    | ⟨2, _⟩ => rfl
    | ⟨3, _⟩ => rfl
    | ⟨4, _⟩ => rfl)

/-- … and slot 1 is the second array's. -/
theorem join_at1 (u v : S4x16x2048x32x1.Idx → α) (b : Fin 4) (h : Fin 16) (t : Fin 2048) (i : Fin 32) :
    concatenate S4x16x2048x32x2 4 [⟨S4x16x2048x32x1, u⟩, ⟨S4x16x2048x32x1, v⟩]
        concatenates_S4x16x2048x32x1_S4x16x2048x32x1_S4x16x2048x32x2_d4 (ix5 b h t i (1 : Fin 2))
      = v (ix5 b h t i (0 : Fin 1)) :=
  concatenate_pair_apply_right 4 u v _ (ix5 b h t i (1 : Fin 2)) rfl rfl (ix5 b h t i (0 : Fin 1)) (fun a ha => match a, ha with
    | ⟨0, _⟩, _ => rfl
    | ⟨1, _⟩, _ => rfl
    | ⟨2, _⟩, _ => rfl
    | ⟨3, _⟩, _ => rfl
    | ⟨4, _⟩, ha => absurd rfl ha) rfl

/-- The position-and-lane table spread over batches and heads. -/
theorem table_at (c : S2048x64.Idx → α) (b : Fin 4) (h : Fin 16) (t : Fin 2048) (d : Fin 64) :
    broadcastInDim S4x16x2048x64 ![0, 1, 2, 3] bcast_S1x1x2048x64_S4x16x2048x64_0_1_2_3
        (broadcastInDim S1x1x2048x64 ![2, 3] bcast_S2048x64_S1x1x2048x64_2_3 c) (ix4 b h t d)
      = c (ix2 t d) := by
  rw [broadcastInDim_apply _ bcast_S1x1x2048x64_S4x16x2048x64_0_1_2_3 _ (ix4 b h t d) (ix4 (0 : Fin 1) (0 : Fin 1) t d)
    (fun a => match a with
      | ⟨0, _⟩ => by show 0 = if (1 : Nat) = 1 then 0 else b.val; rw [if_pos rfl]
      | ⟨1, _⟩ => by show 0 = if (1 : Nat) = 1 then 0 else h.val; rw [if_pos rfl]
      | ⟨2, _⟩ => by show t.val = if (2048 : Nat) = 1 then 0 else t.val; rw [if_neg (by decide)]
      | ⟨3, _⟩ => by show d.val = if (64 : Nat) = 1 then 0 else d.val; rw [if_neg (by decide)])]
  exact broadcastInDim_apply _ bcast_S2048x64_S1x1x2048x64_2_3 c (ix4 (0 : Fin 1) (0 : Fin 1) t d) (ix2 t d)
    (fun a => match a with
      | ⟨0, _⟩ => by show t.val = if (2048 : Nat) = 1 then 0 else t.val; rw [if_neg (by decide)]
      | ⟨1, _⟩ => by show d.val = if (64 : Nat) = 1 then 0 else d.val; rw [if_neg (by decide)])

end Stage

/-- The host's negation of an array of extended reals, at an index. -/
theorem hostNegf_at {s : Shape} {φ : FTy} (w : FVec Ideal s φ) (i : s.Idx) : Host.negf w i = -(w i) := rfl

/-- The reference's rotation of adjacent lanes, as its text builds it from an array of 64-lane rows. -/
def rotHalf (y : FVec Ideal S4x16x2048x64 .f32) : FVec Ideal S4x16x2048x64 .f32 :=
  shapeCast S4x16x2048x64
    (concatenate S4x16x2048x32x2 4
      [⟨S4x16x2048x32x1, broadcastInDim S4x16x2048x32x1 ![0, 1, 2, 3] bcast_S4x16x2048x32_S4x16x2048x32x1_0_1_2_3
          (Host.negf (shapeCast S4x16x2048x32
            (extractStridedSlice S4x16x2048x32x1 ![0, 0, 0, 0, 1]
              (shapeCast S4x16x2048x32x2 y shapeCasts_S4x16x2048x64_S4x16x2048x32x2)
              slices_S4x16x2048x32x2_S4x16x2048x32x1_0_0_0_0_1)
            shapeCasts_S4x16x2048x32x1_S4x16x2048x32))⟩,
       ⟨S4x16x2048x32x1, broadcastInDim S4x16x2048x32x1 ![0, 1, 2, 3] bcast_S4x16x2048x32_S4x16x2048x32x1_0_1_2_3
          (shapeCast S4x16x2048x32
            (extractStridedSlice S4x16x2048x32x1 ![0, 0, 0, 0, 0]
              (shapeCast S4x16x2048x32x2 y shapeCasts_S4x16x2048x64_S4x16x2048x32x2)
              slices_S4x16x2048x32x2_S4x16x2048x32x1_0_0_0_0_0)
            shapeCasts_S4x16x2048x32x1_S4x16x2048x32)⟩]
      concatenates_S4x16x2048x32x1_S4x16x2048x32x1_S4x16x2048x32x2_d4)
    shapeCasts_S4x16x2048x32x2_S4x16x2048x64

/-- It is `rotR` of each row: an even lane takes minus its odd neighbour, an odd lane its even neighbour. -/
theorem rotHalf_apply (y : FVec Ideal S4x16x2048x64 .f32) (b : Fin 4) (h : Fin 16) (t : Fin 2048) (d : Fin 64) :
    rotHalf y (ix4 b h t d) = rotR (fun d' => y (ix4 b h t d')) d := by
  unfold rotHalf rotR
  by_cases hpar : d.val % 2 = 0
  · rw [dif_pos hpar, lanes_even _ b h t d hpar, join_at0, bcast_at, hostNegf_at, squeeze_at, slot1_at,
      pairs_at _ b h t _ (1 : Fin 2) (⟨d.val + 1, by omega⟩ : Fin 64) (by show d.val + 1 = 2 * (d.val / 2) + 1; omega)]
  · rw [dif_neg hpar, lanes_odd _ b h t d (by omega), join_at1, bcast_at, squeeze_at, slot0_at,
      pairs_at _ b h t _ (0 : Fin 2) (⟨d.val - 1, by omega⟩ : Fin 64) (by show d.val - 1 = 2 * (d.val / 2) + 0; omega)]

/-- The query's rotated lanes are that stage of the query features … -/
theorem v22_eq (x0 : FVec Ideal S4x2048x1024 .f32) (x2 : FVec Ideal S3072x1024 .f32) :
    val_main_v22 (F := Ideal) x0 x2 = rotHalf (val_main_v4 (F := Ideal) x0 x2) := rfl

/-- … and the key's of the key features. -/
theorem v41_eq (x0 : FVec Ideal S4x2048x1024 .f32) (x2 : FVec Ideal S3072x1024 .f32) :
    val_main_v41 (F := Ideal) x0 x2 = rotHalf (val_main_v6 (F := Ideal) x0 x2) := rfl

/-! ## The angle tables -/

theorem v11_apply (x1 : FVec Ideal S2048x64 .f32) (b : Fin 4) (h : Fin 16) (t : Fin 2048) (d : Fin 64) :
    val_main_v11 (F := Ideal) x1 (ix4 b h t d) = Ideal.cos (x1 (ix2 t d)) := by
  unfold val_main_v11 val_main_v10
  rw [table_at]
  rfl

theorem v25_apply (x1 : FVec Ideal S2048x64 .f32) (b : Fin 4) (h : Fin 16) (t : Fin 2048) (d : Fin 64) :
    val_main_v25 (F := Ideal) x1 (ix4 b h t d) = Ideal.sin (x1 (ix2 t d)) := by
  unfold val_main_v25 val_main_v24
  rw [table_at]
  rfl

theorem v30_apply (x1 : FVec Ideal S2048x64 .f32) (b : Fin 4) (h : Fin 16) (t : Fin 2048) (d : Fin 64) :
    val_main_v30 (F := Ideal) x1 (ix4 b h t d) = Ideal.cos (x1 (ix2 t d)) := by
  unfold val_main_v30 val_main_v29
  rw [table_at]
  rfl

theorem v44_apply (x1 : FVec Ideal S2048x64 .f32) (b : Fin 4) (h : Fin 16) (t : Fin 2048) (d : Fin 64) :
    val_main_v44 (F := Ideal) x1 (ix4 b h t d) = Ideal.sin (x1 (ix2 t d)) := by
  unfold val_main_v44 val_main_v43
  rw [table_at]
  rfl

/-! ## The rotated query and key -/

/-- The reference's rotated query at batch `b`, head `h`, position `t`, lane `d`. -/
theorem v27_apply (x0 : FVec Ideal S4x2048x1024 .f32) (x1 : FVec Ideal S2048x64 .f32) (x2 : FVec Ideal S3072x1024 .f32)
    (b : Fin 4) (h : Fin 16) (t : Fin 2048) (d : Fin 64) :
    val_main_v27 (F := Ideal) x0 x1 x2 (ix4 b h t d) = ropeR x0 x2 x1 0 b h t d := by
  rw [val_main_v27_apply, val_main_v12_apply, val_main_v26_apply, Ideal.addf_def, Ideal.mulf_def, Ideal.mulf_def,
    v4_apply, v11_apply, v25_apply, v22_eq, rotHalf_apply,
    show (fun d' => val_main_v4 (F := Ideal) x0 x2 (ix4 b h t d')) = fun d' => qkvR x0 x2 b t (col 0 h d') from
      funext fun d' => v4_apply x0 x2 b h t d']
  rfl

/-- The reference's rotated key. -/
theorem v46_apply (x0 : FVec Ideal S4x2048x1024 .f32) (x1 : FVec Ideal S2048x64 .f32) (x2 : FVec Ideal S3072x1024 .f32)
    (b : Fin 4) (h : Fin 16) (t : Fin 2048) (d : Fin 64) :
    val_main_v46 (F := Ideal) x0 x1 x2 (ix4 b h t d) = ropeR x0 x2 x1 1 b h t d := by
  rw [val_main_v46_apply, val_main_v31_apply, val_main_v45_apply, Ideal.addf_def, Ideal.mulf_def, Ideal.mulf_def,
    v6_apply, v30_apply, v44_apply, v41_eq, rotHalf_apply,
    show (fun d' => val_main_v6 (F := Ideal) x0 x2 (ix4 b h t d')) = fun d' => qkvR x0 x2 b t (col 1 h d') from
      funext fun d' => v6_apply x0 x2 b h t d']
  rfl

end Cert.ReferenceIdeal.RefValue

end
-- ==== Proof.Ref.Out.lean ====
/-
  The reference's result is `refOut` of its five arguments.

  Read stage by stage from the rotated queries and keys and the values: the scaled scores, their row maximum (a fold of
  `max` from minus infinity, which a further maximum with minus infinity does not change), the exponentials and their
  row sum (started from the zero word), the softmax weights, their product with the values, the change of layout from
  `[batch, head, position, lane]` to `[batch, position, head × lane]`, and the output projection with its bias.
-/
import proofs.«416673_j71210557768228_3_alg».proof.Proof.Ref.QKV
import Mathlib.Data.Finset.Fold

noncomputable section

namespace Cert.ReferenceIdeal.RefValue

open Cert.ReferenceIdeal Cert.ReferenceIdeal.Gen Cert.ReferenceIdeal.Read Cert.Attn
open Idealize.ShloMosaic Idealize.ShloMosaic.TcCoe Idealize.SL.Sem Idealize.ShloMosaic.ValueIdx
open scoped BigOperators

namespace Out

/-- The reference's scale is the word quotient `scaleR`. -/
theorem v48_apply (i : S_.Idx) : val_main_v48 (F := Ideal) i = scaleR := rfl

/-- The left operand of the score's contraction is read at `(b, h, tq, k)`. -/
theorem lidx49 (b : Fin 4) (h : Fin 16) (tq tk : Fin 2048) (k : Fin 64) :
    lidx_main_v49 (ix4 b h tq tk) k = ix4 b h tq k :=
  funext fun a => Fin.ext (by match a with | ⟨0, _⟩ => rfl | ⟨1, _⟩ => rfl | ⟨2, _⟩ => rfl | ⟨3, _⟩ => rfl)

/-- The right operand of the score's contraction is read at `(b, h, tk, k)`. -/
theorem ridx49 (b : Fin 4) (h : Fin 16) (tq tk : Fin 2048) (k : Fin 64) :
    ridx_main_v49 (ix4 b h tq tk) k = ix4 b h tk k :=
  funext fun a => Fin.ext (by match a with | ⟨0, _⟩ => rfl | ⟨1, _⟩ => rfl | ⟨2, _⟩ => rfl | ⟨3, _⟩ => rfl)

/-- The scaled score at batch `b`, head `h`, query position `tq`, key position `tk`. -/
theorem score_apply (x0 : FVec Ideal S4x2048x1024 .f32) (x1 : FVec Ideal S2048x64 .f32) (x2 : FVec Ideal S3072x1024 .f32)
    (b : Fin 4) (h : Fin 16) (tq tk : Fin 2048) :
    val_main_v51 (F := Ideal) x0 x1 x2 (ix4 b h tq tk) = scoreR x0 x2 x1 b h tq tk := by
  rw [val_main_v51_apply, val_main_v49_apply, val_main_v50_apply, v48_apply]
  simp only [lidx49, ridx49, v27_apply, v46_apply]
  rfl

/-- The rank-4 shape of the scores loses its last axis. -/
theorem red3 : S4x16x2048x2048.Reduces [3] S4x16x2048 := by decide

/-- A reduced index with the key position put back on the last axis. -/
theorem lift3 (b : Fin 4) (h : Fin 16) (tq : Fin 2048) (k : Fin (S4x16x2048x2048.size 3)) :
    red3.lift (ix3 b h tq) k = ix4 b h tq (⟨k.val, k.isLt⟩ : Fin 2048) :=
  funext fun a => Fin.ext (by match a with | ⟨0, _⟩ => rfl | ⟨1, _⟩ => rfl | ⟨2, _⟩ => rfl | ⟨3, _⟩ => rfl)

/-- The host's maximum over the key axis, started from minus infinity, is the running maximum of the row. -/
theorem reduceMax_apply (y : FVec Ideal S4x16x2048x2048 .f32) (b : Fin 4) (h : Fin 16) (tq : Fin 2048) :
    Host.reduce (FloatOps.maximumf (F := Ideal) (φ := .f32)) y (val_main_cst_1 (F := Ideal))
        reducesTo_S4x16x2048x2048_S4x16x2048_d3 h_S_ (ix3 b h tq)
      = fmax (fun tk => y (ix4 b h tq tk)) := by
  rw [Host.reduce_eq_fold_single FloatOps.maximumf y _ reducesTo_S4x16x2048x2048_S4x16x2048_d3 red3 h_S_]
  have hf : (y ∘ red3.lift (ix3 b h tq)) = fun k : Fin 2048 => y (ix4 b h tq k) :=
    funext fun k => congrArg y (lift3 b h tq k)
  unfold fmax
  exact congrArg (fun f => Finset.fold max negInf f (Finset.univ : Finset (Fin 2048))) hf

/-- Minus infinity is below the running maximum started from it. -/
theorem negInf_le_fmax (s : Fin 2048 → EReal) : negInf ≤ fmax s := by
  unfold fmax
  exact (Finset.le_fold_max _).2 (Or.inl le_rfl)

/-- So taking the maximum with minus infinity once more changes nothing. -/
theorem max_negInf_fmax (s : Fin 2048 → EReal) : max negInf (fmax s) = fmax s :=
  max_eq_right (negInf_le_fmax s)

/-- The row maximum of the scores. -/
theorem max_apply (x0 : FVec Ideal S4x2048x1024 .f32) (x1 : FVec Ideal S2048x64 .f32) (x2 : FVec Ideal S3072x1024 .f32)
    (b : Fin 4) (h : Fin 16) (tq : Fin 2048) :
    val_main_v54 (F := Ideal) x0 x1 x2 (ix3 b h tq) = fmax (fun tk => scoreR x0 x2 x1 b h tq tk) := by
  rw [val_main_v54_apply, val_main_v53_apply]
  unfold val_main_v52
  rw [reduceMax_apply]
  simp only [score_apply]
  exact max_negInf_fmax _

/-- The row maximum, broadcast back over the key axis, is read at `(b, h, tq)`. -/
theorem idx55_56 (b : Fin 4) (h : Fin 16) (tq tk : Fin 2048) :
    idx_main_v55 (idx_main_v56 (ix4 b h tq tk)) = ix3 b h tq :=
  funext fun a => Fin.ext (by match a with | ⟨0, _⟩ => rfl | ⟨1, _⟩ => rfl | ⟨2, _⟩ => rfl)

/-- The exponential of a score less its row's maximum. -/
theorem exp_apply (x0 : FVec Ideal S4x2048x1024 .f32) (x1 : FVec Ideal S2048x64 .f32) (x2 : FVec Ideal S3072x1024 .f32)
    (b : Fin 4) (h : Fin 16) (tq tk : Fin 2048) :
    val_main_v58 (F := Ideal) x0 x1 x2 (ix4 b h tq tk)
      = Ideal.exp (scoreR x0 x2 x1 b h tq tk - fmax (fun tk' => scoreR x0 x2 x1 b h tq tk')) := by
  rw [val_main_v58_apply, val_main_v57_apply, val_main_v56_apply, val_main_v55_apply, idx55_56, score_apply, max_apply]
  rfl

/-- The sum over the key axis reads its operand at `(b, h, tq, k)`. -/
theorem idx59 (b : Fin 4) (h : Fin 16) (tq : Fin 2048) (k : Fin 2048) :
    idx_main_v59 (ix3 b h tq) k = ix4 b h tq k :=
  funext fun a => Fin.ext (by match a with | ⟨0, _⟩ => rfl | ⟨1, _⟩ => rfl | ⟨2, _⟩ => rfl | ⟨3, _⟩ => rfl)

/-- The row's sum of exponentials. -/
theorem den_apply (x0 : FVec Ideal S4x2048x1024 .f32) (x1 : FVec Ideal S2048x64 .f32) (x2 : FVec Ideal S3072x1024 .f32)
    (b : Fin 4) (h : Fin 16) (tq : Fin 2048) :
    val_main_v59 (F := Ideal) x0 x1 x2 (ix3 b h tq)
      = ∑ k : Fin 2048, Ideal.exp (scoreR x0 x2 x1 b h tq k - fmax (fun tk' => scoreR x0 x2 x1 b h tq tk')) := by
  rw [val_main_v59_apply, val_main_cst_3_apply]
  simp only [idx59, exp_apply]
  rw [Ideal.ofBits_def, Ideal.ofBits_zero_f32, zero_add]

/-- The row sum, broadcast back over the key axis, is read at `(b, h, tq)`. -/
theorem idx60_61 (b : Fin 4) (h : Fin 16) (tq tk : Fin 2048) :
    idx_main_v60 (idx_main_v61 (ix4 b h tq tk)) = ix3 b h tq :=
  funext fun a => Fin.ext (by match a with | ⟨0, _⟩ => rfl | ⟨1, _⟩ => rfl | ⟨2, _⟩ => rfl)

/-- The softmax weight of key position `tk` for query position `tq`. -/
theorem prob_apply (x0 : FVec Ideal S4x2048x1024 .f32) (x1 : FVec Ideal S2048x64 .f32) (x2 : FVec Ideal S3072x1024 .f32)
    (b : Fin 4) (h : Fin 16) (tq tk : Fin 2048) :
    val_main_v62 (F := Ideal) x0 x1 x2 (ix4 b h tq tk)
      = Ideal.div (Ideal.exp (scoreR x0 x2 x1 b h tq tk - fmax (fun tk' => scoreR x0 x2 x1 b h tq tk')))
          (∑ k : Fin 2048, Ideal.exp (scoreR x0 x2 x1 b h tq k - fmax (fun tk' => scoreR x0 x2 x1 b h tq tk'))) := by
  rw [val_main_v62_apply, val_main_v61_apply, val_main_v60_apply, idx60_61, exp_apply, den_apply]
  rfl

/-- The weights are read at `(b, h, t, k)` … -/
theorem lidx63 (b : Fin 4) (h : Fin 16) (t : Fin 2048) (d : Fin 64) (k : Fin 2048) :
    lidx_main_v63 (ix4 b h t d) k = ix4 b h t k :=
  funext fun a => Fin.ext (by match a with | ⟨0, _⟩ => rfl | ⟨1, _⟩ => rfl | ⟨2, _⟩ => rfl | ⟨3, _⟩ => rfl)

/-- … and the values at `(b, h, k, d)`. -/
theorem ridx63 (b : Fin 4) (h : Fin 16) (t : Fin 2048) (d : Fin 64) (k : Fin 2048) :
    ridx_main_v63 (ix4 b h t d) k = ix4 b h k d :=
  funext fun a => Fin.ext (by match a with | ⟨0, _⟩ => rfl | ⟨1, _⟩ => rfl | ⟨2, _⟩ => rfl | ⟨3, _⟩ => rfl)

/-- The attention output at batch `b`, head `h`, position `t`, lane `d`. -/
theorem y_apply (x0 : FVec Ideal S4x2048x1024 .f32) (x1 : FVec Ideal S2048x64 .f32) (x2 : FVec Ideal S3072x1024 .f32)
    (b : Fin 4) (h : Fin 16) (t : Fin 2048) (d : Fin 64) :
    val_main_v63 (F := Ideal) x0 x1 x2 (ix4 b h t d)
      = attnRow (fun tk => scoreR x0 x2 x1 b h t tk) (fun tk => qkvR x0 x2 b tk (col 2 h d)) := by
  rw [val_main_v63_apply]
  simp only [lidx63, ridx63, prob_apply, v8_apply]
  rfl

/-- Output column `o` is lane `o % 64` of head `o / 64`: the reshaped index of `(b, t, o)` is `(b, t, head, lane)`. -/
theorem idx65 (b : Fin 4) (t : Fin 2048) (o : Fin 1024) :
    idx_main_v65 (ix3 b t o) = ix4 b t (headOf o) (laneOf o) := by
  have hb : b.val < 4 := b.isLt
  have ht : t.val < 2048 := t.isLt
  have ho : o.val < 1024 := o.isLt
  funext a
  apply Fin.ext
  match a with
  | ⟨0, _⟩ => show ((b.val * 2048 + t.val) * 1024 + o.val) / 2097152 = b.val; omega
  | ⟨1, _⟩ => show ((b.val * 2048 + t.val) * 1024 + o.val) / 1024 % 2048 = t.val; omega
  | ⟨2, _⟩ => show ((b.val * 2048 + t.val) * 1024 + o.val) / 64 % 16 = o.val / 64; omega
  | ⟨3, _⟩ => show ((b.val * 2048 + t.val) * 1024 + o.val) % 64 = o.val % 64; omega

/-- The transpose exchanges position and head. -/
theorem idx64 (b : Fin 4) (t : Fin 2048) (h : Fin 16) (d : Fin 64) :
    idx_main_v64 (ix4 b t h d) = ix4 b h t d :=
  funext fun a => Fin.ext (by match a with | ⟨0, _⟩ => rfl | ⟨1, _⟩ => rfl | ⟨2, _⟩ => rfl | ⟨3, _⟩ => rfl)

/-- The attention output in `[batch, position, head × lane]` layout. -/
theorem y3_apply (x0 : FVec Ideal S4x2048x1024 .f32) (x1 : FVec Ideal S2048x64 .f32) (x2 : FVec Ideal S3072x1024 .f32)
    (b : Fin 4) (t : Fin 2048) (o : Fin 1024) :
    val_main_v65 (F := Ideal) x0 x1 x2 (ix3 b t o) = yR x0 x2 x1 (ix3 b t o) := by
  rw [val_main_v65_apply, idx65, val_main_v64_apply, idx64, y_apply]
  rfl

/-- The output projection reads the attention output at `(b, t, k)` … -/
theorem lidx66 (b : Fin 4) (t : Fin 2048) (o : Fin 1024) (k : Fin 1024) :
    lidx_main_v66 (ix3 b t o) k = ix3 b t k :=
  funext fun a => Fin.ext (by match a with | ⟨0, _⟩ => rfl | ⟨1, _⟩ => rfl | ⟨2, _⟩ => rfl)

/-- … and the projection matrix at `(o, k)`. -/
theorem ridx66 (b : Fin 4) (t : Fin 2048) (o : Fin 1024) (k : Fin 1024) :
    ridx_main_v66 (ix3 b t o) k = ix2 o k :=
  funext fun a => Fin.ext (by match a with | ⟨0, _⟩ => rfl | ⟨1, _⟩ => rfl)

/-- The bias, broadcast over batch and position, is read at `o`. -/
theorem idx67_68 (b : Fin 4) (t : Fin 2048) (o : Fin 1024) :
    idx_main_v67 (idx_main_v68 (ix3 b t o)) = ix1 o :=
  funext fun a => Fin.ext (by match a with | ⟨0, _⟩ => rfl)

/-- The last stage is `refOut` of the five arrays. -/
theorem v69_eq (x0 : FVec Ideal S4x2048x1024 .f32) (x1 : FVec Ideal S2048x64 .f32) (x2 : FVec Ideal S3072x1024 .f32)
    (x3 : FVec Ideal S1024x1024 .f32) (x4 : FVec Ideal S1024 .f32) :
    val_main_v69 (F := Ideal) x0 x1 x2 x3 x4 = refOut x0 x1 x2 x3 x4 := by
  funext i
  obtain ⟨b, t, o, rfl⟩ : ∃ (b : Fin 4) (t : Fin 2048) (o : Fin 1024), i = ix3 b t o := ⟨i 0, i 1, i 2, eq_ix3 i⟩
  rw [val_main_v69_apply, val_main_v66_apply, val_main_v68_apply, val_main_v67_apply, idx67_68]
  simp only [lidx66, ridx66, y3_apply]
  rfl

end Out

/-- The reference run's result term, at the extended reals, is `refOut` of the launch contents of the arguments. -/
theorem res_out0_eq (m : (ℓ : Loc nD τ sig) → Buf (Elt Ideal) ℓ) (c : Dev nD) :
    Cert.ReferenceIdeal.Value.res_out0 (F := Ideal) m c
      = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  (val_main_v69_eq (F := Ideal) m c).trans (Out.v69_eq _ _ _ _ _)

end Cert.ReferenceIdeal.RefValue

end
-- ==== Proof.K.Reg0.lean ====
/-
  Region 0 of the kernel's program, the projection of 512 rows of the flattened input against all 3072 rows of the
  (row-permuted) weight: its half of the frame, stated at a parameter `V`, the contents of the core's buffers when the
  region is entered.

  The region has three windows. Window 0 stages a 512 × 1024 block of rows of the input, a new one at every grid
  point; window 1 stages the whole 3072 × 1024 weight once, at the first point, and keeps it; window 2 is the output, a
  512 × 3072 block written back at every point. The body loads both inputs whole, loads the output buffer (and does
  not use what it read), and stores ONE value covering the whole output block: the product of the input rows against the
  weight's rows, rounded to the output's format. So after the body each input buffer still holds its block and the
  output buffer holds that one value of the two input blocks (`out0_2`), and the invariant the body keeps is the
  library's plain one (the scoped buffers it never names, and the generator register): `dat0`, `body_obligation0`.
-/
import proofs.«416673_j71210557768228_3_alg».proof.Proof.Gen.Kernel.Launch
import proofs.«416673_j71210557768228_3_alg».proof.Proof.Gen.Kernel.Skeleton
import proofs.«416673_j71210557768228_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it was not fetched the
    block index has not moved since the point that fetched it. For any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S512x3072 := Rect.unit (s := S512x3072) ![0, 0] S512x3072.size inb_S512x3072_S512x3072_0_0

/-! ## What the body leaves in the output window's buffer -/

/-- The output buffer after the body, from the two input blocks: its one store, of the product of the loaded blocks. -/
def out0_2 (x0 : Vec F S512x1024 .f32) (x1 : Vec F S3072x1024 .bf16) : Vec F S512x3072 .bf16 :=
  View.canon [⟨r0_2, k0_pay1 (View.ld x0 r0_0) (View.ld x1 r0_1)⟩]

/-- The one store covers the buffer. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

/-! ## The body's triple -/

set_option maxHeartbeats 1000000 in
/-- The body on whole staging memrefs, the inputs' at contents `x0`, `x1` and the output's at anything, runs to a
    continuation that holds the inputs' as they were and the output's at `out0_2 x0 x1`. -/
theorem sound_kernel0 (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S512x3072 .bf16) (harg3 : arg3.IsWhole)
    (x0 : Vec F S512x1024 .f32) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; the plain invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the kernel's program, the attention of 512 query positions of two heads against all 2048 key positions:
  its half of the frame, stated at a parameter `V`, the contents of the core's buffers when the region is entered.

  Eight windows. Windows 0, 1 and 2 all read ONE array, the projected features: window 0 a 512-position block of the
  two heads' query columns, a new one at every grid point; windows 1 and 2 all 2048 positions of the same two heads'
  key and value columns, fetched when the head pair or the batch changes. Windows 3 and 4 read a 512-position block of
  the cosine and signed-sine tables, windows 5 and 6 the same two tables whole, once. Window 7 is the output, a
  512-position block of the two heads' columns, written back at every point. Because several input windows sit on one
  array, the proof data holds each of those arrays at a PART of the full share: the projected features as a left half,
  the left half of the right half and the right half of the right half; each table as a left and a right half.

  The body loads the seven inputs whole (in a first part that also computes the first head's scores and their row
  maxima), loads the output buffer without using it, and stores one value covering the whole output block
  (`out1_7`). The invariant is the library's plain one.
-/
import proofs.«416673_j71210557768228_3_alg».proof.Proof.Gen.Kernel.Launch
import proofs.«416673_j71210557768228_3_alg».proof.Proof.Gen.Kernel.Skeleton
import proofs.«416673_j71210557768228_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it was not fetched the
    block index has not moved since the point that fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_q : Rect S1x512x128 := Rect.unit (s := S1x512x128) ![0, 0, 0] S1x512x128.size inb_S1x512x128_S1x512x128_0_0_0
abbrev r1_k : Rect S1x2048x128 := Rect.unit (s := S1x2048x128) ![0, 0, 0] S1x2048x128.size inb_S1x2048x128_S1x2048x128_0_0_0
abbrev r1_a : Rect S512x64 := Rect.unit (s := S512x64) ![0, 0] S512x64.size inb_S512x64_S512x64_0_0
abbrev r1_b : Rect S2048x64 := Rect.unit (s := S2048x64) ![0, 0] S2048x64.size inb_S2048x64_S2048x64_0_0

/-! ## What the body leaves in the output window's buffer -/

/-- The output buffer after the body, from the seven input blocks: its one store. -/
def out1_7 (x0 : Vec F S1x512x128 .bf16) (x1 : Vec F S1x2048x128 .bf16) (x2 : Vec F S1x2048x128 .bf16)
    (x3 : Vec F S512x64 .f32) (x4 : Vec F S512x64 .f32) (x5 : Vec F S2048x64 .f32) (x6 : Vec F S2048x64 .f32) : Vec F S1x512x128 .f32 :=
  View.canon [⟨r1_q, k1_pay1 (k1_pay2 (View.ld x0 r1_q)) (k1_pay3 (View.ld x1 r1_k)) (k1_pay4 (View.ld x2 r1_k))
    (k1_pay5 (View.ld x3 r1_a)) (k1_pay6 (View.ld x4 r1_a)) (k1_pay7 (View.ld x5 r1_b)) (k1_pay8 (View.ld x6 r1_b)) (k1_pay9 (View.ld x2 r1_k))
    (k1_pay10 (View.ld x0 r1_q) (View.ld x1 r1_k) (View.ld x3 r1_a) (View.ld x4 r1_a) (View.ld x5 r1_b) (View.ld x6 r1_b))
    (k1_pay11 (View.ld x0 r1_q) (View.ld x1 r1_k) (View.ld x3 r1_a) (View.ld x4 r1_a) (View.ld x5 r1_b) (View.ld x6 r1_b))⟩]

/-- The one store covers the buffer. -/
theorem cover1_7 (p0 : Vec F S1x512x128 .f32) (y : S1x512x128.Idx) :
    ∃ pc ∈ ([⟨r1_q, p0⟩] : List (View.Piece (Elt F) S1x512x128 .f32)), y ∈ pc.1.set :=
  View.cover_of_tiled [⟨r1_q, p0⟩] S1x512x128.size (by rfl) y

/-! ## The body's triple -/

set_option maxHeartbeats 2000000 in
theorem sound_kernel1 (c : Dev nD) (E : Set ℕ) (i : grid1.Coords)
    (arg3 : Memref sig .tc .vmem S1x512x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S512x64 .f32) (harg6 : arg6.IsWhole)
    (arg7 : Memref sig .tc .vmem S512x64 .f32) (harg7 : arg7.IsWhole) (arg8 : Memref sig .tc .vmem S2048x64 .f32) (harg8 : arg8.IsWhole)
    (arg9 : Memref sig .tc .vmem S2048x64 .f32) (harg9 : arg9.IsWhole) (arg10 : Memref sig .tc .vmem S1x512x128 .f32) (harg10 : arg10.IsWhole)
    (x0 : Vec F S1x512x128 .bf16) (x1 : Vec F S1x2048x128 .bf16) (x2 : Vec F S1x2048x128 .bf16)
    (x3 : Vec F S512x64 .f32) (x4 : Vec F S512x64 .f32) (x5 : Vec F S2048x64 .f32) (x6 : Vec F S2048x64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare (out1_7 x0 x1 x2 x3 x4 x5 x6)) -∗ K ⟨⟩))
      ⊢ wp frame (wpE (defs₀ (F := F)) Variants.none c none) E
          (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  dsimp only
  simp only [View.readAt_eq_ld]
  exact View.read_writes_eq_canon _ _ _ (cover1_7 _)

/-! ## The pipeline's proof data -/

/-- The share of its array's buffer each input window holds: the windows on one array between them hold it whole. -/
def q1 : Fin cfg1.W → PosShare TreeShare
  | ⟨0, _⟩ => fullShare.left
  | ⟨1, _⟩ => fullShare.right.left
  | ⟨2, _⟩ => fullShare.right.right
  | ⟨3, _⟩ => fullShare.left
  | ⟨4, _⟩ => fullShare.left
  | ⟨5, _⟩ => fullShare.right
  | ⟨6, _⟩ => fullShare.right
  | _ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the kernel's program, the output projection of 1024 rows of the attention output against all 1024 rows of
  the weight, with the bias row added: its half of the frame, stated at a parameter `V`, the contents of the core's
  buffers when the region is entered.

  Four windows. Window 0 stages a 1024 × 1024 block of rows of the attention output, a new one at every grid point;
  windows 1 and 2 stage the whole weight and the one-row bias once, at the first point; window 3 is the output, a
  1024 × 1024 block written back at every point. The body loads the three inputs whole, loads the output buffer without
  using it, and stores one value covering the whole output block (`out2_3`). The invariant is the library's plain one.
-/
import proofs.«416673_j71210557768228_3_alg».proof.Proof.Gen.Kernel.Launch
import proofs.«416673_j71210557768228_3_alg».proof.Proof.Gen.Kernel.Skeleton
import proofs.«416673_j71210557768228_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-! ## What the body leaves in the output window's buffer -/

/-- The output buffer after the body, from the three input blocks: its one store. -/
def out2_3 (x0 : Vec F S1024x1024 .f32) (x1 : Vec F S1024x1024 .bf16) (x2 : Vec F S1x1024 .f32) : Vec F S1024x1024 .f32 :=
  View.canon [⟨r2_0, k2_pay1 (View.ld x0 r2_0) (View.ld x1 r2_0) (View.ld x2 r2_2)⟩]

/-- The one store covers the buffer. -/
theorem cover2_3 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
theorem sound_kernel2 (c : Dev nD) (E : Set ℕ) (i : grid2.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Fold.lean ====
/-
  The contents of the core's buffers at every boundary of the kernel's program, from the launch to the return, and the
  proof data of the three regions at the contents each is entered with.

  @main is four stretches of host operations with the three regions between them. `W0` is the launch memory; a host
  stretch takes `W(2k)` to `W(2k+1)` by running its operations; a region takes `W(2k+1)` to `W(2k+2)` by replacing the
  contents of its ONE output array with what its write-backs leave (`Dat.arrAt … N`), every other buffer as entered:
  a region writes nothing else, its input arrays end as they were entered. No stretch and no region writes an
  argument, so each argument's buffer at `W7` is the launch memory's (`W7_main_argK`).
-/
import proofs.«416673_j71210557768228_3_alg».proof.Proof.K.Reg0
import proofs.«416673_j71210557768228_3_alg».proof.Proof.K.Reg1
import proofs.«416673_j71210557768228_3_alg».proof.Proof.K.Reg2
import proofs.«416673_j71210557768228_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch. -/
abbrev W0 : Dev nD → Valuation τ sig (Elt F) := fun c b => m ((c : Dev nD), b)
/-- After the first host stretch: region 0's entry. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At region 0's exit: the projected features at what the 16 write-backs leave, everything else as entered. -/
def W2 (c : Dev nD) : Valuation τ sig (Elt F) :=
  Function.update (W1 m c) (Proc.devRef .tc main_v27) ((dat0 (E1 m) c).arrAt 2 cfg0.N)
abbrev E2 : (c : Dev nD) → (b : Ref sig .tc) → Buf (Elt F) ((c : Thread nD τ).loc b) := fun c b => W2 m c b
/-- After the second host stretch: region 1's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At region 1's exit: the attention output at what the 128 write-backs leave. -/
def W4 (c : Dev nD) : Valuation τ sig (Elt F) :=
  Function.update (W3 m c) (Proc.devRef .tc main_v29) ((dat1 (E3 m) c).arrAt 7 cfg1.N)
abbrev E4 : (c : Dev nD) → (b : Ref sig .tc) → Buf (Elt F) ((c : Thread nD τ).loc b) := fun c b => W4 m c b
/-- After the third host stretch: region 2's entry. -/
abbrev W5 : Dev nD → Valuation τ sig (Elt F) := fun c => StableHlo.after hostOps2 (W4 m c)
abbrev E5 : (c : Dev nD) → (b : Ref sig .tc) → Buf (Elt F) ((c : Thread nD τ).loc b) := fun c b => W5 m c b
/-- At region 2's exit: the projected output at what the 8 write-backs leave. -/
def W6 (c : Dev nD) : Valuation τ sig (Elt F) :=
  Function.update (W5 m c) (Proc.devRef .tc main_v32) ((dat2 (E5 m) c).arrAt 3 cfg2.N)
abbrev E6 : (c : Dev nD) → (b : Ref sig .tc) → Buf (Elt F) ((c : Thread nD τ).loc b) := fun c b => W6 m c b
/-- After the last host stretch: the return. -/
abbrev W7 : Dev nD → Valuation τ sig (Elt F) := fun c => StableHlo.after hostOps3 (W6 m c)

/-! ## A region's exit, read at a reference -/

theorem W2_out (c : Dev nD) : W2 m c (Proc.devRef .tc main_v27) = (dat0 (E1 m) c).arrAt 2 cfg0.N := by
  unfold W2; exact Function.update_self ..
theorem W2_of_ne (c : Dev nD) (b : Ref sig .tc) (hb : b ≠ main_v27) : W2 m c (Proc.devRef .tc b) = W1 m c (Proc.devRef .tc b) := by
  unfold W2; exact Function.update_of_ne (StableHlo.devRef_ne_of_ne hb) ..
theorem W4_out (c : Dev nD) : W4 m c (Proc.devRef .tc main_v29) = (dat1 (E3 m) c).arrAt 7 cfg1.N := by
  unfold W4; exact Function.update_self ..
theorem W4_of_ne (c : Dev nD) (b : Ref sig .tc) (hb : b ≠ main_v29) : W4 m c (Proc.devRef .tc b) = W3 m c (Proc.devRef .tc b) := by
  unfold W4; exact Function.update_of_ne (StableHlo.devRef_ne_of_ne hb) ..
theorem W6_out (c : Dev nD) : W6 m c (Proc.devRef .tc main_v32) = (dat2 (E5 m) c).arrAt 3 cfg2.N := by
  unfold W6; exact Function.update_self ..
theorem W6_of_ne (c : Dev nD) (b : Ref sig .tc) (hb : b ≠ main_v32) : W6 m c (Proc.devRef .tc b) = W5 m c (Proc.devRef .tc b) := by
  unfold W6; exact Function.update_of_ne (StableHlo.devRef_ne_of_ne hb) ..

/-! ## A host stretch leaves what it does not write -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W7_of (c : Dev nD) (r : Ref sig .tc) (h : r ∉ hostOps3_W) : W7 m c (Proc.devRef .tc r) = W6 m c (Proc.devRef .tc r) :=
  StableHlo.after_of_writes_sub hostOps3 _ hostOps3_writes h

/-- A reference no stretch writes and no region's output holds its launch contents at the return. -/
theorem W7_kept (c : Dev nD) (r : Ref sig .tc) (h0 : r ∉ hostOps0_W) (h1 : r ∉ hostOps1_W) (h2 : r ∉ hostOps2_W) (h3 : r ∉ hostOps3_W)
    (n0 : r ≠ main_v27) (n1 : r ≠ main_v29) (n2 : r ≠ main_v32) :
    W7 m c (Proc.devRef .tc r) = m ((c : Thread nD τ).loc r) :=
  (W7_of m c r h3).trans <| (W6_of_ne m c r n2).trans <| (W5_of m c r h2).trans <| (W4_of_ne m c r n1).trans <|
    (W3_of m c r h1).trans <| (W2_of_ne m c r n0).trans <| (W1_of m c r h0).trans rfl

theorem W7_main_arg0 (c : Dev nD) : W7 m c (Proc.devRef .tc main_arg0) = m ((c : Thread nD τ).loc main_arg0) :=
  W7_kept m c main_arg0 (by decide) (by decide) (by decide) (by decide) (by decide) (by decide) (by decide)
theorem W7_main_arg1 (c : Dev nD) : W7 m c (Proc.devRef .tc main_arg1) = m ((c : Thread nD τ).loc main_arg1) :=
  W7_kept m c main_arg1 (by decide) (by decide) (by decide) (by decide) (by decide) (by decide) (by decide)
theorem W7_main_arg2 (c : Dev nD) : W7 m c (Proc.devRef .tc main_arg2) = m ((c : Thread nD τ).loc main_arg2) :=
  W7_kept m c main_arg2 (by decide) (by decide) (by decide) (by decide) (by decide) (by decide) (by decide)
theorem W7_main_arg3 (c : Dev nD) : W7 m c (Proc.devRef .tc main_arg3) = m ((c : Thread nD τ).loc main_arg3) :=
  W7_kept m c main_arg3 (by decide) (by decide) (by decide) (by decide) (by decide) (by decide) (by decide)
theorem W7_main_arg4 (c : Dev nD) : W7 m c (Proc.devRef .tc main_arg4) = m ((c : Thread nD τ).loc main_arg4) :=
  W7_kept m c main_arg4 (by decide) (by decide) (by decide) (by decide) (by decide) (by decide) (by decide)

/-! ## The proof data family and what rides beside the buffers -/

/-- No pipeline has a prefetched table. -/
abbrev admH : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E3 m) c
  | ⟨2, _⟩ => fun c => dat2 (E5 m) c

abbrev 𝒱H : Variants := Variants.none
/-- No core owes another anything: no level is assigned. -/
abbrev LH : GSem nD τ sig → Finset Unit := fun _ => ∅
abbrev lvH : GSem nD τ sig → Unit → ℕ := fun _ _ => 0

/-- What rides beside the buffers through every segment: the generator register at some state, and nothing owed. -/
abbrev RH (c : Dev nD) : sProp 𝕄 := iprop((∃ r, prngReg c r) ∗ ∃ W, owes (c : Thread nD τ) (0 : CellTallies nD τ sig Unit) W)

/-- A host stretch as a segment over every unscoped buffer, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at `W7`, the generator register at some state. -/
abbrev TnH (c : Dev nD) : sProp 𝕄 := iprop(StableHlo.held (c : Thread nD τ) (Pipeline.ucRefs τ sig) (W7 m c) ∗ ∃ r, prngReg c r)

end Cert.Kernel.Hand

end
-- ==== Proof.K.Seg0.lean ====
/-
  Region 0 as a segment of @main: the projection, entered from the contents the first host stretch leaves and left with
  the projected features in place.
-/
import proofs.«416673_j71210557768228_3_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an input array what it held at entry, the
    output array the write-backs' result. -/
theorem hF0 (c : Dev nD) (w : Fin cfg0.W) : (dat0 (E1 m) c).arrAt w cfg0.N = E2 m c (Pipeline.arrRef spec0 w) := by
  match w with
  | ⟨0, _⟩ => exact (((dat0 (E1 m) c).arrAt_in 0 rfl _).trans (A_eq0 (E1 m) c 0)).trans (W2_of_ne m c _ (by decide)).symm
  | ⟨1, _⟩ => exact (((dat0 (E1 m) c).arrAt_in 1 rfl _).trans (A_eq0 (E1 m) c 1)).trans (W2_of_ne m c _ (by decide)).symm
  | ⟨2, _⟩ => exact (W2_out m c).symm

/-- Every buffer that is no array of the region holds at the exit what it held at entry. -/
theorem hrest0 (c : Dev nD) : ∀ b, b ∉ Finset.univ.image (Pipeline.arrRef spec0) → E2 m c b = E1 m c b :=
  fun b hb => W2_of_ne m c b fun e => hb (Finset.mem_image.mpr ⟨2, Finset.mem_univ _, by subst e; rfl⟩)

-- a library lemma stated over the pinned configuration unifies with the printed one only when unification may unfold
-- plain definitions in a metavariable's type
set_option backward.isDefEq.respectTransparency.types false in
/-- REGION 0 over the thread state: entered from every unscoped buffer at `W1`, left at `W2`. Its arrays are split
    out of the unscoped buffers and put back at the exit contents; the generator register goes into the plain invariant
    and comes out; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/-
  Region 1 as a segment of @main: the attention, entered from the contents the second host stretch leaves and left with
  the attention output in place.

  Its eight windows sit on FOUR buffers: the projected features (windows 0, 1, 2), the cosine table (3, 5), the signed
  sine table (4, 6) and the output (7). At the entry each of the three input buffers, held whole, is dealt among the
  windows on it — the features as a left half, the left half of the right half and the right half of the right half,
  each table as a left and a right half (`q1`) — and at the exit the parts, every window on a buffer ending at the
  same contents, are joined back into the whole (`entry_arrays1`, `exit_arrays1`).
-/
import proofs.«416673_j71210557768228_3_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an input array what it held at entry, the
    output array the write-backs' result. -/
theorem hF1 (c : Dev nD) (w : Fin cfg1.W) : (dat1 (E3 m) c).arrAt w cfg1.N = E4 m c (Pipeline.arrRef spec1 w) := by
  match w with
  | ⟨0, _⟩ => exact (((dat1 (E3 m) c).arrAt_in 0 rfl _).trans (A_eq1 (E3 m) c 0)).trans (W4_of_ne m c _ (by decide)).symm
  | ⟨1, _⟩ => exact (((dat1 (E3 m) c).arrAt_in 1 rfl _).trans (A_eq1 (E3 m) c 1)).trans (W4_of_ne m c _ (by decide)).symm
  | ⟨2, _⟩ => exact (((dat1 (E3 m) c).arrAt_in 2 rfl _).trans (A_eq1 (E3 m) c 2)).trans (W4_of_ne m c _ (by decide)).symm
  | ⟨3, _⟩ => exact (((dat1 (E3 m) c).arrAt_in 3 rfl _).trans (A_eq1 (E3 m) c 3)).trans (W4_of_ne m c _ (by decide)).symm
  | ⟨4, _⟩ => exact (((dat1 (E3 m) c).arrAt_in 4 rfl _).trans (A_eq1 (E3 m) c 4)).trans (W4_of_ne m c _ (by decide)).symm
  | ⟨5, _⟩ => exact (((dat1 (E3 m) c).arrAt_in 5 rfl _).trans (A_eq1 (E3 m) c 5)).trans (W4_of_ne m c _ (by decide)).symm
  | ⟨6, _⟩ => exact (((dat1 (E3 m) c).arrAt_in 6 rfl _).trans (A_eq1 (E3 m) c 6)).trans (W4_of_ne m c _ (by decide)).symm
  | ⟨7, _⟩ => exact (W4_out m c).symm

/-- Every buffer that is no array of the region holds at the exit what it held at entry. -/
theorem hrest1 (c : Dev nD) : ∀ b, b ∉ Finset.univ.image (Pipeline.arrRef spec1) → E4 m c b = E3 m c b :=
  fun b hb => W4_of_ne m c b fun e => hb (Finset.mem_image.mpr ⟨7, Finset.mem_univ _, by subst e; rfl⟩)

namespace Seg1

/-- The eight windows sit on four distinct buffers. -/
theorem image_arrRef1 : Finset.univ.image (Pipeline.arrRef spec1) = {main_v28, main_v12, main_v25, main_v29} := by decide

/-- A whole buffer is its left and right halves. -/
theorem share2 (ℓ : Loc nD τ sig) (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- A whole buffer is its left half and the two halves of its right half. -/
theorem share3 (ℓ : Loc nD τ sig) (f : Buf (Elt F) ℓ) :
    (ℓ ↦{fullShare} f : sProp 𝕄) ⊣⊢ iprop((ℓ ↦{fullShare.left} f) ∗ (ℓ ↦{fullShare.right.left} f) ∗ ℓ ↦{fullShare.right.right} f) :=
  (share2 ℓ f).trans (sep_congr_right (pointsTo_share (PosShare.mem_left_op_right fullShare.right)))

/-- The core's unscoped buffers are the buffers behind the region's arrays and the rest. -/
theorem split1 (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec1 c V
      ∗ Pipeline.unscopedRest (Ix := Unit) (Name := ℕ) (U := UR sig nD τ) (Lvl := ℕ) spec1 c V) :=
  Pipeline.unscopedBufs_split₀ cfgs 1 winFacts₀1.arr_unscoped c V

/-- The buffers behind the region's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v28) ↦{fullShare} V main_v28) ∗ (((c : Thread nD τ).loc main_v12) ↦{fullShare} V main_v12)
          ∗ (((c : Thread nD τ).loc main_v25) ↦{fullShare} V main_v25) ∗ (((c : Thread nD τ).loc main_v29) ↦{fullShare} V main_v29)) := by
  unfold Pipeline.arrBufs
  rw [image_arrRef1, bigSep_insert (by decide), bigSep_insert (by decide), bigSep_insert (by decide), bigSep_singleton]
  rfl

/-- The share each window's array is held at: its own part for an input, the whole for the output. -/
theorem share1_eq (c : Dev nD) (w : Fin cfg1.W) : (pdats m 1 c).share w = q1 w := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The region's arrays, one window at a time, each a whole buffer at its window's share. -/
theorem arrays1_eq (c : Dev nD) (G : (w : Fin cfg1.W) → Buf (Elt F) ((cfg1.win w).arr.view.loc (c : Thread nD τ))) :
    ((pdats m 1 c).arrays G : sProp 𝕄)
      = iprop((((c : Thread nD τ).loc main_v28) ↦{fullShare.left} G 0) ∗ (((c : Thread nD τ).loc main_v28) ↦{fullShare.right.left} G 1)
          ∗ (((c : Thread nD τ).loc main_v28) ↦{fullShare.right.right} G 2)
          ∗ (((c : Thread nD τ).loc main_v12) ↦{fullShare.left} G 3) ∗ (((c : Thread nD τ).loc main_v25) ↦{fullShare.left} G 4)
          ∗ (((c : Thread nD τ).loc main_v12) ↦{fullShare.right} G 5) ∗ (((c : Thread nD τ).loc main_v25) ↦{fullShare.right} G 6)
          ∗ (((c : Thread nD τ).loc main_v29) ↦{fullShare} G 7)) := by
  have h : ((pdats m 1 c).arrays G : sProp 𝕄)
      = bigSep Finset.univ fun w : Fin cfg1.W => (((c : Thread nD τ).loc (Pipeline.arrRef spec1 w)) ↦{q1 w} G w : sProp 𝕄) := by
    unfold Dat.arrays
    exact bigSep_congr fun w _ => by
      rw [show ((Pipeline.pin (pcfgs (F := F)) admH 1).win w).arr.view.set = Finset.univ from (arr_whole1 w).set_eq_univ, share1_eq]
      rfl
  rw [h, bigSep_W1]
  rfl

end Seg1

/-- ENTRY: the core's unscoped buffers at the entry contents are the region's eight arrays at those contents, each at
    its window's share, and the unscoped buffers that are no array of the region. -/
theorem entry_arrays1 (c : Dev nD) :
    (unscopedBufs c (E3 m c) : sProp 𝕄)
      ⊢ iprop((pdats m 1 c).arrays ((pdats m 1 c).arrAt · 0)
          ∗ Pipeline.unscopedRest (Ix := Unit) (Name := ℕ) (U := UR sig nD τ) (Lvl := ℕ) spec1 c (E3 m c)) := by
  rw [Seg1.split1 c (E3 m c)]
  refine sep_mono ?_ .rfl
  rw [show ((pdats m 1 c).arrAt · 0) = (fun w => E3 m c (Pipeline.arrRef spec1 w)) from funext fun w => rfl,
    Seg1.arrBufs1_eq, Seg1.arrays1_eq]
  iintro ⟨H28, H12, H25, H29⟩
  ihave H28' := (Seg1.share3 _ _).1 $$ H28
  icases H28' with ⟨H0, H1, H2⟩
  ihave H12' := (Seg1.share2 _ _).1 $$ H12
  icases H12' with ⟨H3, H5⟩
  ihave H25' := (Seg1.share2 _ _).1 $$ H25
  icases H25' with ⟨H4, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H29

/-- EXIT: the region's eight arrays at what the pipeline leaves, each at its window's share, and the other unscoped
    buffers as entered, are the core's unscoped buffers at the exit contents. -/
theorem exit_arrays1 (c : Dev nD) :
    iprop((pdats m 1 c).arrays ((pdats m 1 c).arrAt · cfg1.N)
        ∗ Pipeline.unscopedRest (Ix := Unit) (Name := ℕ) (U := UR sig nD τ) (Lvl := ℕ) spec1 c (E3 m c))
      ⊢ (unscopedBufs c (E4 m c) : sProp 𝕄) := by
  rw [Seg1.split1 c (E4 m c)]
  refine sep_mono ?_ (Entails.of_eq ?_)
  · rw [show ((pdats m 1 c).arrAt · cfg1.N) = (fun w => E4 m c (Pipeline.arrRef spec1 w)) from funext fun w => hF1 m c w,
      Seg1.arrBufs1_eq, Seg1.arrays1_eq]
    iintro ⟨H0, H1, H2, H3, H4, H5, H6, H29⟩
    isplitl [H0 H1 H2]
    · iapply (Seg1.share3 _ _).2
      isplitl [H0]; · iexact H0
      isplitl [H1]; · iexact H1
      iexact H2
    isplitl [H3 H5]
    · iapply (Seg1.share2 _ _).2
      isplitl [H3]; · iexact H3
      iexact H5
    isplitl [H4 H6]
    · iapply (Seg1.share2 _ _).2
      isplitl [H4]; · iexact H4
      iexact H6
    iexact H29
  · unfold Pipeline.unscopedRest
    exact bigSep_congr fun b hb => by rw [hrest1 m c b (Finset.mem_sdiff.mp hb).2]

set_option backward.isDefEq.respectTransparency.types false in
/-- REGION 1 over the thread state: entered from every unscoped buffer at `W3`, left at `W4`. -/
def reg1 : Pipeline.RegionSeg (pcfgs (F := F)) admH (pdats m) () defs₀ 𝒱H LH lvH 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := entry_arrays1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_arrays1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/-
  Region 2 as a segment of @main: the output projection, entered from the contents the third host stretch leaves and
  left with the projected output in place.
-/
import proofs.«416673_j71210557768228_3_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an input array what it held at entry, the
    output array the write-backs' result. -/
theorem hF2 (c : Dev nD) (w : Fin cfg2.W) : (dat2 (E5 m) c).arrAt w cfg2.N = E6 m c (Pipeline.arrRef spec2 w) := by
  match w with
  | ⟨0, _⟩ => exact (((dat2 (E5 m) c).arrAt_in 0 rfl _).trans (A_eq2 (E5 m) c 0)).trans (W6_of_ne m c _ (by decide)).symm
  | ⟨1, _⟩ => exact (((dat2 (E5 m) c).arrAt_in 1 rfl _).trans (A_eq2 (E5 m) c 1)).trans (W6_of_ne m c _ (by decide)).symm
  | ⟨2, _⟩ => exact (((dat2 (E5 m) c).arrAt_in 2 rfl _).trans (A_eq2 (E5 m) c 2)).trans (W6_of_ne m c _ (by decide)).symm
  | ⟨3, _⟩ => exact (W6_out m c).symm

/-- Every buffer that is no array of the region holds at the exit what it held at entry. -/
theorem hrest2 (c : Dev nD) : ∀ b, b ∉ Finset.univ.image (Pipeline.arrRef spec2) → E6 m c b = E5 m c b :=
  fun b hb => W6_of_ne m c b fun e => hb (Finset.mem_image.mpr ⟨3, Finset.mem_univ _, by subst e; rfl⟩)

-- a library lemma stated over the pinned configuration unifies with the printed one only when unification may unfold
-- plain definitions in a metavariable's type
set_option backward.isDefEq.respectTransparency.types false in
/-- REGION 2 over the thread state: entered from every unscoped buffer at `W5`, left at `W6`. Its arrays are split
    out of the unscoped buffers and put back at the exit contents; the generator register goes into the plain invariant
    and comes out; nothing is owed; the kernel has no semaphore of its own. -/
def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ LH lvH 2 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The run of the kernel's program: @main as its seven segments (four host stretches, three regions), launched from any
  memory with zero counters. Every weakly fair execution terminates, nothing faults, and in every final state each
  unscoped buffer of each core holds what the fold of boundary contents says it holds at the return (`run_all`:
  `W7`). The frame claim reads the five arguments off that (`frame`); the value claim will read the result.
-/
import proofs.«416673_j71210557768228_3_alg».proof.Proof.K.Seg0
import proofs.«416673_j71210557768228_3_alg».proof.Proof.K.Seg1
import proofs.«416673_j71210557768228_3_alg».proof.Proof.K.Seg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's seven segments in order: a host segment per stretch from its boundary's contents, a region per pallas_call. -/
abbrev segsH : List (Pipeline.Seg (pcfgs (F := F)) admH (pdats m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)),
    .region (reg2 m),
    .host (hsegH hostOps3 hostOps3_sub hostOps3_fresh (W6 m)) ]

/-- @main IS the run of the segments. -/
theorem main_runH (c : Dev nD) : main (F := F) c = Pipeline.Seg.run (segsH m) := (main_chain c).trans (by chain_rfl)

set_option backward.isDefEq.respectTransparency.types false in
/-- From any memory with zero counters every weakly fair execution of @main terminates, nothing faulting, and every
    final state has every unscoped buffer of every core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) admH (pdats m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (StableHlo.after hostOps3 (W6 m c)) ∗ RH c) ⊢ _
      iintro ⟨Hh, Hp, HO⟩
      isplitl [Hh Hp]
      · isplitl [Hh] <;> iassumption
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: every weakly fair execution of @main terminates, nothing faulting, and every final state has the five
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucH main_arg0 (by decide))).trans (W7_main_arg0 m c),
     (h c _ (mem_ucH main_arg1 (by decide))).trans (W7_main_arg1 m c),
     (h c _ (mem_ucH main_arg2 (by decide))).trans (W7_main_arg2 m c),
     (h c _ (mem_ucH main_arg3 (by decide))).trans (W7_main_arg3 m c),
     (h c _ (mem_ucH main_arg4 (by decide))).trans (W7_main_arg4 m c)⟩) (run_all m ρ)

end Cert.Kernel.Hand

end
-- ==== Proof.KI.Reg0.lean ====
/-
  Region 0 of the kernel's program, the projection of 512 rows of the flattened input against all 3072 rows of the
  (row-permuted) weight: its half of the frame, stated at a parameter `V`, the contents of the core's buffers when the
  region is entered.

  The region has three windows. Window 0 stages a 512 × 1024 block of rows of the input, a new one at every grid
  point; window 1 stages the whole 3072 × 1024 weight once, at the first point, and keeps it; window 2 is the output, a
  512 × 3072 block written back at every point. The body loads both inputs whole, loads the output buffer (and does
  not use what it read), and stores ONE value covering the whole output block: the product of the input rows against the
  weight's rows, rounded to the output's format. So after the body each input buffer still holds its block and the
  output buffer holds that one value of the two input blocks (`out0_2`), and the invariant the body keeps is the
  library's plain one (the scoped buffers it never names, and the generator register): `dat0`, `body_obligation0`.
-/
import proofs.«416673_j71210557768228_3_alg».proof.Proof.Gen.KernelIdeal.Launch
import proofs.«416673_j71210557768228_3_alg».proof.Proof.Gen.KernelIdeal.Skeleton
import proofs.«416673_j71210557768228_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it was not fetched the
    block index has not moved since the point that fetched it. For any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S512x3072 := Rect.unit (s := S512x3072) ![0, 0] S512x3072.size inb_S512x3072_S512x3072_0_0

/-! ## What the body leaves in the output window's buffer -/

/-- The output buffer after the body, from the two input blocks: its one store, of the product of the loaded blocks. -/
def out0_2 (x0 : Vec F S512x1024 .f32) (x1 : Vec F S3072x1024 .bf16) : Vec F S512x3072 .bf16 :=
  View.canon [⟨r0_2, k0_pay1 (View.ld x0 r0_0) (View.ld x1 r0_1)⟩]

/-- The one store covers the buffer. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

/-! ## The body's triple -/

set_option maxHeartbeats 1000000 in
/-- The body on whole staging memrefs, the inputs' at contents `x0`, `x1` and the output's at anything, runs to a
    continuation that holds the inputs' as they were and the output's at `out0_2 x0 x1`. -/
theorem sound_kernel0 (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S512x3072 .bf16) (harg3 : arg3.IsWhole)
    (x0 : Vec F S512x1024 .f32) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; the plain invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the kernel's program, the attention of 512 query positions of two heads against all 2048 key positions:
  its half of the frame, stated at a parameter `V`, the contents of the core's buffers when the region is entered.

  Eight windows. Windows 0, 1 and 2 all read ONE array, the projected features: window 0 a 512-position block of the
  two heads' query columns, a new one at every grid point; windows 1 and 2 all 2048 positions of the same two heads'
  key and value columns, fetched when the head pair or the batch changes. Windows 3 and 4 read a 512-position block of
  the cosine and signed-sine tables, windows 5 and 6 the same two tables whole, once. Window 7 is the output, a
  512-position block of the two heads' columns, written back at every point. Because several input windows sit on one
  array, the proof data holds each of those arrays at a PART of the full share: the projected features as a left half,
  the left half of the right half and the right half of the right half; each table as a left and a right half.

  The body loads the seven inputs whole (in a first part that also computes the first head's scores and their row
  maxima), loads the output buffer without using it, and stores one value covering the whole output block
  (`out1_7`). The invariant is the library's plain one.
-/
import proofs.«416673_j71210557768228_3_alg».proof.Proof.Gen.KernelIdeal.Launch
import proofs.«416673_j71210557768228_3_alg».proof.Proof.Gen.KernelIdeal.Skeleton
import proofs.«416673_j71210557768228_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it was not fetched the
    block index has not moved since the point that fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_q : Rect S1x512x128 := Rect.unit (s := S1x512x128) ![0, 0, 0] S1x512x128.size inb_S1x512x128_S1x512x128_0_0_0
abbrev r1_k : Rect S1x2048x128 := Rect.unit (s := S1x2048x128) ![0, 0, 0] S1x2048x128.size inb_S1x2048x128_S1x2048x128_0_0_0
abbrev r1_a : Rect S512x64 := Rect.unit (s := S512x64) ![0, 0] S512x64.size inb_S512x64_S512x64_0_0
abbrev r1_b : Rect S2048x64 := Rect.unit (s := S2048x64) ![0, 0] S2048x64.size inb_S2048x64_S2048x64_0_0

/-! ## What the body leaves in the output window's buffer -/

/-- The output buffer after the body, from the seven input blocks: its one store. -/
def out1_7 (x0 : Vec F S1x512x128 .bf16) (x1 : Vec F S1x2048x128 .bf16) (x2 : Vec F S1x2048x128 .bf16)
    (x3 : Vec F S512x64 .f32) (x4 : Vec F S512x64 .f32) (x5 : Vec F S2048x64 .f32) (x6 : Vec F S2048x64 .f32) : Vec F S1x512x128 .f32 :=
  View.canon [⟨r1_q, k1_pay1 (k1_pay2 (View.ld x0 r1_q)) (k1_pay3 (View.ld x1 r1_k)) (k1_pay4 (View.ld x2 r1_k))
    (k1_pay5 (View.ld x3 r1_a)) (k1_pay6 (View.ld x4 r1_a)) (k1_pay7 (View.ld x5 r1_b)) (k1_pay8 (View.ld x6 r1_b)) (k1_pay9 (View.ld x2 r1_k))
    (k1_pay10 (View.ld x0 r1_q) (View.ld x1 r1_k) (View.ld x3 r1_a) (View.ld x4 r1_a) (View.ld x5 r1_b) (View.ld x6 r1_b))
    (k1_pay11 (View.ld x0 r1_q) (View.ld x1 r1_k) (View.ld x3 r1_a) (View.ld x4 r1_a) (View.ld x5 r1_b) (View.ld x6 r1_b))⟩]

/-- The one store covers the buffer. -/
theorem cover1_7 (p0 : Vec F S1x512x128 .f32) (y : S1x512x128.Idx) :
    ∃ pc ∈ ([⟨r1_q, p0⟩] : List (View.Piece (Elt F) S1x512x128 .f32)), y ∈ pc.1.set :=
  View.cover_of_tiled [⟨r1_q, p0⟩] S1x512x128.size (by rfl) y

/-! ## The body's triple -/

set_option maxHeartbeats 2000000 in
theorem sound_kernel1 (c : Dev nD) (E : Set ℕ) (i : grid1.Coords)
    (arg3 : Memref sig .tc .vmem S1x512x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S512x64 .f32) (harg6 : arg6.IsWhole)
    (arg7 : Memref sig .tc .vmem S512x64 .f32) (harg7 : arg7.IsWhole) (arg8 : Memref sig .tc .vmem S2048x64 .f32) (harg8 : arg8.IsWhole)
    (arg9 : Memref sig .tc .vmem S2048x64 .f32) (harg9 : arg9.IsWhole) (arg10 : Memref sig .tc .vmem S1x512x128 .f32) (harg10 : arg10.IsWhole)
    (x0 : Vec F S1x512x128 .bf16) (x1 : Vec F S1x2048x128 .bf16) (x2 : Vec F S1x2048x128 .bf16)
    (x3 : Vec F S512x64 .f32) (x4 : Vec F S512x64 .f32) (x5 : Vec F S2048x64 .f32) (x6 : Vec F S2048x64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare (out1_7 x0 x1 x2 x3 x4 x5 x6)) -∗ K ⟨⟩))
      ⊢ wp frame (wpE (defs₀ (F := F)) Variants.none c none) E
          (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  dsimp only
  simp only [View.readAt_eq_ld]
  exact View.read_writes_eq_canon _ _ _ (cover1_7 _)

/-! ## The pipeline's proof data -/

/-- The share of its array's buffer each input window holds: the windows on one array between them hold it whole. -/
def q1 : Fin cfg1.W → PosShare TreeShare
  | ⟨0, _⟩ => fullShare.left
  | ⟨1, _⟩ => fullShare.right.left
  | ⟨2, _⟩ => fullShare.right.right
  | ⟨3, _⟩ => fullShare.left
  | ⟨4, _⟩ => fullShare.left
  | ⟨5, _⟩ => fullShare.right
  | ⟨6, _⟩ => fullShare.right
  | _ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the kernel's program, the output projection of 1024 rows of the attention output against all 1024 rows of
  the weight, with the bias row added: its half of the frame, stated at a parameter `V`, the contents of the core's
  buffers when the region is entered.

  Four windows. Window 0 stages a 1024 × 1024 block of rows of the attention output, a new one at every grid point;
  windows 1 and 2 stage the whole weight and the one-row bias once, at the first point; window 3 is the output, a
  1024 × 1024 block written back at every point. The body loads the three inputs whole, loads the output buffer without
  using it, and stores one value covering the whole output block (`out2_3`). The invariant is the library's plain one.
-/
import proofs.«416673_j71210557768228_3_alg».proof.Proof.Gen.KernelIdeal.Launch
import proofs.«416673_j71210557768228_3_alg».proof.Proof.Gen.KernelIdeal.Skeleton
import proofs.«416673_j71210557768228_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-! ## What the body leaves in the output window's buffer -/

/-- The output buffer after the body, from the three input blocks: its one store. -/
def out2_3 (x0 : Vec F S1024x1024 .f32) (x1 : Vec F S1024x1024 .bf16) (x2 : Vec F S1x1024 .f32) : Vec F S1024x1024 .f32 :=
  View.canon [⟨r2_0, k2_pay1 (View.ld x0 r2_0) (View.ld x1 r2_0) (View.ld x2 r2_2)⟩]

/-- The one store covers the buffer. -/
theorem cover2_3 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
theorem sound_kernel2 (c : Dev nD) (E : Set ℕ) (i : grid2.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Fold.lean ====
/-
  The contents of the core's buffers at every boundary of the kernel's program, from the launch to the return, and the
  proof data of the three regions at the contents each is entered with.

  @main is four stretches of host operations with the three regions between them. `W0` is the launch memory; a host
  stretch takes `W(2k)` to `W(2k+1)` by running its operations; a region takes `W(2k+1)` to `W(2k+2)` by replacing the
  contents of its ONE output array with what its write-backs leave (`Dat.arrAt … N`), every other buffer as entered:
  a region writes nothing else, its input arrays end as they were entered. No stretch and no region writes an
  argument, so each argument's buffer at `W7` is the launch memory's (`W7_main_argK`).
-/
import proofs.«416673_j71210557768228_3_alg».proof.Proof.KI.Reg0
import proofs.«416673_j71210557768228_3_alg».proof.Proof.KI.Reg1
import proofs.«416673_j71210557768228_3_alg».proof.Proof.KI.Reg2
import proofs.«416673_j71210557768228_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch. -/
abbrev W0 : Dev nD → Valuation τ sig (Elt F) := fun c b => m ((c : Dev nD), b)
/-- After the first host stretch: region 0's entry. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At region 0's exit: the projected features at what the 16 write-backs leave, everything else as entered. -/
def W2 (c : Dev nD) : Valuation τ sig (Elt F) :=
  Function.update (W1 m c) (Proc.devRef .tc main_v27) ((dat0 (E1 m) c).arrAt 2 cfg0.N)
abbrev E2 : (c : Dev nD) → (b : Ref sig .tc) → Buf (Elt F) ((c : Thread nD τ).loc b) := fun c b => W2 m c b
/-- After the second host stretch: region 1's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At region 1's exit: the attention output at what the 128 write-backs leave. -/
def W4 (c : Dev nD) : Valuation τ sig (Elt F) :=
  Function.update (W3 m c) (Proc.devRef .tc main_v29) ((dat1 (E3 m) c).arrAt 7 cfg1.N)
abbrev E4 : (c : Dev nD) → (b : Ref sig .tc) → Buf (Elt F) ((c : Thread nD τ).loc b) := fun c b => W4 m c b
/-- After the third host stretch: region 2's entry. -/
abbrev W5 : Dev nD → Valuation τ sig (Elt F) := fun c => StableHlo.after hostOps2 (W4 m c)
abbrev E5 : (c : Dev nD) → (b : Ref sig .tc) → Buf (Elt F) ((c : Thread nD τ).loc b) := fun c b => W5 m c b
/-- At region 2's exit: the projected output at what the 8 write-backs leave. -/
def W6 (c : Dev nD) : Valuation τ sig (Elt F) :=
  Function.update (W5 m c) (Proc.devRef .tc main_v32) ((dat2 (E5 m) c).arrAt 3 cfg2.N)
abbrev E6 : (c : Dev nD) → (b : Ref sig .tc) → Buf (Elt F) ((c : Thread nD τ).loc b) := fun c b => W6 m c b
/-- After the last host stretch: the return. -/
abbrev W7 : Dev nD → Valuation τ sig (Elt F) := fun c => StableHlo.after hostOps3 (W6 m c)

/-! ## A region's exit, read at a reference -/

theorem W2_out (c : Dev nD) : W2 m c (Proc.devRef .tc main_v27) = (dat0 (E1 m) c).arrAt 2 cfg0.N := by
  unfold W2; exact Function.update_self ..
theorem W2_of_ne (c : Dev nD) (b : Ref sig .tc) (hb : b ≠ main_v27) : W2 m c (Proc.devRef .tc b) = W1 m c (Proc.devRef .tc b) := by
  unfold W2; exact Function.update_of_ne (StableHlo.devRef_ne_of_ne hb) ..
theorem W4_out (c : Dev nD) : W4 m c (Proc.devRef .tc main_v29) = (dat1 (E3 m) c).arrAt 7 cfg1.N := by
  unfold W4; exact Function.update_self ..
theorem W4_of_ne (c : Dev nD) (b : Ref sig .tc) (hb : b ≠ main_v29) : W4 m c (Proc.devRef .tc b) = W3 m c (Proc.devRef .tc b) := by
  unfold W4; exact Function.update_of_ne (StableHlo.devRef_ne_of_ne hb) ..
theorem W6_out (c : Dev nD) : W6 m c (Proc.devRef .tc main_v32) = (dat2 (E5 m) c).arrAt 3 cfg2.N := by
  unfold W6; exact Function.update_self ..
theorem W6_of_ne (c : Dev nD) (b : Ref sig .tc) (hb : b ≠ main_v32) : W6 m c (Proc.devRef .tc b) = W5 m c (Proc.devRef .tc b) := by
  unfold W6; exact Function.update_of_ne (StableHlo.devRef_ne_of_ne hb) ..

/-! ## A host stretch leaves what it does not write -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W7_of (c : Dev nD) (r : Ref sig .tc) (h : r ∉ hostOps3_W) : W7 m c (Proc.devRef .tc r) = W6 m c (Proc.devRef .tc r) :=
  StableHlo.after_of_writes_sub hostOps3 _ hostOps3_writes h

/-- A reference no stretch writes and no region's output holds its launch contents at the return. -/
theorem W7_kept (c : Dev nD) (r : Ref sig .tc) (h0 : r ∉ hostOps0_W) (h1 : r ∉ hostOps1_W) (h2 : r ∉ hostOps2_W) (h3 : r ∉ hostOps3_W)
    (n0 : r ≠ main_v27) (n1 : r ≠ main_v29) (n2 : r ≠ main_v32) :
    W7 m c (Proc.devRef .tc r) = m ((c : Thread nD τ).loc r) :=
  (W7_of m c r h3).trans <| (W6_of_ne m c r n2).trans <| (W5_of m c r h2).trans <| (W4_of_ne m c r n1).trans <|
    (W3_of m c r h1).trans <| (W2_of_ne m c r n0).trans <| (W1_of m c r h0).trans rfl

theorem W7_main_arg0 (c : Dev nD) : W7 m c (Proc.devRef .tc main_arg0) = m ((c : Thread nD τ).loc main_arg0) :=
  W7_kept m c main_arg0 (by decide) (by decide) (by decide) (by decide) (by decide) (by decide) (by decide)
theorem W7_main_arg1 (c : Dev nD) : W7 m c (Proc.devRef .tc main_arg1) = m ((c : Thread nD τ).loc main_arg1) :=
  W7_kept m c main_arg1 (by decide) (by decide) (by decide) (by decide) (by decide) (by decide) (by decide)
theorem W7_main_arg2 (c : Dev nD) : W7 m c (Proc.devRef .tc main_arg2) = m ((c : Thread nD τ).loc main_arg2) :=
  W7_kept m c main_arg2 (by decide) (by decide) (by decide) (by decide) (by decide) (by decide) (by decide)
theorem W7_main_arg3 (c : Dev nD) : W7 m c (Proc.devRef .tc main_arg3) = m ((c : Thread nD τ).loc main_arg3) :=
  W7_kept m c main_arg3 (by decide) (by decide) (by decide) (by decide) (by decide) (by decide) (by decide)
theorem W7_main_arg4 (c : Dev nD) : W7 m c (Proc.devRef .tc main_arg4) = m ((c : Thread nD τ).loc main_arg4) :=
  W7_kept m c main_arg4 (by decide) (by decide) (by decide) (by decide) (by decide) (by decide) (by decide)

/-! ## The proof data family and what rides beside the buffers -/

/-- No pipeline has a prefetched table. -/
abbrev admH : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E3 m) c
  | ⟨2, _⟩ => fun c => dat2 (E5 m) c

abbrev 𝒱H : Variants := Variants.none
/-- No core owes another anything: no level is assigned. -/
abbrev LH : GSem nD τ sig → Finset Unit := fun _ => ∅
abbrev lvH : GSem nD τ sig → Unit → ℕ := fun _ _ => 0

/-- What rides beside the buffers through every segment: the generator register at some state, and nothing owed. -/
abbrev RH (c : Dev nD) : sProp 𝕄 := iprop((∃ r, prngReg c r) ∗ ∃ W, owes (c : Thread nD τ) (0 : CellTallies nD τ sig Unit) W)

/-- A host stretch as a segment over every unscoped buffer, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at `W7`, the generator register at some state. -/
abbrev TnH (c : Dev nD) : sProp 𝕄 := iprop(StableHlo.held (c : Thread nD τ) (Pipeline.ucRefs τ sig) (W7 m c) ∗ ∃ r, prngReg c r)

end Cert.KernelIdeal.Hand

end
-- ==== Proof.KI.Seg0.lean ====
/-
  Region 0 as a segment of @main: the projection, entered from the contents the first host stretch leaves and left with
  the projected features in place.
-/
import proofs.«416673_j71210557768228_3_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an input array what it held at entry, the
    output array the write-backs' result. -/
theorem hF0 (c : Dev nD) (w : Fin cfg0.W) : (dat0 (E1 m) c).arrAt w cfg0.N = E2 m c (Pipeline.arrRef spec0 w) := by
  match w with
  | ⟨0, _⟩ => exact (((dat0 (E1 m) c).arrAt_in 0 rfl _).trans (A_eq0 (E1 m) c 0)).trans (W2_of_ne m c _ (by decide)).symm
  | ⟨1, _⟩ => exact (((dat0 (E1 m) c).arrAt_in 1 rfl _).trans (A_eq0 (E1 m) c 1)).trans (W2_of_ne m c _ (by decide)).symm
  | ⟨2, _⟩ => exact (W2_out m c).symm

/-- Every buffer that is no array of the region holds at the exit what it held at entry. -/
theorem hrest0 (c : Dev nD) : ∀ b, b ∉ Finset.univ.image (Pipeline.arrRef spec0) → E2 m c b = E1 m c b :=
  fun b hb => W2_of_ne m c b fun e => hb (Finset.mem_image.mpr ⟨2, Finset.mem_univ _, by subst e; rfl⟩)

-- a library lemma stated over the pinned configuration unifies with the printed one only when unification may unfold
-- plain definitions in a metavariable's type
set_option backward.isDefEq.respectTransparency.types false in
/-- REGION 0 over the thread state: entered from every unscoped buffer at `W1`, left at `W2`. Its arrays are split
    out of the unscoped buffers and put back at the exit contents; the generator register goes into the plain invariant
    and comes out; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 as a segment of @main: the attention, entered from the contents the second host stretch leaves and left with
  the attention output in place.

  Its eight windows sit on FOUR buffers: the projected features (windows 0, 1, 2), the cosine table (3, 5), the signed
  sine table (4, 6) and the output (7). At the entry each of the three input buffers, held whole, is dealt among the
  windows on it — the features as a left half, the left half of the right half and the right half of the right half,
  each table as a left and a right half (`q1`) — and at the exit the parts, every window on a buffer ending at the
  same contents, are joined back into the whole (`entry_arrays1`, `exit_arrays1`).
-/
import proofs.«416673_j71210557768228_3_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an input array what it held at entry, the
    output array the write-backs' result. -/
theorem hF1 (c : Dev nD) (w : Fin cfg1.W) : (dat1 (E3 m) c).arrAt w cfg1.N = E4 m c (Pipeline.arrRef spec1 w) := by
  match w with
  | ⟨0, _⟩ => exact (((dat1 (E3 m) c).arrAt_in 0 rfl _).trans (A_eq1 (E3 m) c 0)).trans (W4_of_ne m c _ (by decide)).symm
  | ⟨1, _⟩ => exact (((dat1 (E3 m) c).arrAt_in 1 rfl _).trans (A_eq1 (E3 m) c 1)).trans (W4_of_ne m c _ (by decide)).symm
  | ⟨2, _⟩ => exact (((dat1 (E3 m) c).arrAt_in 2 rfl _).trans (A_eq1 (E3 m) c 2)).trans (W4_of_ne m c _ (by decide)).symm
  | ⟨3, _⟩ => exact (((dat1 (E3 m) c).arrAt_in 3 rfl _).trans (A_eq1 (E3 m) c 3)).trans (W4_of_ne m c _ (by decide)).symm
  | ⟨4, _⟩ => exact (((dat1 (E3 m) c).arrAt_in 4 rfl _).trans (A_eq1 (E3 m) c 4)).trans (W4_of_ne m c _ (by decide)).symm
  | ⟨5, _⟩ => exact (((dat1 (E3 m) c).arrAt_in 5 rfl _).trans (A_eq1 (E3 m) c 5)).trans (W4_of_ne m c _ (by decide)).symm
  | ⟨6, _⟩ => exact (((dat1 (E3 m) c).arrAt_in 6 rfl _).trans (A_eq1 (E3 m) c 6)).trans (W4_of_ne m c _ (by decide)).symm
  | ⟨7, _⟩ => exact (W4_out m c).symm

/-- Every buffer that is no array of the region holds at the exit what it held at entry. -/
theorem hrest1 (c : Dev nD) : ∀ b, b ∉ Finset.univ.image (Pipeline.arrRef spec1) → E4 m c b = E3 m c b :=
  fun b hb => W4_of_ne m c b fun e => hb (Finset.mem_image.mpr ⟨7, Finset.mem_univ _, by subst e; rfl⟩)

namespace Seg1

/-- The eight windows sit on four distinct buffers. -/
theorem image_arrRef1 : Finset.univ.image (Pipeline.arrRef spec1) = {main_v28, main_v12, main_v25, main_v29} := by decide

/-- A whole buffer is its left and right halves. -/
theorem share2 (ℓ : Loc nD τ sig) (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- A whole buffer is its left half and the two halves of its right half. -/
theorem share3 (ℓ : Loc nD τ sig) (f : Buf (Elt F) ℓ) :
    (ℓ ↦{fullShare} f : sProp 𝕄) ⊣⊢ iprop((ℓ ↦{fullShare.left} f) ∗ (ℓ ↦{fullShare.right.left} f) ∗ ℓ ↦{fullShare.right.right} f) :=
  (share2 ℓ f).trans (sep_congr_right (pointsTo_share (PosShare.mem_left_op_right fullShare.right)))

/-- The core's unscoped buffers are the buffers behind the region's arrays and the rest. -/
theorem split1 (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec1 c V
      ∗ Pipeline.unscopedRest (Ix := Unit) (Name := ℕ) (U := UR sig nD τ) (Lvl := ℕ) spec1 c V) :=
  Pipeline.unscopedBufs_split₀ cfgs 1 winFacts₀1.arr_unscoped c V

/-- The buffers behind the region's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v28) ↦{fullShare} V main_v28) ∗ (((c : Thread nD τ).loc main_v12) ↦{fullShare} V main_v12)
          ∗ (((c : Thread nD τ).loc main_v25) ↦{fullShare} V main_v25) ∗ (((c : Thread nD τ).loc main_v29) ↦{fullShare} V main_v29)) := by
  unfold Pipeline.arrBufs
  rw [image_arrRef1, bigSep_insert (by decide), bigSep_insert (by decide), bigSep_insert (by decide), bigSep_singleton]
  rfl

/-- The share each window's array is held at: its own part for an input, the whole for the output. -/
theorem share1_eq (c : Dev nD) (w : Fin cfg1.W) : (pdats m 1 c).share w = q1 w := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The region's arrays, one window at a time, each a whole buffer at its window's share. -/
theorem arrays1_eq (c : Dev nD) (G : (w : Fin cfg1.W) → Buf (Elt F) ((cfg1.win w).arr.view.loc (c : Thread nD τ))) :
    ((pdats m 1 c).arrays G : sProp 𝕄)
      = iprop((((c : Thread nD τ).loc main_v28) ↦{fullShare.left} G 0) ∗ (((c : Thread nD τ).loc main_v28) ↦{fullShare.right.left} G 1)
          ∗ (((c : Thread nD τ).loc main_v28) ↦{fullShare.right.right} G 2)
          ∗ (((c : Thread nD τ).loc main_v12) ↦{fullShare.left} G 3) ∗ (((c : Thread nD τ).loc main_v25) ↦{fullShare.left} G 4)
          ∗ (((c : Thread nD τ).loc main_v12) ↦{fullShare.right} G 5) ∗ (((c : Thread nD τ).loc main_v25) ↦{fullShare.right} G 6)
          ∗ (((c : Thread nD τ).loc main_v29) ↦{fullShare} G 7)) := by
  have h : ((pdats m 1 c).arrays G : sProp 𝕄)
      = bigSep Finset.univ fun w : Fin cfg1.W => (((c : Thread nD τ).loc (Pipeline.arrRef spec1 w)) ↦{q1 w} G w : sProp 𝕄) := by
    unfold Dat.arrays
    exact bigSep_congr fun w _ => by
      rw [show ((Pipeline.pin (pcfgs (F := F)) admH 1).win w).arr.view.set = Finset.univ from (arr_whole1 w).set_eq_univ, share1_eq]
      rfl
  rw [h, bigSep_W1]
  rfl

end Seg1

/-- ENTRY: the core's unscoped buffers at the entry contents are the region's eight arrays at those contents, each at
    its window's share, and the unscoped buffers that are no array of the region. -/
theorem entry_arrays1 (c : Dev nD) :
    (unscopedBufs c (E3 m c) : sProp 𝕄)
      ⊢ iprop((pdats m 1 c).arrays ((pdats m 1 c).arrAt · 0)
          ∗ Pipeline.unscopedRest (Ix := Unit) (Name := ℕ) (U := UR sig nD τ) (Lvl := ℕ) spec1 c (E3 m c)) := by
  rw [Seg1.split1 c (E3 m c)]
  refine sep_mono ?_ .rfl
  rw [show ((pdats m 1 c).arrAt · 0) = (fun w => E3 m c (Pipeline.arrRef spec1 w)) from funext fun w => rfl,
    Seg1.arrBufs1_eq, Seg1.arrays1_eq]
  iintro ⟨H28, H12, H25, H29⟩
  ihave H28' := (Seg1.share3 _ _).1 $$ H28
  icases H28' with ⟨H0, H1, H2⟩
  ihave H12' := (Seg1.share2 _ _).1 $$ H12
  icases H12' with ⟨H3, H5⟩
  ihave H25' := (Seg1.share2 _ _).1 $$ H25
  icases H25' with ⟨H4, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H29

/-- EXIT: the region's eight arrays at what the pipeline leaves, each at its window's share, and the other unscoped
    buffers as entered, are the core's unscoped buffers at the exit contents. -/
theorem exit_arrays1 (c : Dev nD) :
    iprop((pdats m 1 c).arrays ((pdats m 1 c).arrAt · cfg1.N)
        ∗ Pipeline.unscopedRest (Ix := Unit) (Name := ℕ) (U := UR sig nD τ) (Lvl := ℕ) spec1 c (E3 m c))
      ⊢ (unscopedBufs c (E4 m c) : sProp 𝕄) := by
  rw [Seg1.split1 c (E4 m c)]
  refine sep_mono ?_ (Entails.of_eq ?_)
  · rw [show ((pdats m 1 c).arrAt · cfg1.N) = (fun w => E4 m c (Pipeline.arrRef spec1 w)) from funext fun w => hF1 m c w,
      Seg1.arrBufs1_eq, Seg1.arrays1_eq]
    iintro ⟨H0, H1, H2, H3, H4, H5, H6, H29⟩
    isplitl [H0 H1 H2]
    · iapply (Seg1.share3 _ _).2
      isplitl [H0]; · iexact H0
      isplitl [H1]; · iexact H1
      iexact H2
    isplitl [H3 H5]
    · iapply (Seg1.share2 _ _).2
      isplitl [H3]; · iexact H3
      iexact H5
    isplitl [H4 H6]
    · iapply (Seg1.share2 _ _).2
      isplitl [H4]; · iexact H4
      iexact H6
    iexact H29
  · unfold Pipeline.unscopedRest
    exact bigSep_congr fun b hb => by rw [hrest1 m c b (Finset.mem_sdiff.mp hb).2]

set_option backward.isDefEq.respectTransparency.types false in
/-- REGION 1 over the thread state: entered from every unscoped buffer at `W3`, left at `W4`. -/
def reg1 : Pipeline.RegionSeg (pcfgs (F := F)) admH (pdats m) () defs₀ 𝒱H LH lvH 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := entry_arrays1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_arrays1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 as a segment of @main: the output projection, entered from the contents the third host stretch leaves and
  left with the projected output in place.
-/
import proofs.«416673_j71210557768228_3_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: an input array what it held at entry, the
    output array the write-backs' result. -/
theorem hF2 (c : Dev nD) (w : Fin cfg2.W) : (dat2 (E5 m) c).arrAt w cfg2.N = E6 m c (Pipeline.arrRef spec2 w) := by
  match w with
  | ⟨0, _⟩ => exact (((dat2 (E5 m) c).arrAt_in 0 rfl _).trans (A_eq2 (E5 m) c 0)).trans (W6_of_ne m c _ (by decide)).symm
  | ⟨1, _⟩ => exact (((dat2 (E5 m) c).arrAt_in 1 rfl _).trans (A_eq2 (E5 m) c 1)).trans (W6_of_ne m c _ (by decide)).symm
  | ⟨2, _⟩ => exact (((dat2 (E5 m) c).arrAt_in 2 rfl _).trans (A_eq2 (E5 m) c 2)).trans (W6_of_ne m c _ (by decide)).symm
  | ⟨3, _⟩ => exact (W6_out m c).symm

/-- Every buffer that is no array of the region holds at the exit what it held at entry. -/
theorem hrest2 (c : Dev nD) : ∀ b, b ∉ Finset.univ.image (Pipeline.arrRef spec2) → E6 m c b = E5 m c b :=
  fun b hb => W6_of_ne m c b fun e => hb (Finset.mem_image.mpr ⟨3, Finset.mem_univ _, by subst e; rfl⟩)

-- a library lemma stated over the pinned configuration unifies with the printed one only when unification may unfold
-- plain definitions in a metavariable's type
set_option backward.isDefEq.respectTransparency.types false in
/-- REGION 2 over the thread state: entered from every unscoped buffer at `W5`, left at `W6`. Its arrays are split
    out of the unscoped buffers and put back at the exit contents; the generator register goes into the plain invariant
    and comes out; nothing is owed; the kernel has no semaphore of its own. -/
def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ LH lvH 2 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The run of the kernel's program: @main as its seven segments (four host stretches, three regions), launched from any
  memory with zero counters. Every weakly fair execution terminates, nothing faults, and in every final state each
  unscoped buffer of each core holds what the fold of boundary contents says it holds at the return (`run_all`:
  `W7`). The frame claim reads the five arguments off that (`frame`); the value claim will read the result.
-/
import proofs.«416673_j71210557768228_3_alg».proof.Proof.KI.Seg0
import proofs.«416673_j71210557768228_3_alg».proof.Proof.KI.Seg1
import proofs.«416673_j71210557768228_3_alg».proof.Proof.KI.Seg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's seven segments in order: a host segment per stretch from its boundary's contents, a region per pallas_call. -/
abbrev segsH : List (Pipeline.Seg (pcfgs (F := F)) admH (pdats m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)),
    .region (reg2 m),
    .host (hsegH hostOps3 hostOps3_sub hostOps3_fresh (W6 m)) ]

/-- @main IS the run of the segments. -/
theorem main_runH (c : Dev nD) : main (F := F) c = Pipeline.Seg.run (segsH m) := (main_chain c).trans (by chain_rfl)

set_option backward.isDefEq.respectTransparency.types false in
/-- From any memory with zero counters every weakly fair execution of @main terminates, nothing faulting, and every
    final state has every unscoped buffer of every core at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) admH (pdats m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (StableHlo.after hostOps3 (W6 m c)) ∗ RH c) ⊢ _
      iintro ⟨Hh, Hp, HO⟩
      isplitl [Hh Hp]
      · isplitl [Hh] <;> iassumption
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: every weakly fair execution of @main terminates, nothing faulting, and every final state has the five
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucH main_arg0 (by decide))).trans (W7_main_arg0 m c),
     (h c _ (mem_ucH main_arg1 (by decide))).trans (W7_main_arg1 m c),
     (h c _ (mem_ucH main_arg2 (by decide))).trans (W7_main_arg2 m c),
     (h c _ (mem_ucH main_arg3 (by decide))).trans (W7_main_arg3 m c),
     (h c _ (mem_ucH main_arg4 (by decide))).trans (W7_main_arg4 m c)⟩) (run_all m ρ)

end Cert.KernelIdeal.Hand

end
-- ==== Proof.KI.Val0.lean ====
/-
  Region 0's output array after the region, at the extended reals: the rows of the flattened input against the rows of
  the weight.
-/
import proofs.«416673_j71210557768228_3_alg».proof.Proof.Spec
import proofs.«416673_j71210557768228_3_alg».proof.Proof.KI.Reg0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

namespace Val0

/-! ## The body's product at an index -/

/-- The offsets of a whole-block access are zero on both axes. -/
theorem off0 : (![0, 0] : Fin 2 → Nat) = fun _ => 0 :=
  funext fun a => by match a with | ⟨0, _⟩ => rfl | ⟨1, _⟩ => rfl

/-- The left operand of the product is read at the output's row … -/
theorem lhs_row (j : S512x3072.Idx) (q : dot_S512x1024_S3072x1024_S512x3072_1_1_0_0_n_n.contr.Idx) :
    (dot_S512x1024_S3072x1024_S512x3072_1_1_0_0_n_n.lhsIdx j q 0).val = (j 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
/-- … and at the contracted column. -/
theorem lhs_col (j : S512x3072.Idx) (q : dot_S512x1024_S3072x1024_S512x3072_1_1_0_0_n_n.contr.Idx) :
    (dot_S512x1024_S3072x1024_S512x3072_1_1_0_0_n_n.lhsIdx j q 1).val = (q ⟨0, by decide⟩).val :=
  dot_S512x1024_S3072x1024_S512x3072_1_1_0_0_n_n.lhsIdx_val_of_single rfl j q
/-- The right operand is read at the row the output's column names … -/
theorem rhs_row (j : S512x3072.Idx) (q : dot_S512x1024_S3072x1024_S512x3072_1_1_0_0_n_n.contr.Idx) :
    (dot_S512x1024_S3072x1024_S512x3072_1_1_0_0_n_n.rhsIdx j q 0).val = (j 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
/-- … and at the contracted column. -/
theorem rhs_col (j : S512x3072.Idx) (q : dot_S512x1024_S3072x1024_S512x3072_1_1_0_0_n_n.contr.Idx) :
    (dot_S512x1024_S3072x1024_S512x3072_1_1_0_0_n_n.rhsIdx j q 1).val = (q ⟨0, by decide⟩).val :=
  dot_S512x1024_S3072x1024_S512x3072_1_1_0_0_n_n.rhsIdx_val_of_single rfl j q

/-- The matrix product into the zero accumulator, at row `p` and column `q`: the sum over the 1024 contracted columns
    of the left operand's row `p` times the right operand's row `q`. -/
theorem matmul_rows_apply (a : FVec Ideal S512x1024 .bf16) (b : FVec Ideal S3072x1024 .bf16) (p : Fin 512) (q : Fin 3072) :
    matmul (F := Ideal) dot_S512x1024_S3072x1024_S512x3072_1_1_0_0_n_n none a b (constant (F := Ideal) S512x3072 .f32 0x00000000#32) (ix2 p q)
      = ∑ k : Fin 1024, a (ix2 p k) * b (ix2 q k) := by
  show FloatOps.matmul dot_S512x1024_S3072x1024_S512x3072_1_1_0_0_n_n none a b (constant S512x3072 .f32 0x00000000#32) (ix2 p q) = _
  rw [Ideal.matmul_constant_zero_apply, ← Equiv.sum_comp (contrEquiv1 dot_S512x1024_S3072x1024_S512x3072_1_1_0_0_n_n 1024 rfl rfl).symm]
  refine Finset.sum_congr rfl fun k _ => ?_
  have hk := contrEquiv1_symm_val dot_S512x1024_S3072x1024_S512x3072_1_1_0_0_n_n 1024 rfl rfl k
  have el : dot_S512x1024_S3072x1024_S512x3072_1_1_0_0_n_n.lhsIdx (ix2 p q) ((contrEquiv1 dot_S512x1024_S3072x1024_S512x3072_1_1_0_0_n_n 1024 rfl rfl).symm k) = ix2 p k := funext fun d => Fin.ext (by
    match d with
    | ⟨0, _⟩ => exact lhs_row _ _
    | ⟨1, _⟩ => exact (lhs_col _ _).trans hk)
  have er : dot_S512x1024_S3072x1024_S512x3072_1_1_0_0_n_n.rhsIdx (ix2 p q) ((contrEquiv1 dot_S512x1024_S3072x1024_S512x3072_1_1_0_0_n_n 1024 rfl rfl).symm k) = ix2 q k := funext fun d => Fin.ext (by
    match d with
    | ⟨0, _⟩ => exact rhs_row _ _
    | ⟨1, _⟩ => exact (rhs_col _ _).trans hk)
  rw [el, er]

/-- What the body stores, at row `p` and column `q` of the output block: the input block's row `p` against the
    weight's row `q`. The casts keep the shape and the roundings are the identity at the extended reals. -/
theorem payload_apply (x0 : Vec Ideal S512x1024 .f32) (x1 : Vec Ideal S3072x1024 .bf16) (p : Fin 512) (q : Fin 3072) :
    out0_2 (F := Ideal) x0 x1 (ix2 p q) = ∑ k : Fin 1024, x0 (ix2 p k) * x1 (ix2 q k) := by
  unfold out0_2
  rw [View.canon_unit_zero off0]
  simp only [View.ld_unit_zero (S := S512x1024) off0, View.ld_unit_zero (S := S3072x1024) off0]
  unfold k0_pay1
  rw [truncf_apply, shapeCast_self, shapeCast_self]
  exact matmul_rows_apply _ _ p q

/-! ## The windows' blocks as rows of their arrays -/

/-- The printed index maps over the grid: the input window and the output window are both on block row `t` at point
    `t`, in block column 0; the weight's window stays on block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input window's block at point `t` is rows `512 t … 512 t + 511` of the input. -/
theorem input_block_apply (c : Dev nD) (t : Fin cfg0.N) (p : Fin 512) (k : Fin 1024) (r : Fin 8192)
    (hr : r.val = t.val * 512 + p.val) :
    (iblk0 V c 0 t : Vec Ideal S512x1024 .f32) (ix2 p k) = (V c main_v26 : A2 8192 1024) (ix2 r k) := by
  obtain ⟨e0, e1, -⟩ := block_index t
  unfold iblk0
  rw [View.read_apply]
  show V c main_v26 _ = V c main_v26 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The weight's window holds the whole weight at every point. -/
theorem weight_block_apply (c : Dev nD) (t : Fin cfg0.N) (q : Fin 3072) (k : Fin 1024) (f : Fin 3072)
    (hf : f.val = q.val) :
    (iblk0 V c 1 t : Vec Ideal S3072x1024 .bf16) (ix2 q k) = (V c main_v5 : A2 3072 1024) (ix2 f k) := by
  obtain ⟨-, -, e2, e3, -⟩ := block_index t
  unfold iblk0
  rw [View.read_apply]
  show V c main_v5 _ = V c main_v5 _
  congr 1
  funext a
  apply Fin.ext
  match a with
  | ⟨0, _⟩ => show win0_1.index t (0 : Fin 2) * 3072 + 1 * q.val = f.val; rw [e2, hf]; omega
  | ⟨1, _⟩ => show win0_1.index t (1 : Fin 2) * 1024 + 1 * k.val = k.val; rw [e3]; omega

/-! ## What each point writes back, and the array after the region -/

/-- What point `t` writes back is block `t` of the projection of the whole input by the whole weight: the output
    block's row `p` is the input's row `512 t + p`, and its column `q` is the weight's row `q`. -/
theorem flushed_eq (c : Dev nD) (t : Fin cfg0.N) :
    (dat0 (F := Ideal) V c).flushed 2 t
      = ((cfg0.win 2).blk t).view.read (Elt Ideal) (proj0 (V c main_v26) (V c main_v5)) := by
  show (cfg0.win 2).cut (grid0.coords t) ((dat0 V c).after 2 t) = _
  rw [after0_2]
  obtain ⟨-, -, -, -, e4, e5⟩ := block_index t
  funext j
  obtain ⟨p, q, rfl⟩ : ∃ (p : Fin 512) (q : Fin 3072), j = ix2 p q := ⟨j 0, j 1, eq_ix2 j⟩
  show out0_2 (F := Ideal) (iblk0 V c 0 t) (iblk0 V c 1 t) (ix2 p q)
    = proj0 (V c main_v26) (V c main_v5) (((cfg0.win 2).blk t).view.emb (ix2 p q))
  refine (payload_apply (iblk0 V c 0 t) (iblk0 V c 1 t) p q).trans ?_
  unfold proj0
  refine Finset.sum_congr rfl fun k _ => ?_
  have hr : ((((cfg0.win 2).blk t).view.emb (ix2 p q)) 0).val = t.val * 512 + p.val := by
    show win0_2.index t (0 : Fin 2) * 512 + 1 * p.val = _
    rw [e4]; omega
  have hf : ((((cfg0.win 2).blk t).view.emb (ix2 p q)) 1).val = q.val := by
    show win0_2.index t (1 : Fin 2) * 3072 + 1 * q.val = _
    rw [e5]; omega
  exact congrArg₂ (· * ·) (input_block_apply V c t p k _ hr) (weight_block_apply V c t q k _ hf)

/-- An index of the output array is in point `t`'s block iff each coordinate is in the block's range on its axis. -/
theorem mem_block (t : Fin cfg0.N) (i : S8192x3072.Idx) :
    i ∈ ((cfg0.win 2).blk t).view.set ↔ ∀ a : Fin 2, win0_2.index t a * S512x3072.size a ≤ (i a).val
      ∧ (i a).val < win0_2.index t a * S512x3072.size a + S512x3072.size a := by
  show i ∈ ((View.whole main_v27).slice (win0_2.rect t)).set ↔ _
  rw [View.set_slice_whole, Rect.mem_set_unit]
  exact Iff.rfl

/-- Row `r` of the output array is written back by point `r / 512`. -/
theorem rows_covered (i : S8192x3072.Idx) :
    ∃ t : Fin cfg0.N, (cfg0.win 2).flush t = true ∧ i ∈ ((cfg0.win 2).blk t).view.set := by
  have h0 : (i 0).val < 8192 := (i 0).isLt
  have h1 : (i 1).val < 3072 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, e4, e5⟩ := block_index t
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    rw [e4, ht]; omega
  | ⟨1, _⟩ =>
    show win0_2.index t (1 : Fin 2) * 3072 ≤ (i 1).val ∧ (i 1).val < win0_2.index t (1 : Fin 2) * 3072 + 3072
    rw [e5]; omega

end Val0

/-- After all 16 grid points the output array holds, at row `r` and feature `f`, the sum over the 1024 input columns of
    the input's row `r` times the weight's row `f`. -/
theorem arr0 (c : Dev nD) :
    (dat0 (F := Ideal) V c).arrAt 2 cfg0.N = proj0 (V c main_v26) (V c main_v5) :=
  (dat0 (F := Ideal) V c).arrAt_eq_of_cover 2 _ (fun t _ => Val0.flushed_eq V c t) Val0.rows_covered

end Cert.KernelIdeal.Hand

end
-- ==== Proof.SpecBlk.lean ====
/-
  The kernel's attention at the level of one grid point's blocks: 512 query positions of two heads (128 columns: head
  `hh` of the pair in columns `64·hh … 64·hh+63`) against 2048 key and value positions of the same two heads, with the
  512-row and 2048-row blocks of the cosine and signed-sine tables. The same formula as `attnK` of the whole arrays,
  over the blocks' own coordinates.
-/
import proofs.«416673_j71210557768228_3_alg».proof.Proof.Spec

noncomputable section

namespace Cert.Attn

open Idealize.ShloMosaic Idealize.ShloMosaic.ValueIdx
open scoped BigOperators

/-- The head of the pair a block column belongs to, and its lane. -/
def hOf (l : Fin 128) : Fin 2 := ⟨l.val / 64, by omega⟩
def lOf (l : Fin 128) : Fin 64 := ⟨l.val % 64, by omega⟩
/-- Column of head `hh` of the pair, lane `j`. -/
def bcol (hh : Fin 2) (j : Fin 64) : Fin 128 := ⟨hh.val * 64 + j.val, by omega⟩

/-- A rotated lane of a block of rows: the lane times its cosine plus the lane half a head round times its signed sine. -/
def ropeB {n : Nat} (x : A3 1 n 128) (cs sn : A2 n 64) (hh : Fin 2) (t : Fin n) (j : Fin 64) : EReal :=
  x (ix3 (0 : Fin 1) t (bcol hh j)) * cs (ix2 t j) + x (ix3 (0 : Fin 1) t (bcol hh (rot32 j))) * sn (ix2 t j)

/-- The attention of one grid point, from its seven input blocks. -/
def attnBlk (x0 : A3 1 512 128) (x1 x2 : A3 1 2048 128) (x3 x4 : A2 512 64) (x5 x6 : A2 2048 64) : A3 1 512 128 :=
  fun i => attnRow
    (fun tk => (∑ j : Fin 64, ropeB x0 x3 x4 (hOf (i 2)) (i 1) j * ropeB x1 x5 x6 (hOf (i 2)) tk j) * eighth)
    (fun tk => x2 (ix3 (0 : Fin 1) tk (bcol (hOf (i 2)) (lOf (i 2)))))

end Cert.Attn

end
-- ==== Proof.KI.Val1Pay.lean ====
/-
  What region 1's body stores, at the extended reals: the attention of one grid point as a function of its seven
  input blocks.

  The body's value is one term over the seven loaded blocks. Read at an index `(0, r, l)` of the output block, with
  `l = 64·hh + d`, it is column `d` of head `hh` of the pair at query row `r`. For either head the term does the same
  five things: it cuts the head's 64 columns out of the query and the key block and rotates each row (the lane times
  its cosine plus the lane half a head round times its signed sine); it multiplies rotated query rows against rotated
  key rows, summing the 64 lanes, and scales by one eighth; it takes each score row's maximum; it exponentiates the
  scores less that maximum, divides by the row's sum and multiplies against the head's 64 value columns, summing the
  2048 key positions; and it sets the two heads' blocks side by side under a leading unit axis. At the extended reals
  the roundings to and from the narrow format are the identity, so each step is the formula of `attnBlk` exactly.

  The lemmas below read each of those steps at an index, over variable arrays of the literal shapes; the first head's
  scores and row maxima are computed together with the loads, the second head's inside the stored term, and both are
  instances of the same lemmas. The last theorem puts them together.
-/
import proofs.«416673_j71210557768228_3_alg».proof.Proof.SpecBlk
import proofs.«416673_j71210557768228_3_alg».proof.Proof.KI.Reg1
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx
open Idealize.SL Idealize.SL.Sem
open Idealize.ShloMosaic.Pipeline (Dat Cfg Window)
open scoped BigOperators

namespace Val1Pay

/-! ## A vector as a one-column matrix, and a one-column matrix spread over the columns -/

/-- An `[a]` array cast to `[a, 1]` reads, at `(i, u)`, the operand at `i`. -/
theorem colCast_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` array broadcast to `[a, b]` reads, at `(p, c)`, the operand's one column at row `p`. -/
theorem colBroadcast_apply {α : Type} {a b : ℕ} (x : (⟨2, ![a, 1]⟩ : Shape).Idx → α) (h : (⟨2, ![a, 1]⟩ : Shape).Broadcasts ⟨2, ![a, b]⟩)
    (p : Fin a) (c : Fin b) : broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-! ## The loaded blocks as the body first sees them -/

/-- The query block without its leading unit axis. -/
theorem pay2_apply (x0 : Vec Ideal S1x512x128 .bf16) (r : Fin 512) (l : Fin 128) :
    k1_pay2 (F := Ideal) x0 (ix2 r l) = x0 (ix3 (0 : Fin 1) r l) := by
  unfold k1_pay2
  exact shapeCast_1ab_ab_apply x0 _ r l

/-- The key block without its leading unit axis. -/
theorem pay3_apply (x1 : Vec Ideal S1x2048x128 .bf16) (k : Fin 2048) (l : Fin 128) :
    k1_pay3 (F := Ideal) x1 (ix2 k l) = x1 (ix3 (0 : Fin 1) k l) := by
  unfold k1_pay3
  exact shapeCast_1ab_ab_apply x1 _ k l

/-- The value block without its leading unit axis. -/
theorem pay4_apply (x2 : Vec Ideal S1x2048x128 .bf16) (k : Fin 2048) (l : Fin 128) :
    k1_pay4 (F := Ideal) x2 (ix2 k l) = x2 (ix3 (0 : Fin 1) k l) := by
  unfold k1_pay4
  exact shapeCast_1ab_ab_apply x2 _ k l

/-- The four table blocks are used as they are. -/
theorem pay5_eq (x3 : Vec Ideal S512x64 .f32) : k1_pay5 (F := Ideal) x3 = x3 := by
  unfold k1_pay5; exact shapeCast_self x3 _
theorem pay6_eq (x4 : Vec Ideal S512x64 .f32) : k1_pay6 (F := Ideal) x4 = x4 := by
  unfold k1_pay6; exact shapeCast_self x4 _
theorem pay7_eq (x5 : Vec Ideal S2048x64 .f32) : k1_pay7 (F := Ideal) x5 = x5 := by
  unfold k1_pay7; exact shapeCast_self x5 _
theorem pay8_eq (x6 : Vec Ideal S2048x64 .f32) : k1_pay8 (F := Ideal) x6 = x6 := by
  unfold k1_pay8; exact shapeCast_self x6 _

/-! ## A rotated block of rows -/

/-- A rotation of the 64 lanes by 32 reads, at lane `j`, lane `j + 32` modulo 64. -/
theorem rotate32_apply {n : ℕ} (Y : (⟨2, ![n, 64]⟩ : Shape).Idx → EReal) (hr : (⟨2, ![n, 64]⟩ : Shape).Rotates 1 none)
    (t : Fin n) (j : Fin 64) : dynamicRotate 1 32#32 none Y hr (ix2 t j) = Y (ix2 t (rot32 j)) := by
  refine dynamicRotate_apply 1 32#32 Y hr (ix2 t j) (ix2 t (rot32 j)) fun b => ?_
  match b with
  | ⟨0, _⟩ => rfl
  | ⟨1, _⟩ =>
    show (j.val + 32) % 64 = (j.val + 64 - 32 % 64) % 64
    omega

/-- The 64 columns from `o` on of a block of rows, each row rotated with the tables `C` and `S`: at `(t, j)` the column
    `o + j` times `C` plus the column `o + (j + 32) mod 64` times `S`. -/
theorem rope_apply {n : ℕ} (o : ℕ) (X : FVec Ideal ⟨2, ![n, 128]⟩ .f32) (C S : FVec Ideal ⟨2, ![n, 64]⟩ .f32)
    (hs : (⟨2, ![n, 128]⟩ : Shape).Slices ![0, o] ⟨2, ![n, 64]⟩) (hr : (⟨2, ![n, 64]⟩ : Shape).Rotates 1 none)
    (t : Fin n) (j : Fin 64) (k k' : Fin 128) (hk : k.val = o + j.val) (hk' : k'.val = o + (rot32 j).val) :
    addf (mulf (extractStridedSlice ⟨2, ![n, 64]⟩ ![0, o] X hs) C)
        (mulf (dynamicRotate 1 32#32 none (extractStridedSlice ⟨2, ![n, 64]⟩ ![0, o] X hs) hr) S) (ix2 t j)
      = X (ix2 t k) * C (ix2 t j) + X (ix2 t k') * S (ix2 t j) := by
  show extractStridedSlice ⟨2, ![n, 64]⟩ ![0, o] X hs (ix2 t j) * C (ix2 t j)
      + dynamicRotate 1 32#32 none (extractStridedSlice ⟨2, ![n, 64]⟩ ![0, o] X hs) hr (ix2 t j) * S (ix2 t j) = _
  rw [rotate32_apply, slice2_axis1_apply o X hs t j k hk, slice2_axis1_apply o X hs t (rot32 j) k' hk']

/-! ## The two products -/

/-- The scores' product takes row `i 0` of its left factor and row `i 1` of its right factor, and sums their lanes. -/
theorem lhsQK_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhsQK_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhsQK_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhsQK_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Rows of the queries against rows of the keys: the 64 lanes are summed. -/
theorem mmQK_apply (A : FVec Ideal S512x64 .bf16) (B : FVec Ideal S2048x64 .bf16) (r : Fin 512) (k : Fin 2048) :
    matmul dot_S512x64_S2048x64_S512x2048_1_1_0_0_n_n none A B (constant (F := Ideal) S512x2048 .f32 0x00000000#32) (ix2 r k)
      = ∑ j : Fin 64, A (ix2 r j) * B (ix2 k j) := by
  simp only [matmul]
  rw [Ideal.matmul_constant_zero_apply, ← Equiv.sum_comp (contrEquiv1 dot_S512x64_S2048x64_S512x2048_1_1_0_0_n_n 64 rfl rfl).symm]
  refine Finset.sum_congr rfl fun j _ => ?_
  have hk := contrEquiv1_symm_val dot_S512x64_S2048x64_S512x2048_1_1_0_0_n_n 64 rfl rfl j
  have el : dot_S512x64_S2048x64_S512x2048_1_1_0_0_n_n.lhsIdx (ix2 r k) ((contrEquiv1 dot_S512x64_S2048x64_S512x2048_1_1_0_0_n_n 64 rfl rfl).symm j) = ix2 r j := funext fun a => Fin.ext (by
    match a with
    | ⟨0, _⟩ => exact lhsQK_0 _ _
    | ⟨1, _⟩ => exact (lhsQK_1 _ _).trans hk)
  have er : dot_S512x64_S2048x64_S512x2048_1_1_0_0_n_n.rhsIdx (ix2 r k) ((contrEquiv1 dot_S512x64_S2048x64_S512x2048_1_1_0_0_n_n 64 rfl rfl).symm j) = ix2 k j := funext fun a => Fin.ext (by
    match a with
    | ⟨0, _⟩ => exact rhsQK_0 _ _
    | ⟨1, _⟩ => exact (rhsQK_1 _ _).trans hk)
  rw [el, er]

/-- The weighted sum's product takes row `i 0` of its left factor and column `i 1` of its right factor, and sums the
    left's columns against the right's rows. -/
theorem lhsPV_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhsPV_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhsPV_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhsPV_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Rows of the weights against columns of the values: the 2048 key positions are summed. -/
theorem mmPV_apply (P : FVec Ideal S512x2048 .bf16) (V : FVec Ideal S2048x64 .bf16) (r : Fin 512) (d : Fin 64) :
    matmul dot_S512x2048_S2048x64_S512x64_1_0_0_1_n_n none P V (constant (F := Ideal) S512x64 .f32 0x00000000#32) (ix2 r d)
      = ∑ k : Fin 2048, P (ix2 r k) * V (ix2 k d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun a => Fin.ext (by
    match a with
    | ⟨0, _⟩ => exact lhsPV_0 _ _
    | ⟨1, _⟩ => exact (lhsPV_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun a => Fin.ext (by
    match a with
    | ⟨0, _⟩ => exact (rhsPV_0 _ _).trans hk
    | ⟨1, _⟩ => exact rhsPV_1 _ _)
  rw [el, er]

/-! ## A row's maximum and a row's sum, kept as a column and spread back over the row -/

/-- The index a reduction over the keys reads at row `r`, key `k`. -/
theorem lift_row (h : S512x2048.Reduces [1] S512) (r : Fin 512) (k : Fin 2048) : h.lift (ix1 r) k = ix2 r k :=
  funext fun a => Fin.ext (by match a with | ⟨0, _⟩ => rfl | ⟨1, _⟩ => rfl)

/-- The maximum of each row of scores, started from minus infinity, kept as a column and spread over the row. -/
theorem rowMax_apply (s : FVec Ideal S512x2048 .f32) (h : S512x2048.Reduces [1] S512) (hφ : FKind.Formats .f32)
    (hacc : (0xFF800000#32 : BitVec 32) = FKind.maximumf.neutral .f32 hφ)
    (hc : S512.ShapeCasts S512x1) (hb : S512x1.Broadcasts S512x2048) (r : Fin 512) (k : Fin 2048) :
    broadcastTo S512x2048 (shapeCast S512x1 (multiReduction .maximumf [1] S512 s 0xFF800000#32 h hφ hacc) hc) hb (ix2 r k)
      = fmax (fun k' => s (ix2 r k')) := by
  refine (colBroadcast_apply _ hb r k).trans ?_
  refine (colCast_apply _ hc r 0).trans ?_
  refine (Ideal.multiReduction_maximumf_single s _ h hφ hacc (ix1 r)).trans ?_
  have e : (s ∘ h.lift (ix1 r)) = fun k' : Fin 2048 => s (ix2 r k') := funext fun k' => congrArg s (lift_row h r k')
  exact congrArg (fun f => Finset.fold max negInf f (Finset.univ : Finset (Fin 2048))) e

/-- The sum of each row, kept as a column and spread over the row. -/
theorem rowSum_apply (E : FVec Ideal S512x2048 .f32) (h : S512x2048.Reduces [1] S512) (hφ : FKind.Formats .f32)
    (hacc : (0x00000000#32 : BitVec 32) = FKind.add.neutral .f32 hφ)
    (hc : S512.ShapeCasts S512x1) (hb : S512x1.Broadcasts S512x2048) (r : Fin 512) (k : Fin 2048) :
    broadcastTo S512x2048 (shapeCast S512x1 (multiReduction .add [1] S512 E 0x00000000#32 h hφ hacc) hc) hb (ix2 r k)
      = ∑ k' : Fin 2048, E (ix2 r k') := by
  refine (colBroadcast_apply _ hb r k).trans ?_
  refine (colCast_apply _ hc r 0).trans ?_
  refine (Ideal.multiReduction_add_single E _ h hφ hacc (ix1 r)).trans ?_
  exact Finset.sum_congr rfl fun k' _ => congrArg E (lift_row h r k')

/-! ## The softmax of a row of scores, weighting the values -/

/-- With `m` the row maxima of `s`: the exponentials of `s - m`, each divided by its row's sum, multiplied against the
    values `V`, are `attnRow` of the score row and the value column. -/
theorem softV_apply (s m : FVec Ideal S512x2048 .f32) (V : FVec Ideal S2048x64 .bf16)
    (h : S512x2048.Reduces [1] S512) (hφ : FKind.Formats .f32) (hacc : (0x00000000#32 : BitVec 32) = FKind.add.neutral .f32 hφ)
    (hc : S512.ShapeCasts S512x1) (hb : S512x1.Broadcasts S512x2048) (hbits : FTy.bits .bf16 < FTy.bits .f32)
    (r : Fin 512) (d : Fin 64) (hm : ∀ k, m (ix2 r k) = fmax (fun k' => s (ix2 r k'))) :
    matmul dot_S512x2048_S2048x64_S512x64_1_0_0_1_n_n none
        (truncf .bf16 (divf (exp (subf s m))
          (broadcastTo S512x2048 (shapeCast S512x1 (multiReduction .add [1] S512 (exp (subf s m)) 0x00000000#32 h hφ hacc) hc) hb)) hbits)
        V (constant (F := Ideal) S512x64 .f32 0x00000000#32) (ix2 r d)
      = attnRow (fun k => s (ix2 r k)) (fun k => V (ix2 k d)) := by
  refine (mmPV_apply _ V r d).trans ?_
  have hE : ∀ k, exp (subf s m) (ix2 r k) = Ideal.exp (s (ix2 r k) - fmax (fun k' => s (ix2 r k'))) := fun k => by
    show Ideal.exp (s (ix2 r k) - m (ix2 r k)) = _
    rw [hm k]
  unfold attnRow
  refine Finset.sum_congr rfl fun k _ => ?_
  refine congrArg (· * V (ix2 k d)) ?_
  show Ideal.div (exp (subf s m) (ix2 r k))
      (broadcastTo S512x2048 (shapeCast S512x1 (multiReduction .add [1] S512 (exp (subf s m)) 0x00000000#32 h hφ hacc) hc) hb (ix2 r k)) = _
  rw [rowSum_apply (exp (subf s m)) h hφ hacc hc hb r k, hE k]
  exact congrArg (Ideal.div _) (Finset.sum_congr rfl fun k' _ => hE k')

/-! ## A head's scores -/

/-- Rotated query rows against rotated key rows, scaled by one eighth. -/
theorem score_apply (Q : FVec Ideal S512x64 .f32) (K : FVec Ideal S2048x64 .f32) (hbits : FTy.bits .bf16 < FTy.bits .f32)
    (r : Fin 512) (k : Fin 2048) :
    mulf (matmul dot_S512x64_S2048x64_S512x2048_1_1_0_0_n_n none (truncf .bf16 Q hbits) (truncf .bf16 K hbits) (constant (F := Ideal) S512x2048 .f32 0x00000000#32))
        (broadcast S512x2048 (Scalar.ofBits (F := Ideal) .f32 0x3E000000#32)) (ix2 r k)
      = (∑ j : Fin 64, Q (ix2 r j) * K (ix2 k j)) * eighth := by
  show matmul dot_S512x64_S2048x64_S512x2048_1_1_0_0_n_n none (truncf .bf16 Q hbits) (truncf .bf16 K hbits) (constant (F := Ideal) S512x2048 .f32 0x00000000#32) (ix2 r k) * eighth = _
  rw [mmQK_apply]
  rfl

/-! ## The two heads' blocks side by side, under a leading unit axis -/

/-- A column below 64 of the joined block is that column of the first head's block. -/
theorem catCast_left (A B : FVec Ideal S512x64 .f32) (hcat : Shape.Concatenates [S512x64, S512x64] S512x128 1)
    (hcast : S512x128.ShapeCasts S1x512x128) (u : Fin 1) (r : Fin 512) (l : Fin 128) (d : Fin 64) (hd : d.val = l.val) :
    shapeCast S1x512x128 (concatenate S512x128 1 [⟨S512x64, A⟩, ⟨S512x64, B⟩] hcat) hcast (ix3 u r l) = A (ix2 r d) := by
  refine (shapeCast_ab_1ab_apply _ hcast u r l).trans ?_
  refine concatenate_pair_apply_left 1 A B hcat (ix2 r l) rfl (ix2 r d) fun b => ?_
  match b with
  | ⟨0, _⟩ => rfl
  | ⟨1, _⟩ => exact hd

/-- A column from 64 on of the joined block is the column 64 less of the second head's block. -/
theorem catCast_right (A B : FVec Ideal S512x64 .f32) (hcat : Shape.Concatenates [S512x64, S512x64] S512x128 1)
    (hcast : S512x128.ShapeCasts S1x512x128) (u : Fin 1) (r : Fin 512) (l : Fin 128) (d : Fin 64) (hd : d.val + 64 = l.val) :
    shapeCast S1x512x128 (concatenate S512x128 1 [⟨S512x64, A⟩, ⟨S512x64, B⟩] hcat) hcast (ix3 u r l) = B (ix2 r d) := by
  refine (shapeCast_ab_1ab_apply _ hcast u r l).trans ?_
  refine concatenate_pair_apply_right 1 A B hcat (ix2 r l) rfl rfl (ix2 r d) (fun b hb => ?_) hd
  match b with
  | ⟨0, _⟩ => rfl
  | ⟨1, _⟩ => exact absurd (Fin.ext rfl) hb

/-! ## Head 0: its values, its scores and their row maxima, computed with the loads -/

/-- The first head's values: the first 64 columns of the value block. -/
theorem pay9_apply (x2 : Vec Ideal S1x2048x128 .bf16) (k : Fin 2048) (d : Fin 64) :
    k1_pay9 (F := Ideal) x2 (ix2 k d) = x2 (ix3 (0 : Fin 1) k (bcol 0 d)) := by
  unfold k1_pay9
  refine (slice2_axis1_apply 0 (k1_pay4 (F := Ideal) x2) _ k d (bcol 0 d) ?_).trans (pay4_apply x2 k (bcol 0 d))
  show 0 * 64 + d.val = 0 + d.val
  omega

/-- A rotated lane of a block, from the block as the body first sees it. -/
theorem ropeB_of (n : ℕ) (o : ℕ) (hh : Fin 2) (ho : o = hh.val * 64) (x : A3 1 n 128) (X : FVec Ideal ⟨2, ![n, 128]⟩ .f32)
    (hX : ∀ t l, X (ix2 t l) = x (ix3 (0 : Fin 1) t l)) (C S : FVec Ideal ⟨2, ![n, 64]⟩ .f32)
    (hs : (⟨2, ![n, 128]⟩ : Shape).Slices ![0, o] ⟨2, ![n, 64]⟩) (hr : (⟨2, ![n, 64]⟩ : Shape).Rotates 1 none)
    (t : Fin n) (j : Fin 64) :
    addf (mulf (extractStridedSlice ⟨2, ![n, 64]⟩ ![0, o] X hs) C)
        (mulf (dynamicRotate 1 32#32 none (extractStridedSlice ⟨2, ![n, 64]⟩ ![0, o] X hs) hr) S) (ix2 t j)
      = ropeB x C S hh t j := by
  refine (rope_apply o X C S hs hr t j (bcol hh j) (bcol hh (rot32 j)) ?_ ?_).trans ?_
  · show hh.val * 64 + j.val = o + j.val
    omega
  · show hh.val * 64 + (rot32 j).val = o + (rot32 j).val
    omega
  · rw [hX, hX]
    rfl

/-- The first head's scores. -/
theorem pay10_apply (x0 : Vec Ideal S1x512x128 .bf16) (x1 : Vec Ideal S1x2048x128 .bf16)
    (x3 x4 : Vec Ideal S512x64 .f32) (x5 x6 : Vec Ideal S2048x64 .f32) (r : Fin 512) (k : Fin 2048) :
    k1_pay10 (F := Ideal) x0 x1 x3 x4 x5 x6 (ix2 r k)
      = (∑ j : Fin 64, ropeB x0 x3 x4 0 r j * ropeB x1 x5 x6 0 k j) * eighth := by
  unfold k1_pay10
  refine (score_apply _ _ _ r k).trans ?_
  refine congrArg (· * eighth) (Finset.sum_congr rfl fun j _ => ?_)
  rw [pay5_eq, pay6_eq, pay7_eq, pay8_eq]
  exact congrArg₂ (· * ·)
    (ropeB_of 512 0 0 rfl x0 (k1_pay2 (F := Ideal) x0) (pay2_apply x0) x3 x4 _ _ r j)
    (ropeB_of 2048 0 0 rfl x1 (k1_pay3 (F := Ideal) x1) (pay3_apply x1) x5 x6 _ _ k j)

/-- The first head's row maxima, spread over the rows. -/
theorem pay11_apply (x0 : Vec Ideal S1x512x128 .bf16) (x1 : Vec Ideal S1x2048x128 .bf16)
    (x3 x4 : Vec Ideal S512x64 .f32) (x5 x6 : Vec Ideal S2048x64 .f32) (r : Fin 512) (k : Fin 2048) :
    k1_pay11 (F := Ideal) x0 x1 x3 x4 x5 x6 (ix2 r k)
      = fmax (fun k' => k1_pay10 (F := Ideal) x0 x1 x3 x4 x5 x6 (ix2 r k')) := by
  unfold k1_pay11
  exact rowMax_apply _ _ _ _ _ _ r k

/-! ## The stored block at an index -/

/-- The whole-block accesses start at the origin. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A column of the first head: the softmax of the scores computed with the loads, weighting that head's values. -/
theorem pay1_left (v2 : FVec Ideal S512x128 .f32) (v5 : FVec Ideal S2048x128 .f32) (v7 : FVec Ideal S2048x128 .bf16)
    (v9 v11 : FVec Ideal S512x64 .f32) (v13 v15 : FVec Ideal S2048x64 .f32) (v18 : FVec Ideal S2048x64 .bf16)
    (v31 v34 : FVec Ideal S512x2048 .f32) (u : Fin 1) (r : Fin 512) (l : Fin 128) (d : Fin 64) (hd : d.val = l.val)
    (hm : ∀ k, v34 (ix2 r k) = fmax (fun k' => v31 (ix2 r k'))) :
    k1_pay1 (F := Ideal) v2 v5 v7 v9 v11 v13 v15 v18 v31 v34 (ix3 u r l)
      = attnRow (fun k => v31 (ix2 r k)) (fun k => v18 (ix2 k d)) := by
  unfold k1_pay1
  refine (catCast_left _ _ _ _ u r l d hd).trans ?_
  exact softV_apply v31 v34 v18 _ _ _ _ _ _ r d hm

/-- A column of the second head: its rotated queries and keys, their scores, the softmax, its values. -/
theorem pay1_right (x0 : A3 1 512 128) (x1 x2 : A3 1 2048 128)
    (v2 : FVec Ideal S512x128 .f32) (v5 : FVec Ideal S2048x128 .f32) (v7 : FVec Ideal S2048x128 .bf16)
    (v9 v11 : FVec Ideal S512x64 .f32) (v13 v15 : FVec Ideal S2048x64 .f32) (v18 : FVec Ideal S2048x64 .bf16)
    (v31 v34 : FVec Ideal S512x2048 .f32)
    (h2 : ∀ t l, v2 (ix2 t l) = x0 (ix3 (0 : Fin 1) t l)) (h5 : ∀ t l, v5 (ix2 t l) = x1 (ix3 (0 : Fin 1) t l))
    (h7 : ∀ t l, v7 (ix2 t l) = x2 (ix3 (0 : Fin 1) t l))
    (u : Fin 1) (r : Fin 512) (l : Fin 128) (d : Fin 64) (hd : d.val + 64 = l.val) :
    k1_pay1 (F := Ideal) v2 v5 v7 v9 v11 v13 v15 v18 v31 v34 (ix3 u r l)
      = attnRow (fun k => (∑ j : Fin 64, ropeB x0 v9 v11 1 r j * ropeB x1 v13 v15 1 k j) * eighth)
          (fun k => x2 (ix3 (0 : Fin 1) k (bcol 1 d))) := by
  unfold k1_pay1
  refine (catCast_right _ _ _ _ u r l d hd).trans ?_
  refine (softV_apply _ _ _ _ _ _ _ _ _ r d ?_).trans ?_
  · exact fun k => rowMax_apply _ _ _ _ _ _ r k
  refine congrArg₂ attnRow (funext fun k => ?_) (funext fun k => ?_)
  · refine (score_apply _ _ _ r k).trans ?_
    refine congrArg (· * eighth) (Finset.sum_congr rfl fun j _ => ?_)
    exact congrArg₂ (· * ·) (ropeB_of 512 64 1 rfl x0 v2 h2 v9 v11 _ _ r j) (ropeB_of 2048 64 1 rfl x1 v5 h5 v13 v15 _ _ k j)
  · refine (slice2_axis1_apply 64 v7 _ k d (bcol 1 d) ?_).trans (h7 k (bcol 1 d))
    show 1 * 64 + d.val = 64 + d.val
    omega

/-- The stored term over the loaded blocks is the block-level attention, index by index: the head is `l / 64`, the
    column inside it `l % 64`. -/
theorem stored_apply (x0 : Vec Ideal S1x512x128 .bf16) (x1 : Vec Ideal S1x2048x128 .bf16) (x2 : Vec Ideal S1x2048x128 .bf16)
    (x3 : Vec Ideal S512x64 .f32) (x4 : Vec Ideal S512x64 .f32) (x5 : Vec Ideal S2048x64 .f32) (x6 : Vec Ideal S2048x64 .f32)
    (u : Fin 1) (r : Fin 512) (l : Fin 128) :
    k1_pay1 (F := Ideal) (k1_pay2 x0) (k1_pay3 x1) (k1_pay4 x2) (k1_pay5 x3) (k1_pay6 x4) (k1_pay7 x5) (k1_pay8 x6) (k1_pay9 x2)
        (k1_pay10 x0 x1 x3 x4 x5 x6) (k1_pay11 x0 x1 x3 x4 x5 x6) (ix3 u r l)
      = attnBlk x0 x1 x2 x3 x4 x5 x6 (ix3 u r l) := by
  show _ = attnRow (fun tk => (∑ j : Fin 64, ropeB x0 x3 x4 (hOf l) r j * ropeB x1 x5 x6 (hOf l) tk j) * eighth)
    (fun tk => x2 (ix3 (0 : Fin 1) tk (bcol (hOf l) (lOf l))))
  by_cases hl : l.val < 64
  · have h0 : hOf l = 0 := Fin.ext (show l.val / 64 = 0 by omega)
    rw [h0]
    refine (pay1_left _ _ _ _ _ _ _ _ _ _ u r l (lOf l) (show l.val % 64 = l.val by omega) (pay11_apply x0 x1 x3 x4 x5 x6 r)).trans ?_
    exact congrArg₂ attnRow (funext fun k => pay10_apply x0 x1 x3 x4 x5 x6 r k) (funext fun k => pay9_apply x2 k (lOf l))
  · have h1 : hOf l = 1 := Fin.ext (show l.val / 64 = 1 by have := l.isLt; omega)
    rw [h1, pay5_eq, pay6_eq, pay7_eq, pay8_eq]
    exact pay1_right x0 x1 x2 _ _ _ x3 x4 x5 x6 _ _ _ (pay2_apply x0) (pay3_apply x1) (pay4_apply x2) u r l (lOf l)
      (show l.val % 64 + 64 = l.val by have := l.isLt; omega)

end Val1Pay

/-- The body's one store is the block-level attention of the seven input blocks. -/
theorem out1_7_eq (x0 : Vec Ideal S1x512x128 .bf16) (x1 : Vec Ideal S1x2048x128 .bf16) (x2 : Vec Ideal S1x2048x128 .bf16)
    (x3 : Vec Ideal S512x64 .f32) (x4 : Vec Ideal S512x64 .f32) (x5 : Vec Ideal S2048x64 .f32) (x6 : Vec Ideal S2048x64 .f32) :
    out1_7 (F := Ideal) x0 x1 x2 x3 x4 x5 x6 = attnBlk x0 x1 x2 x3 x4 x5 x6 := by
  unfold out1_7
  rw [View.canon_unit_zero Val1Pay.hz3]
  simp only [View.ld_unit_zero (S := S1x512x128) Val1Pay.hz3, View.ld_unit_zero (S := S1x2048x128) Val1Pay.hz3,
    View.ld_unit_zero (S := S512x64) Val1Pay.hz2, View.ld_unit_zero (S := S2048x64) Val1Pay.hz2]
  funext i
  obtain ⟨u, r, l, rfl⟩ : ∃ (u : Fin 1) (r : Fin 512) (l : Fin 128), i = ix3 u r l := ⟨i 0, i 1, i 2, eq_ix3 i⟩
  exact Val1Pay.stored_apply x0 x1 x2 x3 x4 x5 x6 u r l

end Cert.KernelIdeal.Hand

end
-- ==== Proof.KI.Val1.lean ====
/-
  Region 1's output array after the region, at the extended reals: the attention of every batch, position and head.

  The region runs over the grid of 4 batches × 8 head pairs × 4 query blocks, the query block moving fastest: point `t`
  is batch `t / 32`, head pair `t / 4 % 8`, query block `t % 4`. Its windows are blocks of the projected features (the
  query part at 512 positions, the key and value parts at all 2048, each two heads wide), of the cosine and signed-sine
  tables (512 positions, and whole), and of the output. Written here: each input block read as entries of its array;
  the block-level attention of those blocks as the whole-array attention at the block's place; what a point writes back
  as its block of the whole-array attention; the blocks covering the output; the array after the last point.
-/
import proofs.«416673_j71210557768228_3_alg».proof.Proof.KI.Val1Pay

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx
open Idealize.SL Idealize.SL.Sem
open Idealize.ShloMosaic.Pipeline (Dat Cfg Window)
open scoped BigOperators

namespace Val1

/-! ## The block-level attention is the whole-array attention at the block's place -/

/-- A rotated lane of a block of rows is the rotated lane of the whole arrays: the block holds, of part `p` of the
    features, the two heads of pair `hp` at the positions `pos`, and the table blocks hold the tables' rows at `pos`;
    head `hh` of the pair is head `2 hp + hh`, and `64 (2 hp + hh) + j = 128 hp + 64 hh + j`. -/
theorem ropeB_eq_ropeK {n : Nat} (x : A3 1 n 128) (xc xs : A2 n 64) (Q : A3 4 2048 3072) (cs sn : A2 2048 64)
    (p : Fin 3) (off : Nat) (hoff : p.val * 1024 = off) (b : Fin 4) (H : Fin 16) (hh : Fin 2) (hp : Fin 8) (pos : Fin n → Fin 2048)
    (hH : H.val = 2 * hp.val + hh.val)
    (hx : ∀ (t : Fin n) (l : Fin 128) (o : Fin 3072), o.val = off + hp.val * 128 + l.val →
      x (ix3 (0 : Fin 1) t l) = Q (ix3 b (pos t) o))
    (hc : ∀ (t : Fin n) (j : Fin 64), xc (ix2 t j) = cs (ix2 (pos t) j))
    (hs : ∀ (t : Fin n) (j : Fin 64), xs (ix2 t j) = sn (ix2 (pos t) j)) (t : Fin n) (j : Fin 64) :
    ropeB x xc xs hh t j = ropeK Q cs sn p b H (pos t) j := by
  unfold ropeB ropeK
  rw [hx t (bcol hh j) (col p H j) (by
      show p.val * 1024 + H.val * 64 + j.val = off + hp.val * 128 + (hh.val * 64 + j.val); omega),
    hx t (bcol hh (rot32 j)) (col p H (rot32 j)) (by
      show p.val * 1024 + H.val * 64 + (rot32 j).val = off + hp.val * 128 + (hh.val * 64 + (rot32 j).val); omega),
    hc, hs]

/-- The attention of one grid point's blocks is the whole-array attention at batch `b`, position `pos y1` and column
    `128 hp + y2`, when the blocks are the arrays' entries of batch `b`, head pair `hp` and those positions. -/
theorem attnBlk_eq_attnK (x0 : A3 1 512 128) (x1 x2 : A3 1 2048 128) (x3 x4 : A2 512 64) (x5 x6 : A2 2048 64)
    (Q : A3 4 2048 3072) (cs sn : A2 2048 64) (b : Fin 4) (hp : Fin 8) (pos : Fin 512 → Fin 2048)
    (h0 : ∀ (t : Fin 512) (l : Fin 128) (o : Fin 3072), o.val = 0 + hp.val * 128 + l.val →
      x0 (ix3 (0 : Fin 1) t l) = Q (ix3 b (pos t) o))
    (h1 : ∀ (t : Fin 2048) (l : Fin 128) (o : Fin 3072), o.val = 1024 + hp.val * 128 + l.val →
      x1 (ix3 (0 : Fin 1) t l) = Q (ix3 b t o))
    (h2 : ∀ (t : Fin 2048) (l : Fin 128) (o : Fin 3072), o.val = 2048 + hp.val * 128 + l.val →
      x2 (ix3 (0 : Fin 1) t l) = Q (ix3 b t o))
    (h3 : ∀ (t : Fin 512) (j : Fin 64), x3 (ix2 t j) = cs (ix2 (pos t) j))
    (h4 : ∀ (t : Fin 512) (j : Fin 64), x4 (ix2 t j) = sn (ix2 (pos t) j))
    (h5 : ∀ (t : Fin 2048) (j : Fin 64), x5 (ix2 t j) = cs (ix2 t j))
    (h6 : ∀ (t : Fin 2048) (j : Fin 64), x6 (ix2 t j) = sn (ix2 t j))
    (y1 : Fin 512) (y2 : Fin 128) (o : Fin 1024) (ho : o.val = hp.val * 128 + y2.val) :
    attnBlk x0 x1 x2 x3 x4 x5 x6 (ix3 (0 : Fin 1) y1 y2) = attnK Q cs sn (ix3 b (pos y1) o) := by
  have hH : (headOf o).val = 2 * hp.val + (hOf y2).val := by
    show o.val / 64 = 2 * hp.val + y2.val / 64; omega
  have hL : laneOf o = lOf y2 := Fin.ext (by show o.val % 64 = y2.val % 64; omega)
  show attnRow (fun tk => (∑ j : Fin 64, ropeB x0 x3 x4 (hOf y2) y1 j * ropeB x1 x5 x6 (hOf y2) tk j) * eighth)
      (fun tk => x2 (ix3 (0 : Fin 1) tk (bcol (hOf y2) (lOf y2))))
    = attnRow (fun tk => scoreK Q cs sn b (headOf o) (pos y1) tk) (fun tk => Q (ix3 b tk (col 2 (headOf o) (laneOf o))))
  congr 1
  · funext tk
    unfold scoreK
    congr 1
    refine Finset.sum_congr rfl fun j _ => ?_
    rw [ropeB_eq_ropeK x0 x3 x4 Q cs sn 0 0 rfl b (headOf o) (hOf y2) hp pos hH h0 h3 h4 y1 j,
      ropeB_eq_ropeK x1 x5 x6 Q cs sn 1 1024 rfl b (headOf o) (hOf y2) hp (fun t => t) hH h1 h5 h6 tk j]
  · funext tk
    refine h2 tk _ _ ?_
    rw [hL]
    show 2 * 1024 + (headOf o).val * 64 + (lOf y2).val = 2048 + hp.val * 128 + ((hOf y2).val * 64 + (lOf y2).val)
    omega

/-! ## The printed index maps over the grid -/

/-- The query window and the output window are on batch `t / 32`, query block `t % 4`, head pair `t / 4 % 8`. -/
theorem query_index : ∀ t : Fin cfg1.N, win1_0.index t (0 : Fin 3) = t.val / 32 ∧ win1_0.index t (1 : Fin 3) = t.val % 4
    ∧ win1_0.index t (2 : Fin 3) = t.val / 4 % 8 :=
  (by decide +kernel : ∀ t : Fin grid1.N, _)

theorem out_index : ∀ t : Fin cfg1.N, win1_7.index t (0 : Fin 3) = t.val / 32 ∧ win1_7.index t (1 : Fin 3) = t.val % 4
    ∧ win1_7.index t (2 : Fin 3) = t.val / 4 % 8 :=
  (by decide +kernel : ∀ t : Fin grid1.N, _)

/-- The key window is on batch `t / 32`, all positions, and the head pair's columns of the key part: 8 blocks of 128
    columns further on. -/
theorem key_index : ∀ t : Fin cfg1.N, win1_1.index t (0 : Fin 3) = t.val / 32 ∧ win1_1.index t (1 : Fin 3) = 0
    ∧ win1_1.index t (2 : Fin 3) = 8 + t.val / 4 % 8 :=
  (by decide +kernel : ∀ t : Fin grid1.N, _)

/-- The value window likewise, 16 blocks further on. -/
theorem value_index : ∀ t : Fin cfg1.N, win1_2.index t (0 : Fin 3) = t.val / 32 ∧ win1_2.index t (1 : Fin 3) = 0
    ∧ win1_2.index t (2 : Fin 3) = 16 + t.val / 4 % 8 :=
  (by decide +kernel : ∀ t : Fin grid1.N, _)

/-- The two 512-row table windows are on row block `t % 4`; the two whole-table windows stay on block (0, 0). -/
theorem table_index : ∀ t : Fin cfg1.N, win1_3.index t (0 : Fin 2) = t.val % 4 ∧ win1_3.index t (1 : Fin 2) = 0
    ∧ win1_4.index t (0 : Fin 2) = t.val % 4 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

variable (V : (c : Dev nD) → (b : Ref sig .tc) → Buf (Elt Ideal) ((c : Thread nD τ).loc b))

/-! ## The input windows' blocks as entries of their arrays -/

/-- The query window's block at point `t`: batch `t / 32`, positions `512 (t % 4) + y1`, columns `128 (t / 4 % 8) + y2`. -/
theorem query_block_apply (c : Dev nD) (t : Fin cfg1.N) (y1 : Fin 512) (y2 : Fin 128) (b : Fin 4) (T : Fin 2048) (o : Fin 3072)
    (hb : b.val = t.val / 32) (hT : T.val = t.val % 4 * 512 + y1.val) (ho : o.val = 0 + t.val / 4 % 8 * 128 + y2.val) :
    (iblk1 V c 0 t : Vec Ideal S1x512x128 .bf16) (ix3 (0 : Fin 1) y1 y2) = (V c main_v28 : A3 4 2048 3072) (ix3 b T o) := by
  obtain ⟨e0, e1, e2⟩ := query_index t
  unfold iblk1
  rw [View.read_apply]
  show V c main_v28 _ = V c main_v28 _
  congr 1
  funext a
  apply Fin.ext
  match a with
  | ⟨0, _⟩ => show win1_0.index t (0 : Fin 3) * 1 + 1 * 0 = b.val; rw [e0, hb]; omega
  | ⟨1, _⟩ => show win1_0.index t (1 : Fin 3) * 512 + 1 * y1.val = T.val; rw [e1, hT]; omega
  | ⟨2, _⟩ => show win1_0.index t (2 : Fin 3) * 128 + 1 * y2.val = o.val; rw [e2, ho]; omega

/-- The key window's block: batch `t / 32`, every position, columns `1024 + 128 (t / 4 % 8) + y2`. -/
theorem key_block_apply (c : Dev nD) (t : Fin cfg1.N) (y1 : Fin 2048) (y2 : Fin 128) (b : Fin 4) (o : Fin 3072)
    (hb : b.val = t.val / 32) (ho : o.val = 1024 + t.val / 4 % 8 * 128 + y2.val) :
    (iblk1 V c 1 t : Vec Ideal S1x2048x128 .bf16) (ix3 (0 : Fin 1) y1 y2) = (V c main_v28 : A3 4 2048 3072) (ix3 b y1 o) := by
  obtain ⟨e0, e1, e2⟩ := key_index t
  unfold iblk1
  rw [View.read_apply]
  show V c main_v28 _ = V c main_v28 _
  congr 1
  funext a
  apply Fin.ext
  match a with
  | ⟨0, _⟩ => show win1_1.index t (0 : Fin 3) * 1 + 1 * 0 = b.val; rw [e0, hb]; omega
  | ⟨1, _⟩ => show win1_1.index t (1 : Fin 3) * 2048 + 1 * y1.val = y1.val; rw [e1]; omega
  | ⟨2, _⟩ => show win1_1.index t (2 : Fin 3) * 128 + 1 * y2.val = o.val; rw [e2, ho]; omega

/-- The value window's block: batch `t / 32`, every position, columns `2048 + 128 (t / 4 % 8) + y2`. -/
theorem value_block_apply (c : Dev nD) (t : Fin cfg1.N) (y1 : Fin 2048) (y2 : Fin 128) (b : Fin 4) (o : Fin 3072)
    (hb : b.val = t.val / 32) (ho : o.val = 2048 + t.val / 4 % 8 * 128 + y2.val) :
    (iblk1 V c 2 t : Vec Ideal S1x2048x128 .bf16) (ix3 (0 : Fin 1) y1 y2) = (V c main_v28 : A3 4 2048 3072) (ix3 b y1 o) := by
  obtain ⟨e0, e1, e2⟩ := value_index t
  unfold iblk1
  rw [View.read_apply]
  show V c main_v28 _ = V c main_v28 _
  congr 1
  funext a
  apply Fin.ext
  match a with
  | ⟨0, _⟩ => show win1_2.index t (0 : Fin 3) * 1 + 1 * 0 = b.val; rw [e0, hb]; omega
  | ⟨1, _⟩ => show win1_2.index t (1 : Fin 3) * 2048 + 1 * y1.val = y1.val; rw [e1]; omega
  | ⟨2, _⟩ => show win1_2.index t (2 : Fin 3) * 128 + 1 * y2.val = o.val; rw [e2, ho]; omega

/-- The cosine table's 512-row block: rows `512 (t % 4) + y1`. -/
theorem cos_block_apply (c : Dev nD) (t : Fin cfg1.N) (y1 : Fin 512) (j : Fin 64) (T : Fin 2048)
    (hT : T.val = t.val % 4 * 512 + y1.val) :
    (iblk1 V c 3 t : Vec Ideal S512x64 .f32) (ix2 y1 j) = (V c main_v12 : A2 2048 64) (ix2 T j) := by
  obtain ⟨e0, e1, -⟩ := table_index t
  unfold iblk1
  rw [View.read_apply]
  show V c main_v12 _ = V c main_v12 _
  congr 1
  funext a
  apply Fin.ext
  match a with
  | ⟨0, _⟩ => show win1_3.index t (0 : Fin 2) * 512 + 1 * y1.val = T.val; rw [e0, hT]; omega
  | ⟨1, _⟩ => show win1_3.index t (1 : Fin 2) * 64 + 1 * j.val = j.val; rw [e1]; omega

/-- The signed-sine table's 512-row block: rows `512 (t % 4) + y1`. -/
theorem sin_block_apply (c : Dev nD) (t : Fin cfg1.N) (y1 : Fin 512) (j : Fin 64) (T : Fin 2048)
    (hT : T.val = t.val % 4 * 512 + y1.val) :
    (iblk1 V c 4 t : Vec Ideal S512x64 .f32) (ix2 y1 j) = (V c main_v25 : A2 2048 64) (ix2 T j) := by
  obtain ⟨-, -, e0, e1, -⟩ := table_index t
  unfold iblk1
  rw [View.read_apply]
  show V c main_v25 _ = V c main_v25 _
  congr 1
  funext a
  apply Fin.ext
  match a with
  | ⟨0, _⟩ => show win1_4.index t (0 : Fin 2) * 512 + 1 * y1.val = T.val; rw [e0, hT]; omega
  | ⟨1, _⟩ => show win1_4.index t (1 : Fin 2) * 64 + 1 * j.val = j.val; rw [e1]; omega

/-- The whole-table windows hold their tables. -/
theorem cos_whole_apply (c : Dev nD) (t : Fin cfg1.N) (y1 : Fin 2048) (j : Fin 64) :
    (iblk1 V c 5 t : Vec Ideal S2048x64 .f32) (ix2 y1 j) = (V c main_v12 : A2 2048 64) (ix2 y1 j) := by
  obtain ⟨-, -, -, -, e0, e1, -⟩ := table_index t
  unfold iblk1
  rw [View.read_apply]
  show V c main_v12 _ = V c main_v12 _
  congr 1
  funext a
  apply Fin.ext
  match a with
  | ⟨0, _⟩ => show win1_5.index t (0 : Fin 2) * 2048 + 1 * y1.val = y1.val; rw [e0]; omega
  | ⟨1, _⟩ => show win1_5.index t (1 : Fin 2) * 64 + 1 * j.val = j.val; rw [e1]; omega

theorem sin_whole_apply (c : Dev nD) (t : Fin cfg1.N) (y1 : Fin 2048) (j : Fin 64) :
    (iblk1 V c 6 t : Vec Ideal S2048x64 .f32) (ix2 y1 j) = (V c main_v25 : A2 2048 64) (ix2 y1 j) := by
  obtain ⟨-, -, -, -, -, -, e0, e1⟩ := table_index t
  unfold iblk1
  rw [View.read_apply]
  show V c main_v25 _ = V c main_v25 _
  congr 1
  funext a
  apply Fin.ext
  match a with
  | ⟨0, _⟩ => show win1_6.index t (0 : Fin 2) * 2048 + 1 * y1.val = y1.val; rw [e0]; omega
  | ⟨1, _⟩ => show win1_6.index t (1 : Fin 2) * 64 + 1 * j.val = j.val; rw [e1]; omega

/-! ## What a point writes back -/

/-- The attention of point `t`'s seven blocks, at a block index, is the whole-array attention at the array index with
    batch `t / 32`, position `512 (t % 4) + y 1` and column `128 (t / 4 % 8) + y 2`. -/
theorem point_attn (c : Dev nD) (t : Fin cfg1.N) (y : S1x512x128.Idx) (i : S4x2048x1024.Idx)
    (hi0 : (i 0).val = t.val / 32) (hi1 : (i 1).val = t.val % 4 * 512 + (y 1).val)
    (hi2 : (i 2).val = t.val / 4 % 8 * 128 + (y 2).val) :
    attnBlk (iblk1 V c 0 t) (iblk1 V c 1 t) (iblk1 V c 2 t) (iblk1 V c 3 t) (iblk1 V c 4 t) (iblk1 V c 5 t) (iblk1 V c 6 t) y
      = attnK (V c main_v28) (V c main_v12) (V c main_v25) i := by
  have ht : t.val < 128 := lt_of_lt_of_eq t.isLt N_1
  have hpos : ∀ p : Fin 512, t.val % 4 * 512 + p.val < 2048 := fun p => by have := p.isLt; omega
  obtain ⟨y0, y1, y2, rfl⟩ : ∃ (y0 : Fin 1) (y1 : Fin 512) (y2 : Fin 128), y = ix3 y0 y1 y2 := ⟨y 0, y 1, y 2, eq_ix3 y⟩
  obtain ⟨b, T, o, rfl⟩ : ∃ (b : Fin 4) (T : Fin 2048) (o : Fin 1024), i = ix3 b T o := ⟨i 0, i 1, i 2, eq_ix3 i⟩
  obtain rfl : y0 = 0 := Subsingleton.elim _ _
  have hb : b.val = t.val / 32 := hi0
  have hT : T.val = t.val % 4 * 512 + y1.val := hi1
  have ho : o.val = t.val / 4 % 8 * 128 + y2.val := hi2
  obtain rfl : T = ⟨t.val % 4 * 512 + y1.val, hpos y1⟩ := Fin.ext hT
  exact attnBlk_eq_attnK (iblk1 V c 0 t) (iblk1 V c 1 t) (iblk1 V c 2 t) (iblk1 V c 3 t) (iblk1 V c 4 t) (iblk1 V c 5 t)
    (iblk1 V c 6 t) (V c main_v28) (V c main_v12) (V c main_v25) b ⟨t.val / 4 % 8, by omega⟩
    (fun p : Fin 512 => (⟨t.val % 4 * 512 + p.val, hpos p⟩ : Fin 2048))
    (fun p l o' ho' => query_block_apply V c t p l b _ o' hb rfl ho')
    (fun p l o' ho' => key_block_apply V c t p l b o' hb ho')
    (fun p l o' ho' => value_block_apply V c t p l b o' hb ho')
    (fun p j => cos_block_apply V c t p j _ rfl)
    (fun p j => sin_block_apply V c t p j _ rfl)
    (fun p j => cos_whole_apply V c t p j)
    (fun p j => sin_whole_apply V c t p j)
    y1 y2 o ho

/-- What point `t` writes back is its block of the whole-array attention. -/
theorem flushed_attn (c : Dev nD) (t : Fin cfg1.N) :
    (dat1 (F := Ideal) V c).flushed 7 t
      = ((cfg1.win 7).blk t).view.read (Elt Ideal) (attnK (V c main_v28) (V c main_v12) (V c main_v25)) := by
  show (cfg1.win 7).cut (grid1.coords t) ((dat1 (F := Ideal) V c).after 7 t) = _
  rw [after1_7, out1_7_eq]
  obtain ⟨e0, e1, e2⟩ := out_index t
  funext y
  rw [View.read_apply]
  have hy0 : (y 0).val < 1 := (y 0).isLt
  refine point_attn V c t y (((cfg1.win 7).blk t).view.emb y) ?_ ?_ ?_
  · show win1_7.index t (0 : Fin 3) * 1 + 1 * (y 0).val = t.val / 32; rw [e0]; omega
  · show win1_7.index t (1 : Fin 3) * 512 + 1 * (y 1).val = t.val % 4 * 512 + (y 1).val; rw [e1]; omega
  · show win1_7.index t (2 : Fin 3) * 128 + 1 * (y 2).val = t.val / 4 % 8 * 128 + (y 2).val; rw [e2]; omega

/-! ## The output's blocks cover it -/

/-- Output index (b, T, o) is in the block of the point of batch `b`, head pair `o / 128` and query block `T / 512`. -/
theorem covered (i : S4x2048x1024.Idx) :
    ∃ t : Fin cfg1.N, (cfg1.win 7).flush t = true ∧ i ∈ ((cfg1.win 7).blk t).view.set := by
  have h0 : (i 0).val < 4 := (i 0).isLt
  have h1 : (i 1).val < 2048 := (i 1).isLt
  have h2 : (i 2).val < 1024 := (i 2).isLt
  obtain ⟨t, ht⟩ : ∃ t : Fin cfg1.N, t.val = (i 0).val * 32 + (i 2).val / 128 * 4 + (i 1).val / 512 :=
    ⟨⟨(i 0).val * 32 + (i 2).val / 128 * 4 + (i 1).val / 512, by rw [show cfg1.N = 128 from N_1]; omega⟩, rfl⟩
  obtain ⟨e0, e1, e2⟩ := out_index t
  refine ⟨t, flush1_7 t, ?_⟩
  show i ∈ ((View.whole main_v29).slice (win1_7.rect t)).set
  rw [View.set_slice_whole, Rect.mem_set_unit]
  intro a
  match a with
  | ⟨0, _⟩ =>
    show win1_7.index t (0 : Fin 3) * 1 ≤ (i 0).val ∧ (i 0).val < win1_7.index t (0 : Fin 3) * 1 + 1
    rw [e0, ht]; omega
  | ⟨1, _⟩ =>
    show win1_7.index t (1 : Fin 3) * 512 ≤ (i 1).val ∧ (i 1).val < win1_7.index t (1 : Fin 3) * 512 + 512
    rw [e1, ht]; omega
  | ⟨2, _⟩ =>
    show win1_7.index t (2 : Fin 3) * 128 ≤ (i 2).val ∧ (i 2).val < win1_7.index t (2 : Fin 3) * 128 + 128
    rw [e2, ht]; omega

end Val1

variable (V : (c : Dev nD) → (b : Ref sig .tc) → Buf (Elt Ideal) ((c : Thread nD τ).loc b))

/-- After all 128 grid points the output array is the kernel's attention of the projected features and the two tables
    as the region found them. -/
theorem arr1 (c : Dev nD) :
    (dat1 (F := Ideal) V c).arrAt 7 cfg1.N = attnK (V c main_v28) (V c main_v12) (V c main_v25) :=
  (dat1 (F := Ideal) V c).arrAt_eq_of_cover 7 (attnK (V c main_v28) (V c main_v12) (V c main_v25))
    (fun t _ => Val1.flushed_attn V c t) Val1.covered

end Cert.KernelIdeal.Hand

end
-- ==== Proof.KI.Val2.lean ====
/-
  Region 2's output array after the region, at the extended reals: the rows of the attention output against the rows
  of the weight, plus the bias row.

  The body stores one value over the whole 1024 × 1024 output block: the product of the staged rows of the input with
  the rows of the weight, contracted over the 1024 columns, plus the one-row bias repeated down the block. Point `t`
  of the 8 stages rows `1024 t … 1024 t + 1023` of the input and writes the same rows of the output; the weight and
  the bias are staged whole. So every point writes its block of one whole-array function, `proj2`, and the 8 blocks
  tile the output's 8192 rows: row `r` lies in the block of point `r / 1024`.
-/
import proofs.«416673_j71210557768228_3_alg».proof.Proof.Spec
import proofs.«416673_j71210557768228_3_alg».proof.Proof.KI.Reg2
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx
open Idealize.SL Idealize.SL.Sem
open Idealize.ShloMosaic.Pipeline (Dat Cfg Window)
open scoped BigOperators

namespace Val2

/-! ## The body's one store, at an index -/

/-- The whole-block rectangles start at zero on both axes. -/
theorem zero_offsets2 : (![0, 0] : Fin 2 → Nat) = fun _ => 0 :=
  funext fun a => match a with | ⟨0, _⟩ => rfl | ⟨1, _⟩ => rfl

/-- The product's left operand is read at the output's row … -/
theorem lhs_row2 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and at the contracted column. -/
theorem lhs_col2 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand is read at the row the output's column names … -/
theorem rhs_row2 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … and at the contracted column. -/
theorem rhs_col2 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into a zero accumulator, at row `p` and column `q`: row `p` of the left operand against row `q` of
    the right one, summed over the 1024 columns. -/
theorem rows_product_apply (a : FVec Ideal S1024x1024 .bf16) (w : FVec Ideal S1024x1024 .bf16) (p q : Fin 1024) :
    matmul dot_S1024x1024_S1024x1024_S1024x1024_1_1_0_0_n_n none a w (constant (F := Ideal) S1024x1024 .f32 0x00000000#32) (ix2 p q)
      = ∑ k : Fin 1024, a (ix2 p k) * w (ix2 q k) := by
  refine (Ideal.matmul_constant_zero_apply dot_S1024x1024_S1024x1024_S1024x1024_1_1_0_0_n_n none a w (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_row2 _ _
    | ⟨1, _⟩ => exact (lhs_col2 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_row2 _ _
    | ⟨1, _⟩ => exact (rhs_col2 _ _).trans hk)
  rw [el, er]

/-- The one-row bias repeated down the block reads, at row `p` and column `q`, the bias at `q`. -/
theorem bias_rows_apply (b : FVec Ideal S1x1024 .f32) (p q : Fin 1024) :
    broadcastTo S1024x1024 b broadcasts_S1x1024_S1024x1024 (ix2 p q) = b (ix2 (0 : Fin 1) q) := by
  refine broadcastTo_apply b broadcasts_S1x1024_S1024x1024 (ix2 p q) (ix2 (0 : Fin 1) q) fun ax => ?_
  match ax with
  | ⟨0, _⟩ => rfl
  | ⟨1, _⟩ => rfl

/-- What the body leaves in the output buffer, at row `p` and column `q`, from the three staged blocks. -/
theorem stored_apply (x0 : Vec Ideal S1024x1024 .f32) (x1 : Vec Ideal S1024x1024 .bf16) (x2 : Vec Ideal S1x1024 .f32)
    (p q : Fin 1024) :
    out2_3 (F := Ideal) x0 x1 x2 (ix2 p q) = (∑ k : Fin 1024, x0 (ix2 p k) * x1 (ix2 q k)) + x2 (ix2 (0 : Fin 1) q) := by
  unfold out2_3
  rw [View.canon_unit_zero zero_offsets2]
  simp only [View.ld_unit_zero (S := S1024x1024) zero_offsets2, View.ld_unit_zero (S := S1x1024) zero_offsets2]
  unfold k2_pay1
  simp only [shapeCast_self]
  refine (addf_apply _ _ (ix2 p q)).trans ?_
  rw [rows_product_apply, bias_rows_apply]
  rfl

/-- One point's entry is the whole-array function's: if the three staged blocks hold row `r` of the input at row `p`,
    the weight, and the bias row, then what the body stores at row `p` and column `q` is `proj2` at row `r` and
    column `q`. -/
theorem point_value (x0 : Vec Ideal S1024x1024 .f32) (x1 : Vec Ideal S1024x1024 .bf16) (x2 : Vec Ideal S1x1024 .f32)
    (a : A2 8192 1024) (w : A2 1024 1024) (b : A2 1 1024) (p q : Fin 1024) (r : Fin 8192)
    (h0 : ∀ k : Fin 1024, x0 (ix2 p k) = a (ix2 r k)) (h1 : ∀ k : Fin 1024, x1 (ix2 q k) = w (ix2 q k))
    (h2 : x2 (ix2 (0 : Fin 1) q) = b (ix2 (0 : Fin 1) q)) :
    out2_3 (F := Ideal) x0 x1 x2 (ix2 p q) = proj2 a w b (ix2 r q) := by
  rw [stored_apply]
  show _ = (∑ k : Fin 1024, a (ix2 r k) * w (ix2 q k)) + b (ix2 (0 : Fin 1) q)
  rw [h2]
  congr 1
  exact Finset.sum_congr rfl fun k _ => by rw [h0 k, h1 k]

/-! ## The staged blocks, as entries of the arrays -/

variable (V : (c : Dev nD) → (b : Ref sig .tc) → Buf (Elt Ideal) ((c : Thread nD τ).loc b))

/-- The printed index maps over the 8 points: the input's and the output's block index is the point on the row axis
    and zero on the column axis; the weight's and the bias's are zero on both. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input's block at point `t` holds, at row `p`, row `1024 t + p` of the input. -/
theorem input_block_apply (c : Dev nD) (t : Fin cfg2.N) (p k : Fin 1024) (r : Fin 8192) (hr : r.val = t.val * 1024 + p.val) :
    (iblk2 V c 0 t : Vec Ideal S1024x1024 .f32) (ix2 p k) = (V c main_v30 : S8192x1024.Idx → EReal) (ix2 r k) := by
  obtain ⟨e0, e1, -⟩ := block_indices t
  unfold iblk2
  rw [View.read_apply]
  show V c main_v30 _ = V c main_v30 _
  congr 1
  funext a
  apply Fin.ext
  match a with
  | ⟨0, _⟩ => show win2_0.index t (0 : Fin 2) * 1024 + 1 * p.val = r.val; rw [e0, hr]; omega
  | ⟨1, _⟩ => show win2_0.index t (1 : Fin 2) * 1024 + 1 * k.val = k.val; rw [e1]; omega

/-- The weight is staged whole. -/
theorem weight_block_apply (c : Dev nD) (t : Fin cfg2.N) (q k : Fin 1024) :
    (iblk2 V c 1 t : Vec Ideal S1024x1024 .bf16) (ix2 q k) = (V c main_v6 : S1024x1024.Idx → EReal) (ix2 q k) := by
  obtain ⟨-, -, e0, e1, -⟩ := block_indices t
  unfold iblk2
  rw [View.read_apply]
  show V c main_v6 _ = V c main_v6 _
  congr 1
  funext a
  apply Fin.ext
  match a with
  | ⟨0, _⟩ => show win2_1.index t (0 : Fin 2) * 1024 + 1 * q.val = q.val; rw [e0]; omega
  | ⟨1, _⟩ => show win2_1.index t (1 : Fin 2) * 1024 + 1 * k.val = k.val; rw [e1]; omega

/-- The bias row is staged whole. -/
theorem bias_block_apply (c : Dev nD) (t : Fin cfg2.N) (q : Fin 1024) :
    (iblk2 V c 2 t : Vec Ideal S1x1024 .f32) (ix2 (0 : Fin 1) q) = (V c main_v31 : S1x1024.Idx → EReal) (ix2 (0 : Fin 1) q) := by
  obtain ⟨-, -, -, -, e0, e1, -⟩ := block_indices t
  unfold iblk2
  rw [View.read_apply]
  show V c main_v31 _ = V c main_v31 _
  congr 1
  funext a
  apply Fin.ext
  match a with
  | ⟨0, _⟩ => show win2_2.index t (0 : Fin 2) * 1 + 1 * (0 : Fin 1).val = (0 : Fin 1).val; rw [e0]; rfl
  | ⟨1, _⟩ => show win2_2.index t (1 : Fin 2) * 1024 + 1 * q.val = q.val; rw [e1]; omega

/-- The output's block at point `t` sits, at row `p`, in row `1024 t + p` of the output. -/
theorem output_block_emb (t : Fin cfg2.N) (p q : Fin 1024) (r : Fin 8192) (hr : r.val = t.val * 1024 + p.val) :
    (((cfg2.win 3).blk t).view.emb (ix2 p q) : S8192x1024.Idx) = ix2 r q := by
  obtain ⟨-, -, -, -, -, -, e0, e1⟩ := block_indices t
  funext a
  apply Fin.ext
  match a with
  | ⟨0, _⟩ => show win2_3.index t (0 : Fin 2) * 1024 + 1 * p.val = r.val; rw [e0, hr]; omega
  | ⟨1, _⟩ => show win2_3.index t (1 : Fin 2) * 1024 + 1 * q.val = q.val; rw [e1]; omega

/-! ## What each point writes back, and the 8 blocks together -/

/-- What point `t` writes back is its block of `proj2` of the three arrays as the region finds them. -/
theorem written_block (c : Dev nD) (t : Fin cfg2.N) :
    (dat2 (F := Ideal) V c).flushed 3 t
      = ((cfg2.win 3).blk t).view.read (Elt Ideal) (proj2 (V c main_v30) (V c main_v6) (V c main_v31)) := by
  show (cfg2.win 3).cut (grid2.coords t) ((dat2 V c).after 3 t) = _
  rw [after2_3]
  funext y
  obtain ⟨p, q, rfl⟩ : ∃ (p q : Fin 1024), y = ix2 p q := ⟨y 0, y 1, eq_ix2 y⟩
  have hN : cfg2.N = 8 := N_2
  have hr : t.val * 1024 + p.val < 8192 := by have := t.isLt; have := p.isLt; omega
  show out2_3 (F := Ideal) (iblk2 V c 0 t) (iblk2 V c 1 t) (iblk2 V c 2 t) (ix2 p q)
    = proj2 (V c main_v30) (V c main_v6) (V c main_v31) (((cfg2.win 3).blk t).view.emb (ix2 p q))
  rw [output_block_emb t p q ⟨t.val * 1024 + p.val, hr⟩ rfl]
  exact point_value (iblk2 V c 0 t) (iblk2 V c 1 t) (iblk2 V c 2 t) (V c main_v30) (V c main_v6) (V c main_v31) p q
    ⟨t.val * 1024 + p.val, hr⟩ (fun k => input_block_apply V c t p k ⟨t.val * 1024 + p.val, hr⟩ rfl)
    (fun k => weight_block_apply V c t q k) (bias_block_apply V c t q)

/-- An index of the output lies in point `t`'s block iff each coordinate is in the block's range on its axis. -/
theorem mem_output_block (t : Fin cfg2.N) (i : S8192x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v32).slice (win2_3.rect t)).set ↔ _
  rw [View.set_slice_whole, Rect.mem_set_unit]
  exact Iff.rfl

/-- The 8 blocks tile the output: row `r` lies in the block of point `r / 1024`, and every point writes its block back. -/
theorem rows_tiled (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  obtain ⟨t, ht⟩ : ∃ t : Fin cfg2.N, t.val = (i 0).val / 1024 := ⟨⟨(i 0).val / 1024, by rw [hN]; omega⟩, rfl⟩
  obtain ⟨-, -, -, -, -, -, e0, e1⟩ := block_indices t
  refine ⟨t, flush2_3 t, ?_⟩
  rw [mem_output_block]
  intro a
  match a with
  | ⟨0, _⟩ =>
    show win2_3.index t (0 : Fin 2) * 1024 ≤ (i 0).val ∧ (i 0).val < win2_3.index t (0 : Fin 2) * 1024 + 1024
    rw [e0, ht]; omega
  | ⟨1, _⟩ =>
    show win2_3.index t (1 : Fin 2) * 1024 ≤ (i 1).val ∧ (i 1).val < win2_3.index t (1 : Fin 2) * 1024 + 1024
    rw [e1]; omega

end Val2

variable (V : (c : Dev nD) → (b : Ref sig .tc) → Buf (Elt Ideal) ((c : Thread nD τ).loc b))

/-- After all 8 grid points the output array holds, at row `r` and column `o`, the sum over the 1024 columns of the
    input's row `r` times the weight's row `o`, plus the bias at `o`. -/
theorem arr2 (c : Dev nD) :
    (dat2 (F := Ideal) V c).arrAt 3 cfg2.N = proj2 (V c main_v30) (V c main_v6) (V c main_v31) :=
  (dat2 (F := Ideal) V c).arrAt_eq_of_cover 3 (proj2 (V c main_v30) (V c main_v6) (V c main_v31))
    (fun t _ => Val2.written_block V c t) Val2.rows_tiled

end Cert.KernelIdeal.Hand

end
-- ==== Proof.KI.HostVals.lean ====
/-
  What the host operations between the regions write, at the extended reals, from ANY contents U of the core's
  buffers before them: the flattened input and the output weight before region 0; the reshapes
  between and after the regions.

  Each result buffer is first read back as its operation's term over U. A reshape keeps the row-major order of the
  elements, so between [4, 2048, C] and [8192, C] it only merges or splits the batch and position coordinates
  (row = batch * 2048 + position), and between [1024] and [1, 1024] it only adds a unit axis. A change of float
  format is the identity on extended reals.
-/
import proofs.«416673_j71210557768228_3_alg».proof.Proof.Spec
import proofs.«416673_j71210557768228_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx
open Idealize.SL Idealize.SL.Sem
open Idealize.ShloMosaic.Pipeline (Dat Cfg Window)
open scoped BigOperators

variable (U : Valuation τ sig (Elt Ideal))

namespace HostVals

/-! ## Row-major positions of the two layouts

A [4, 2048, C] array and an [8192, C] array hold the same elements in the same row-major order: entry
(b, t, c) of the first sits at position (b * 2048 + t) * C + c, which is where entry (b * 2048 + t, c) of the
second sits. The two facts below say so once from each side, for any number C of columns. -/

/-- Row r, column c of the flat layout is at the position of batch r / 2048, position r % 2048, column c. -/
theorem pos_flat (C : Nat) (r : Fin 8192) (c : Fin C) :
    ((⟨3, ![4, 2048, C]⟩ : Shape).rowMajor
        (ix3 (⟨r.val / 2048, by have h : r.val < 8192 := r.isLt; omega⟩ : Fin 4)
          (⟨r.val % 2048, Nat.mod_lt _ (by decide)⟩ : Fin 2048) c)).val
      = ((⟨2, ![8192, C]⟩ : Shape).rowMajor (ix2 r c)).val := by
  rw [Shape.rowMajor_val_three, Shape.rowMajor_val_two]
  show (r.val / 2048 * 2048 + r.val % 2048) * C + c.val = r.val * C + c.val
  have h : r.val / 2048 * 2048 + r.val % 2048 = r.val := by omega
  rw [h]

/-- Batch b, position t, column c is at the position of row b * 2048 + t, column c of the flat layout. -/
theorem pos_unflat (C : Nat) (b : Fin 4) (t : Fin 2048) (c : Fin C) :
    ((⟨2, ![8192, C]⟩ : Shape).rowMajor
        (ix2 (⟨b.val * 2048 + t.val, by have h0 : b.val < 4 := b.isLt; have h1 : t.val < 2048 := t.isLt; omega⟩ : Fin 8192) c)).val
      = ((⟨3, ![4, 2048, C]⟩ : Shape).rowMajor (ix3 b t c)).val := by
  rw [Shape.rowMajor_val_two, Shape.rowMajor_val_three]
  rfl

/-- A [4, 2048, C] array reshaped to [8192, C] is the array with batch and position as one row index. -/
theorem shapeCast_flat3 {C : Nat} (x : A3 4 2048 C) (h : (⟨3, ![4, 2048, C]⟩ : Shape).ShapeCasts ⟨2, ![8192, C]⟩) :
    shapeCast ⟨2, ![8192, C]⟩ x h = flat3 x := by
  funext j
  refine (congrArg (shapeCast ⟨2, ![8192, C]⟩ x h) (eq_ix2 j)).trans ?_
  exact shapeCast_apply x h (ix2 (j 0) (j 1)) _ (pos_flat C (j 0) (j 1))

/-- An [8192, C] array reshaped to [4, 2048, C] is the array with batch and position apart. -/
theorem shapeCast_unflat3 {C : Nat} (y : A2 8192 C) (h : (⟨2, ![8192, C]⟩ : Shape).ShapeCasts ⟨3, ![4, 2048, C]⟩) :
    shapeCast ⟨3, ![4, 2048, C]⟩ y h = unflat3 y := by
  funext i
  refine (congrArg (shapeCast ⟨3, ![4, 2048, C]⟩ y h) (eq_ix3 i)).trans ?_
  exact shapeCast_apply y h (ix3 (i 0) (i 1) (i 2)) _ (pos_unflat C (i 0) (i 1) (i 2))

/-- A vector of 1024 entries reshaped to one row of 1024 is the vector as a one-row matrix. -/
theorem shapeCast_row1 (b : A1 1024) (h : (⟨1, ![1024]⟩ : Shape).ShapeCasts ⟨2, ![1, 1024]⟩) :
    shapeCast ⟨2, ![1, 1024]⟩ b h = row1 b := by
  funext j
  refine shapeCast_apply b h j (ix1 (j 1)) ?_
  rw [Shape.rowMajor_val_one, Shape.rowMajor_val_two]
  show (j 1).val = (j 0).val * 1024 + (j 1).val
  have h0 : (j 0).val < 1 := (j 0).isLt
  omega

end HostVals

/-! ## The host operations' results -/

/-- The input with batch and position flattened to one row index. -/
theorem h0_v26 : StableHlo.after (hostOps0 (F := Ideal)) U (Proc.devRef .tc main_v26) = flat3 (U (Proc.devRef .tc main_arg0)) := by
  have e : (StableHlo.after (hostOps0 (F := Ideal)) U (Proc.devRef .tc main_v26) : S8192x1024.Idx → EReal)
      = shapeCast S8192x1024 (U (Proc.devRef .tc main_arg0) : S4x2048x1024.Idx → EReal) shapeCasts_S4x2048x1024_S8192x1024 := by
    after_results; rfl
  exact e.trans (HostVals.shapeCast_flat3 _ _)
/-- The output weight, unchanged (a change of float format). -/
theorem h0_v6 : StableHlo.after (hostOps0 (F := Ideal)) U (Proc.devRef .tc main_v6) = U (Proc.devRef .tc main_arg3) := by
  have e : @Eq (FVec Ideal S1024x1024 .bf16) (StableHlo.after (hostOps0 (F := Ideal)) U (Proc.devRef .tc main_v6))
      (truncf .bf16 (U (Proc.devRef .tc main_arg3) : FVec Ideal S1024x1024 .f32) bitsLt_bf16_f32) := by
    after_results
  exact e.trans (funext fun i => truncf_apply _ _ i)
/-- The projected features with batch and position apart again. -/
theorem h1_v28 : StableHlo.after (hostOps1 (F := Ideal)) U (Proc.devRef .tc main_v28) = unflat3 (U (Proc.devRef .tc main_v27)) := by
  have e : (StableHlo.after (hostOps1 (F := Ideal)) U (Proc.devRef .tc main_v28) : S4x2048x3072.Idx → EReal)
      = shapeCast S4x2048x3072 (U (Proc.devRef .tc main_v27) : S8192x3072.Idx → EReal) shapeCasts_S8192x3072_S4x2048x3072 := by
    after_results; rfl
  exact e.trans (HostVals.shapeCast_unflat3 _ _)
/-- The attention output flattened, and the bias as a one-row matrix. -/
theorem h2_v30 : StableHlo.after (hostOps2 (F := Ideal)) U (Proc.devRef .tc main_v30) = flat3 (U (Proc.devRef .tc main_v29)) := by
  have e : (StableHlo.after (hostOps2 (F := Ideal)) U (Proc.devRef .tc main_v30) : S8192x1024.Idx → EReal)
      = shapeCast S8192x1024 (U (Proc.devRef .tc main_v29) : S4x2048x1024.Idx → EReal) shapeCasts_S4x2048x1024_S8192x1024 := by
    after_results; rfl
  exact e.trans (HostVals.shapeCast_flat3 _ _)
theorem h2_v31 : StableHlo.after (hostOps2 (F := Ideal)) U (Proc.devRef .tc main_v31) = row1 (U (Proc.devRef .tc main_arg4)) := by
  have e : (StableHlo.after (hostOps2 (F := Ideal)) U (Proc.devRef .tc main_v31) : S1x1024.Idx → EReal)
      = shapeCast S1x1024 (U (Proc.devRef .tc main_arg4) : S1024.Idx → EReal) shapeCasts_S1024_S1x1024 := by
    after_results; rfl
  exact e.trans (HostVals.shapeCast_row1 _ _)
/-- The result with batch and position apart again. -/
theorem h3_v33 : StableHlo.after (hostOps3 (F := Ideal)) U (Proc.devRef .tc main_v33) = unflat3 (U (Proc.devRef .tc main_v32)) := by
  have e : (StableHlo.after (hostOps3 (F := Ideal)) U (Proc.devRef .tc main_v33) : S4x2048x1024.Idx → EReal)
      = shapeCast S4x2048x1024 (U (Proc.devRef .tc main_v32) : S8192x1024.Idx → EReal) shapeCasts_S8192x1024_S4x2048x1024 := by
    after_results; rfl
  exact e.trans (HostVals.shapeCast_unflat3 _ _)

end Cert.KernelIdeal.Hand

end
-- ==== Proof.KI.HostGather.lean ====
/-
  What the first host stretch writes through its three gathers at constant indices, at the extended reals, from ANY
  contents `U` of the core's buffers before it: the projection weight with its rows in the kernel's order, and the cosine
  and sine tables with their lanes in the kernel's order (the sine with the sign folded in).

  A gather whose start indices are an [n × 1] column of words, each the word of a number in range, copies whole rows
  (or whole columns) of its operand: row `p` of the result is row `n_p` of the operand. The two index tables are
  constants of the program; their contents are decided once each, entry by entry, against the closed forms `permRow` and
  `lperm`. The sign is two blocks of 32 lanes laid end to end, minus one then one.
-/
import proofs.«416673_j71210557768228_3_alg».proof.Proof.Spec
import proofs.«416673_j71210557768228_3_alg».proof.Proof.Gen.KernelIdeal.Launch
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx
open Idealize.SL Idealize.SL.Sem
open Idealize.ShloMosaic.Pipeline (Dat Cfg Window)
open scoped BigOperators

variable (U : Valuation τ sig (Elt Ideal))

namespace HostGather

/-! ## A gather of whole rows, or of whole columns, read at an index -/

/-- An axis of a rank-2 shape is the first or the second. -/
theorem fin2_cases {R C : Nat} (a : Fin (⟨2, ![R, C]⟩ : Shape).rank) : a = 0 ∨ a = 1 := by
  rcases a with ⟨v, hv⟩
  change v < 2 at hv
  have : v = 0 ∨ v = 1 := by omega
  rcases this with rfl | rfl
  · left; rfl
  · right; rfl

/-- Every entry of a one-element list is that element. -/
theorem getElem_of_eq_singleton {β : Type} {l : List β} {v : β} (h : l = [v]) (k : Nat) (hk : k < l.length) : l[k] = v := by
  subst h
  have : k = 0 := by simpa using hk
  subst this; rfl

/-- ROWS. A gather with the operand's first axis collapsed and start-indexed, its second axis the result's offset axis,
    and the start indices an [n × 1] column: result element `(p, q)` is the operand at row `idx[p, 0]`, read signed and
    clamped into the operand's rows, and column `q`. -/
theorem gather_rows_apply {α : Type} {R C n w : Nat} (d : GatherDims ⟨2, ![R, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![R, C]⟩ : Shape).Idx → α) (idx : IVec ⟨2, ![n, 1]⟩ w) (p : Fin n) (q : Fin C) (hR : 0 < R) :
    Host.gather d x idx (ix2 p q) = x (ix2 ⟨min (idx (ix2 p 0)).toInt.toNat (R - 1), by omega⟩ q) := by
  unfold Host.gather
  congr 1
  funext a
  apply Fin.ext
  have hb : ∀ a, a ∉ d.operandBatchingDims := by intro a; rw [hob]; exact List.not_mem_nil
  rcases fin2_cases a with rfl | rfl
  · have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (R - d.sliceSizes 0) = min (idx (ix2 p 0)).toInt.toNat (R - 1)
    rw [hsl]
    have hbd : d.batchDims = [0] := by show Shape.kept _ d.offsetDims = [0]; rw [hoff]; rfl
    have hsi : d.siIdx (ix2 p q) ⟨List.idxOf (0 : Fin 2) d.startIndexMap, List.idxOf_lt_length_iff.2 hm⟩ = ix2 p 0 := by
      funext b
      apply Fin.ext
      rcases fin2_cases b with rfl | rfl
      · unfold GatherDims.siIdx
        rw [dif_neg (by rw [hivd]; exact Nat.zero_ne_one)]
        unfold GatherDims.siCoord
        simp only [Fin.val_cast]
        rw [getElem_of_eq_singleton hbd]
        rfl
      · unfold GatherDims.siIdx
        rw [dif_pos (by rw [hivd]; rfl)]
        show List.idxOf (0 : Fin 2) d.startIndexMap = 0
        rw [hsim]; simp
    rw [hsi]
  · have hk : (1 : Fin 2) ∈ d.sKept := by rw [GatherDims.mem_sKept, hcoll]; simp [hb]
    have hm : (1 : Fin 2) ∉ d.startIndexMap := by rw [hsim]; simp
    simp only [GatherDims.operandIdx, GatherDims.batchCoord_eq_zero _ _ _ (hb _), Nat.add_zero, GatherDims.start, dif_neg hm,
      Nat.zero_add, GatherDims.offCoord, dif_pos hk]
    rw [getElem_of_eq_singleton hoff]
    rfl

/-- COLUMNS. A gather with the operand's second axis collapsed and start-indexed, its first axis the result's offset
    axis, and the start indices an [n × 1] column: result element `(p, q)` is the operand at row `p` and column
    `idx[q, 0]`, read signed and clamped into the operand's columns. -/
theorem gather_cols_apply {α : Type} {R C n w : Nat} (d : GatherDims ⟨2, ![R, C]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, C]⟩ : Shape).Idx → α) (idx : IVec ⟨2, ![n, 1]⟩ w) (p : Fin R) (q : Fin n) (hC : 0 < C) :
    Host.gather d x idx (ix2 p q) = x (ix2 p ⟨min (idx (ix2 q 0)).toInt.toNat (C - 1), by omega⟩) := by
  unfold Host.gather
  congr 1
  funext a
  apply Fin.ext
  have hb : ∀ a, a ∉ d.operandBatchingDims := by intro a; rw [hob]; exact List.not_mem_nil
  rcases fin2_cases a with rfl | rfl
  · have hk : (0 : Fin 2) ∈ d.sKept := by rw [GatherDims.mem_sKept, hcoll]; simp [hb]
    have hm : (0 : Fin 2) ∉ d.startIndexMap := by rw [hsim]; simp
    simp only [GatherDims.operandIdx, GatherDims.batchCoord_eq_zero _ _ _ (hb _), Nat.add_zero, GatherDims.start, dif_neg hm,
      Nat.zero_add, GatherDims.offCoord, dif_pos hk]
    rw [getElem_of_eq_singleton hoff]
    rfl
  · have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (C - d.sliceSizes 1) = min (idx (ix2 q 0)).toInt.toNat (C - 1)
    rw [hsl]
    have hbd : d.batchDims = [1] := by show Shape.kept _ d.offsetDims = [1]; rw [hoff]; rfl
    have hsi : d.siIdx (ix2 p q) ⟨List.idxOf (1 : Fin 2) d.startIndexMap, List.idxOf_lt_length_iff.2 hm⟩ = ix2 q 0 := by
      funext b
      apply Fin.ext
      rcases fin2_cases b with rfl | rfl
      · unfold GatherDims.siIdx
        rw [dif_neg (by rw [hivd]; exact Nat.zero_ne_one)]
        unfold GatherDims.siCoord
        simp only [Fin.val_cast]
        rw [getElem_of_eq_singleton hbd]
        rfl
      · unfold GatherDims.siIdx
        rw [dif_pos (by rw [hivd]; rfl)]
        show List.idxOf (1 : Fin 2) d.startIndexMap = 0
        rw [hsim]; simp
    rw [hsi]

/-! ## Start indices in range -/

/-- A word whose value is a number below the extent reads, signed and clamped into the extent, as that number. -/
theorem clamp_read {w : BitVec 32} {N m : Nat} (hw : w.toNat = m) (hm : m < N) (hN : N ≤ 2 ^ 31) :
    min w.toInt.toNat (N - 1) = m := by
  have h : w.toInt = (w.toNat : Int) := StableHlo.Predicate.toInt_eq_toNat_of_lt (by omega)
  rw [h, Int.toNat_natCast, hw]
  omega

/-- ROWS, at start indices in range: where the start-index word of row `p` is the word of a row number `m` of the
    operand, the gather's row `p` is the operand's row `m`. -/
theorem gather_rows_read {α : Type} {R C n : Nat} (d : GatherDims ⟨2, ![R, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![R, C]⟩ : Shape).Idx → α) (idx : IVec ⟨2, ![n, 1]⟩ 32) (p : Fin n) (q : Fin C)
    (m : Fin R) (hw : (idx (ix2 p 0)).toNat = m.val) (hR : R ≤ 2 ^ 31) :
    Host.gather d x idx (ix2 p q) = x (ix2 m q) := by
  rw [gather_rows_apply d hoff hcoll hob hsim hivd x idx p q (Nat.lt_of_le_of_lt (Nat.zero_le _) m.isLt)]
  exact congrArg (fun k => x (ix2 k q)) (Fin.ext (clamp_read hw m.isLt hR))

/-- COLUMNS, at start indices in range: where the start-index word of column `q` is the word of a column number `m` of
    the operand, the gather's column `q` is the operand's column `m`. -/
theorem gather_cols_read {α : Type} {R C n : Nat} (d : GatherDims ⟨2, ![R, C]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, C]⟩ : Shape).Idx → α) (idx : IVec ⟨2, ![n, 1]⟩ 32) (p : Fin R) (q : Fin n)
    (m : Fin C) (hw : (idx (ix2 q 0)).toNat = m.val) (hC : C ≤ 2 ^ 31) :
    Host.gather d x idx (ix2 p q) = x (ix2 p m) := by
  rw [gather_cols_apply d hoff hcoll hob hsim hivd x idx p q (Nat.lt_of_le_of_lt (Nat.zero_le _) m.isLt)]
  exact congrArg (fun k => x (ix2 p k)) (Fin.ext (clamp_read hw m.isLt hC))

/-- The start-index column as the program builds it: a table `T`, with the extent added where the all-false mask
    selects (nowhere), laid as an [n × 1] column. At row `q` it reads the table at `q`. -/
theorem idxcol_apply {n : Nat} (T B : IVec ⟨1, ![n]⟩ 32) (h₁ : (⟨1, ![n]⟩ : Shape).BroadcastsInDim ⟨2, ![n, 1]⟩ ![0]) (q : Fin n) :
    broadcastInDim ⟨2, ![n, 1]⟩ ![0] h₁ (select (constantI ⟨1, ![n]⟩ 1 0#1) B T) (ix2 q 0) = T (Shape.Idx.ofFin q) := by
  have hix : (ix2 q (0 : Fin 1) : (⟨2, ![n, 1]⟩ : Shape).Idx) = StableHlo.Predicate.ixP q := by
    funext a
    rcases fin2_cases a with rfl | rfl <;> rfl
  rw [hix, StableHlo.Predicate.bcast_col1, select_apply]
  exact select_zero _ _

/-! ## The lane table and its index column -/

/-- The 64-entry index table holds the kernel's order of a head's lanes. -/
theorem lit1_toNat : ∀ j : Fin 64, (lit1 j).toNat = (lperm j).val := by decide

theorem rowMajor_ofFin64 (q : Fin 64) : S64.rowMajor (Shape.Idx.ofFin q) = q :=
  Fin.ext (by rw [Shape.rowMajor_val_one]; rfl)

/-- The lane index column reads, at row `q`, the word of lane `lperm q`. -/
theorem idx1_toNat (B : IVec S64 32) (q : Fin 64) :
    ((broadcastInDim S64x1 ![0] bcast_S64_S64x1_0 (select (constantI S64 1 0#1) B (fun i => lit1 (S64.rowMajor i)))) (ix2 q 0)).toNat
      = (lperm q).val := by
  rw [idxcol_apply]
  exact (congrArg (fun k => (lit1 k).toNat) (rowMajor_ofFin64 q)).trans (lit1_toNat q)

/-! ## The sign -/

theorem ix2_eq_ij {n m : Nat} (p : Fin n) (q : Fin m) :
    (ix2 p q : (⟨2, ![n, m]⟩ : Shape).Idx) = StableHlo.Predicate.ij p q := by
  funext a
  rcases fin2_cases a with rfl | rfl <;> rfl

/-- Two 32-blocks laid end to end read, at lane `q`, the first block at `q` below 32 and the second at `q - 32` from
    32 on. -/
theorem cat32_apply {α : Type} (a b : S32.Idx → α) (hc : Shape.Concatenates [S32, S32] S64 0) (q : Fin 64) :
    concatenate S64 0 [⟨S32, a⟩, ⟨S32, b⟩] hc (Shape.Idx.ofFin q)
      = if h : q.val < 32 then a (Shape.Idx.ofFin ⟨q.val, h⟩) else b (Shape.Idx.ofFin ⟨q.val - 32, by omega⟩) := by
  split
  · next h =>
    exact concatenate_pair_apply_left 0 a b hc _ rfl (Shape.Idx.ofFin ⟨q.val, h⟩) (fun b => rfl)
  · next h =>
    exact concatenate_pair_apply_right 0 a b hc _ rfl rfl (Shape.Idx.ofFin ⟨q.val - 32, by omega⟩)
      (fun b hb => absurd (Subsingleton.elim _ _) hb) (by show q.val - 32 + 32 = q.val; omega)

/-- The sign table: minus one on the first 32 lanes of a head, one on the last 32, the same in every row. -/
theorem sign_apply (h₁ : S64.BroadcastsInDim S1x64 ![1]) (h₂ : S1x64.BroadcastsInDim S2048x64 ![0, 1])
    (hc : Shape.Concatenates [S32, S32] S64 0) (hb : S_.BroadcastsInDim S32 ![]) (p : Fin 2048) (q : Fin 64) :
    broadcastInDim S2048x64 ![0, 1] h₂ (broadcastInDim S1x64 ![1] h₁
      (concatenate S64 0
        [⟨S32, (Host.negf (broadcastInDim S32 ![] hb (constant (F := Ideal) S_ .f32 0x3F800000#32)) : FVec Ideal S32 .f32)⟩,
         ⟨S32, (broadcastInDim S32 ![] hb (constant (F := Ideal) S_ .f32 0x3F800000#32) : FVec Ideal S32 .f32)⟩] hc))
      (ix2 p q) = sgn q := by
  rw [ix2_eq_ij, StableHlo.Predicate.bcast_cols, cat32_apply]
  unfold sgn
  split
  · next h =>
    show -(Ideal.ofBits .f32 0x3F800000#32) = -1
    rw [Ideal.ofBits_one_f32]
  · next h =>
    show Ideal.ofBits .f32 0x3F800000#32 = 1
    exact Ideal.ofBits_one_f32

/-! ## The row table and its index column -/

/-! The 3072-entry row table, decided in its 24 blocks of 128 entries: entry `128 k + r` is the word of
    `permRow (128 k + r)`. -/
theorem lit0_blk_0 : ∀ r : Fin 128, (lit0 ⟨128 * 0 + r.val, by have := r.isLt; omega⟩).toNat
    = (permRow ⟨128 * 0 + r.val, by have := r.isLt; omega⟩).val := by decide +kernel
theorem lit0_blk_1 : ∀ r : Fin 128, (lit0 ⟨128 * 1 + r.val, by have := r.isLt; omega⟩).toNat
    = (permRow ⟨128 * 1 + r.val, by have := r.isLt; omega⟩).val := by decide +kernel
theorem lit0_blk_2 : ∀ r : Fin 128, (lit0 ⟨128 * 2 + r.val, by have := r.isLt; omega⟩).toNat
    = (permRow ⟨128 * 2 + r.val, by have := r.isLt; omega⟩).val := by decide +kernel
theorem lit0_blk_3 : ∀ r : Fin 128, (lit0 ⟨128 * 3 + r.val, by have := r.isLt; omega⟩).toNat
    = (permRow ⟨128 * 3 + r.val, by have := r.isLt; omega⟩).val := by decide +kernel
theorem lit0_blk_4 : ∀ r : Fin 128, (lit0 ⟨128 * 4 + r.val, by have := r.isLt; omega⟩).toNat
    = (permRow ⟨128 * 4 + r.val, by have := r.isLt; omega⟩).val := by decide +kernel
theorem lit0_blk_5 : ∀ r : Fin 128, (lit0 ⟨128 * 5 + r.val, by have := r.isLt; omega⟩).toNat
    = (permRow ⟨128 * 5 + r.val, by have := r.isLt; omega⟩).val := by decide +kernel
theorem lit0_blk_6 : ∀ r : Fin 128, (lit0 ⟨128 * 6 + r.val, by have := r.isLt; omega⟩).toNat
    = (permRow ⟨128 * 6 + r.val, by have := r.isLt; omega⟩).val := by decide +kernel
theorem lit0_blk_7 : ∀ r : Fin 128, (lit0 ⟨128 * 7 + r.val, by have := r.isLt; omega⟩).toNat
    = (permRow ⟨128 * 7 + r.val, by have := r.isLt; omega⟩).val := by decide +kernel
theorem lit0_blk_8 : ∀ r : Fin 128, (lit0 ⟨128 * 8 + r.val, by have := r.isLt; omega⟩).toNat
    = (permRow ⟨128 * 8 + r.val, by have := r.isLt; omega⟩).val := by decide +kernel
theorem lit0_blk_9 : ∀ r : Fin 128, (lit0 ⟨128 * 9 + r.val, by have := r.isLt; omega⟩).toNat
    = (permRow ⟨128 * 9 + r.val, by have := r.isLt; omega⟩).val := by decide +kernel
theorem lit0_blk_10 : ∀ r : Fin 128, (lit0 ⟨128 * 10 + r.val, by have := r.isLt; omega⟩).toNat
    = (permRow ⟨128 * 10 + r.val, by have := r.isLt; omega⟩).val := by decide +kernel
theorem lit0_blk_11 : ∀ r : Fin 128, (lit0 ⟨128 * 11 + r.val, by have := r.isLt; omega⟩).toNat
    = (permRow ⟨128 * 11 + r.val, by have := r.isLt; omega⟩).val := by decide +kernel
theorem lit0_blk_12 : ∀ r : Fin 128, (lit0 ⟨128 * 12 + r.val, by have := r.isLt; omega⟩).toNat
    = (permRow ⟨128 * 12 + r.val, by have := r.isLt; omega⟩).val := by decide +kernel
theorem lit0_blk_13 : ∀ r : Fin 128, (lit0 ⟨128 * 13 + r.val, by have := r.isLt; omega⟩).toNat
    = (permRow ⟨128 * 13 + r.val, by have := r.isLt; omega⟩).val := by decide +kernel
theorem lit0_blk_14 : ∀ r : Fin 128, (lit0 ⟨128 * 14 + r.val, by have := r.isLt; omega⟩).toNat
    = (permRow ⟨128 * 14 + r.val, by have := r.isLt; omega⟩).val := by decide +kernel
theorem lit0_blk_15 : ∀ r : Fin 128, (lit0 ⟨128 * 15 + r.val, by have := r.isLt; omega⟩).toNat
    = (permRow ⟨128 * 15 + r.val, by have := r.isLt; omega⟩).val := by decide +kernel
theorem lit0_blk_16 : ∀ r : Fin 128, (lit0 ⟨128 * 16 + r.val, by have := r.isLt; omega⟩).toNat
    = (permRow ⟨128 * 16 + r.val, by have := r.isLt; omega⟩).val := by decide +kernel
theorem lit0_blk_17 : ∀ r : Fin 128, (lit0 ⟨128 * 17 + r.val, by have := r.isLt; omega⟩).toNat
    = (permRow ⟨128 * 17 + r.val, by have := r.isLt; omega⟩).val := by decide +kernel
theorem lit0_blk_18 : ∀ r : Fin 128, (lit0 ⟨128 * 18 + r.val, by have := r.isLt; omega⟩).toNat
    = (permRow ⟨128 * 18 + r.val, by have := r.isLt; omega⟩).val := by decide +kernel
theorem lit0_blk_19 : ∀ r : Fin 128, (lit0 ⟨128 * 19 + r.val, by have := r.isLt; omega⟩).toNat
    = (permRow ⟨128 * 19 + r.val, by have := r.isLt; omega⟩).val := by decide +kernel
theorem lit0_blk_20 : ∀ r : Fin 128, (lit0 ⟨128 * 20 + r.val, by have := r.isLt; omega⟩).toNat
    = (permRow ⟨128 * 20 + r.val, by have := r.isLt; omega⟩).val := by decide +kernel
theorem lit0_blk_21 : ∀ r : Fin 128, (lit0 ⟨128 * 21 + r.val, by have := r.isLt; omega⟩).toNat
    = (permRow ⟨128 * 21 + r.val, by have := r.isLt; omega⟩).val := by decide +kernel
theorem lit0_blk_22 : ∀ r : Fin 128, (lit0 ⟨128 * 22 + r.val, by have := r.isLt; omega⟩).toNat
    = (permRow ⟨128 * 22 + r.val, by have := r.isLt; omega⟩).val := by decide +kernel
theorem lit0_blk_23 : ∀ r : Fin 128, (lit0 ⟨128 * 23 + r.val, by have := r.isLt; omega⟩).toNat
    = (permRow ⟨128 * 23 + r.val, by have := r.isLt; omega⟩).val := by decide +kernel

/-- The 24 blocks as one statement. -/
theorem lit0_blk (k : Fin 24) (r : Fin 128) :
    (lit0 ⟨128 * k.val + r.val, by have := k.isLt; have := r.isLt; omega⟩).toNat
      = (permRow ⟨128 * k.val + r.val, by have := k.isLt; have := r.isLt; omega⟩).val := by
  match k with
  | ⟨0, _⟩ => exact lit0_blk_0 r
  | ⟨1, _⟩ => exact lit0_blk_1 r
  | ⟨2, _⟩ => exact lit0_blk_2 r
  | ⟨3, _⟩ => exact lit0_blk_3 r
  | ⟨4, _⟩ => exact lit0_blk_4 r
  | ⟨5, _⟩ => exact lit0_blk_5 r
  | ⟨6, _⟩ => exact lit0_blk_6 r
  | ⟨7, _⟩ => exact lit0_blk_7 r
  | ⟨8, _⟩ => exact lit0_blk_8 r
  | ⟨9, _⟩ => exact lit0_blk_9 r
  | ⟨10, _⟩ => exact lit0_blk_10 r
  | ⟨11, _⟩ => exact lit0_blk_11 r
  | ⟨12, _⟩ => exact lit0_blk_12 r
  | ⟨13, _⟩ => exact lit0_blk_13 r
  | ⟨14, _⟩ => exact lit0_blk_14 r
  | ⟨15, _⟩ => exact lit0_blk_15 r
  | ⟨16, _⟩ => exact lit0_blk_16 r
  | ⟨17, _⟩ => exact lit0_blk_17 r
  | ⟨18, _⟩ => exact lit0_blk_18 r
  | ⟨19, _⟩ => exact lit0_blk_19 r
  | ⟨20, _⟩ => exact lit0_blk_20 r
  | ⟨21, _⟩ => exact lit0_blk_21 r
  | ⟨22, _⟩ => exact lit0_blk_22 r
  | ⟨23, _⟩ => exact lit0_blk_23 r
  | ⟨n + 24, h⟩ => exact absurd h (by omega)

/-- The 3072-entry index table holds the kernel's order of the projection weight's rows. -/
theorem lit0_toNat (f : Fin 3072) : (lit0 f).toNat = (permRow f).val := by
  obtain ⟨k, r, rfl⟩ : ∃ (k : Fin 24) (r : Fin 128),
      f = ⟨128 * k.val + r.val, by have := k.isLt; have := r.isLt; omega⟩ :=
    ⟨⟨f.val / 128, by have := f.isLt; omega⟩, ⟨f.val % 128, Nat.mod_lt _ (by decide)⟩,
      Fin.ext (Nat.div_add_mod f.val 128).symm⟩
  exact lit0_blk k r

theorem rowMajor_ofFin3072 (p : Fin 3072) : S3072.rowMajor (Shape.Idx.ofFin p) = p :=
  Fin.ext (by rw [Shape.rowMajor_val_one]; rfl)

/-- The row index column reads, at row `p`, the word of row `permRow p`. -/
theorem idx0_toNat (B : IVec S3072 32) (p : Fin 3072) :
    ((broadcastInDim S3072x1 ![0] bcast_S3072_S3072x1_0 (select (constantI S3072 1 0#1) B (fun i => lit0 (S3072.rowMajor i)))) (ix2 p 0)).toNat
      = (permRow p).val := by
  rw [idxcol_apply]
  exact (congrArg (fun k => (lit0 k).toNat) (rowMajor_ofFin3072 p)).trans (lit0_toNat p)

/-! ## The three buffers as the operations' composed terms -/

/-- The cosine buffer: the gather of the cosines' columns at the lane index column. -/
theorem e12 : StableHlo.after (hostOps0 (F := Ideal)) U (Proc.devRef .tc main_v12)
    = (Host.gather gather_S2048x64_S64x1_S2048x64_0_1_n_n_1_1_20481
        (Host.cos (U (Proc.devRef .tc main_arg1)) : FVec Ideal S2048x64 .f32)
        (broadcastInDim S64x1 ![0] bcast_S64_S64x1_0
          (select (constantI S64 1 0#1)
            (addi (fun i => lit1 (S64.rowMajor i)) (broadcastInDim S64 ![] bcast_S_S64 (constantI S_ 32 64#32)))
            (fun i => lit1 (S64.rowMajor i)))) : FVec Ideal S2048x64 .f32) := by
  after_results_simp <;> rfl

/-- The sine buffer: the gather of the sines' columns at the lane index column, times the sign table. -/
theorem e25 : StableHlo.after (hostOps0 (F := Ideal)) U (Proc.devRef .tc main_v25)
    = (mulf
        (Host.gather gather_S2048x64_S64x1_S2048x64_0_1_n_n_1_1_20481
          (Host.sin (U (Proc.devRef .tc main_arg1)) : FVec Ideal S2048x64 .f32)
          (broadcastInDim S64x1 ![0] bcast_S64_S64x1_0
            (select (constantI S64 1 0#1)
              (addi (fun i => lit1 (S64.rowMajor i)) (broadcastInDim S64 ![] bcast_S_S64 (constantI S_ 32 64#32)))
              (fun i => lit1 (S64.rowMajor i)))))
        (broadcastInDim S2048x64 ![0, 1] bcast_S1x64_S2048x64_0_1 (broadcastInDim S1x64 ![1] bcast_S64_S1x64_1
          (concatenate S64 0
            [⟨S32, (Host.negf (broadcastInDim S32 ![] bcast_S_S32 (constant (F := Ideal) S_ .f32 0x3F800000#32)) : FVec Ideal S32 .f32)⟩,
             ⟨S32, (broadcastInDim S32 ![] bcast_S_S32 (constant (F := Ideal) S_ .f32 0x3F800000#32) : FVec Ideal S32 .f32)⟩]
            concatenates_S32_S32_S64_d0))) : FVec Ideal S2048x64 .f32) := by
  after_results_simp <;> rfl

/-- The weight buffer: the gather of the weight's rows at the row index column, its float format narrowed. -/
theorem e5 : StableHlo.after (hostOps0 (F := Ideal)) U (Proc.devRef .tc main_v5)
    = (truncf .bf16
        (Host.gather gather_S3072x1024_S3072x1_S3072x1024_1_0_n_n_0_1_11024
          (U (Proc.devRef .tc main_arg2) : FVec Ideal S3072x1024 .f32)
          (broadcastInDim S3072x1 ![0] bcast_S3072_S3072x1_0
            (select (constantI S3072 1 0#1)
              (addi (fun i => lit0 (S3072.rowMajor i)) (broadcastInDim S3072 ![] bcast_S_S3072 (constantI S_ 32 3072#32)))
              (fun i => lit0 (S3072.rowMajor i)))) : FVec Ideal S3072x1024 .f32)
        bitsLt_bf16_f32 : FVec Ideal S3072x1024 .bf16) := by
  after_results_simp <;> rfl

end HostGather

/-- The projection weight with its rows in the kernel's order. -/
theorem h0_v5 : StableHlo.after (hostOps0 (F := Ideal)) U (Proc.devRef .tc main_v5) = wqkvP (U (Proc.devRef .tc main_arg2)) := by
  rw [HostGather.e5]
  funext j
  obtain ⟨p, q, rfl⟩ : ∃ p q, j = ix2 p q := ⟨j 0, j 1, eq_ix2 j⟩
  rw [truncf_apply, HostGather.gather_rows_read _ rfl rfl rfl rfl rfl _ _ p q (permRow p) (HostGather.idx0_toNat _ p) (by norm_num)]
  rfl
/-- The cosine table with its lanes in the kernel's order. -/
theorem h0_v12 : StableHlo.after (hostOps0 (F := Ideal)) U (Proc.devRef .tc main_v12) = cosP (U (Proc.devRef .tc main_arg1)) := by
  rw [HostGather.e12]
  funext j
  obtain ⟨p, q, rfl⟩ : ∃ p q, j = ix2 p q := ⟨j 0, j 1, eq_ix2 j⟩
  rw [HostGather.gather_cols_read _ rfl rfl rfl rfl rfl _ _ p q (lperm q) (HostGather.idx1_toNat _ q) (by norm_num)]
  rfl
/-- The sine table with its lanes in the kernel's order and the sign folded in. -/
theorem h0_v25 : StableHlo.after (hostOps0 (F := Ideal)) U (Proc.devRef .tc main_v25) = sinS (U (Proc.devRef .tc main_arg1)) := by
  rw [HostGather.e25]
  funext j
  obtain ⟨p, q, rfl⟩ : ∃ p q, j = ix2 p q := ⟨j 0, j 1, eq_ix2 j⟩
  rw [mulf_apply, HostGather.gather_cols_read _ rfl rfl rfl rfl rfl _ _ p q (lperm q) (HostGather.idx1_toNat _ q) (by norm_num),
    HostGather.sign_apply]
  rfl

end Cert.KernelIdeal.Hand

end
-- ==== Proof.KI.KFinal.lean ====
/-
  The kernel program's result at the extended reals: what the fold of boundary contents holds at the result buffer at
  the return is `kernelOut` of the five arguments' launch contents.

  Read backwards from the return: the result is the last region's output array with batch and position apart again;
  that array is the output projection (`arr2`) of the flattened attention output, the output weight as launched and the
  bias as a one-row matrix; the attention output is the attention (`arr1`) of the projected features with batch and
  position apart and of the two permuted tables the first host stretch made; the projected features are the projection
  (`arr0`) of the flattened input and of the row-permuted weight. Between these a buffer that nothing writes keeps
  what it held.
-/
import proofs.«416673_j71210557768228_3_alg».proof.Proof.KI.Fold
import proofs.«416673_j71210557768228_3_alg».proof.Proof.KI.Val0
import proofs.«416673_j71210557768228_3_alg».proof.Proof.KI.Val1
import proofs.«416673_j71210557768228_3_alg».proof.Proof.KI.Val2
import proofs.«416673_j71210557768228_3_alg».proof.Proof.KI.HostVals
import proofs.«416673_j71210557768228_3_alg».proof.Proof.KI.HostGather

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

namespace KFinal

/-! ## What the first host stretch leaves, read where the regions find it -/

theorem e1_v26 (c : Dev nD) : E1 m c main_v26 = flat3 (m ((c : Thread nD τ).loc main_arg0)) := h0_v26 (W0 m c)
theorem e1_v5 (c : Dev nD) : E1 m c main_v5 = wqkvP (m ((c : Thread nD τ).loc main_arg2)) := h0_v5 (W0 m c)

/-- The projected features region 0 leaves. -/
theorem w2_v27 (c : Dev nD) :
    W2 m c (Proc.devRef .tc main_v27) = proj0 (flat3 (m ((c : Thread nD τ).loc main_arg0))) (wqkvP (m ((c : Thread nD τ).loc main_arg2))) := by
  rw [W2_out, arr0 (E1 m) c, e1_v26, e1_v5]

/-- Region 1 finds them with batch and position apart; -/
theorem e3_v28 (c : Dev nD) :
    E3 m c main_v28 = unflat3 (proj0 (flat3 (m ((c : Thread nD τ).loc main_arg0))) (wqkvP (m ((c : Thread nD τ).loc main_arg2)))) := by
  show StableHlo.after hostOps1 (W2 m c) (Proc.devRef .tc main_v28) = _
  rw [h1_v28 (W2 m c), w2_v27]

/-- and the two tables as the first stretch made them: neither region 0 nor the second stretch writes them. -/
theorem e3_v12 (c : Dev nD) : E3 m c main_v12 = cosP (m ((c : Thread nD τ).loc main_arg1)) :=
  (W3_of m c main_v12 (by decide)).trans <| (W2_of_ne m c main_v12 (by decide)).trans (h0_v12 (W0 m c))
theorem e3_v25 (c : Dev nD) : E3 m c main_v25 = sinS (m ((c : Thread nD τ).loc main_arg1)) :=
  (W3_of m c main_v25 (by decide)).trans <| (W2_of_ne m c main_v25 (by decide)).trans (h0_v25 (W0 m c))

/-- The attention output region 1 leaves. -/
theorem w4_v29 (c : Dev nD) :
    W4 m c (Proc.devRef .tc main_v29)
      = attnK (unflat3 (proj0 (flat3 (m ((c : Thread nD τ).loc main_arg0))) (wqkvP (m ((c : Thread nD τ).loc main_arg2)))))
          (cosP (m ((c : Thread nD τ).loc main_arg1))) (sinS (m ((c : Thread nD τ).loc main_arg1))) := by
  rw [W4_out, arr1 (E3 m) c, e3_v28, e3_v12, e3_v25]

/-! ## What region 2 finds -/

theorem e5_v30 (c : Dev nD) : E5 m c main_v30 = flat3 (W4 m c (Proc.devRef .tc main_v29)) := h2_v30 (W4 m c)

/-- The bias is the argument, which nothing before the third stretch writes. -/
theorem w4_arg4 (c : Dev nD) : W4 m c (Proc.devRef .tc main_arg4) = m ((c : Thread nD τ).loc main_arg4) :=
  (W4_of_ne m c main_arg4 (by decide)).trans <| (W3_of m c main_arg4 (by decide)).trans <|
    (W2_of_ne m c main_arg4 (by decide)).trans <| (W1_of m c main_arg4 (by decide)).trans rfl
theorem e5_v31 (c : Dev nD) : E5 m c main_v31 = row1 (m ((c : Thread nD τ).loc main_arg4)) := by
  show StableHlo.after hostOps2 (W4 m c) (Proc.devRef .tc main_v31) = _
  rw [h2_v31 (W4 m c), w4_arg4]

/-- The output weight is as the first stretch left it: the argument itself. -/
theorem e5_v6 (c : Dev nD) : E5 m c main_v6 = m ((c : Thread nD τ).loc main_arg3) :=
  (W5_of m c main_v6 (by decide)).trans <| (W4_of_ne m c main_v6 (by decide)).trans <| (W3_of m c main_v6 (by decide)).trans <|
    (W2_of_ne m c main_v6 (by decide)).trans (h0_v6 (W0 m c))

end KFinal

open KFinal in
/-- The result buffer at the return holds `kernelOut` of the five arguments as launched. -/
theorem kernel_result (c : Dev nD) :
    W7 m c (Proc.devRef .tc main_v33)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) := by
  show StableHlo.after hostOps3 (W6 m c) (Proc.devRef .tc main_v33) = _
  rw [h3_v33 (W6 m c), W6_out, arr2 (E5 m) c, e5_v30, e5_v31, e5_v6, w4_v29]
  rfl

end Cert.KernelIdeal.Hand

end
-- ==== Proof.lean ====
/-
  The proof of `Cert.Claim`: an attention block, three Pallas kernels against a plain jnp reference.

  FRAMES. The kernel's program is four stretches of host operations with three kernel regions between them (a
  projection into query, key and value features; the rotary embedding and attention of two heads at a time; the output
  projection). Each region's body loads its input blocks whole and stores one value over its whole output block, so
  the pipeline's invariant is the plain one; each region is entered from "every unscoped buffer at known contents" and
  left the same way, and the contents at each boundary are a fold from the launch memory (Proof/KI/Fold.lean,
  Proof/KI/Run.lean; the same text at the word-level program under Proof/K/). No stretch and no region writes an
  argument. The reference has no kernel: its frame is its run with the result dropped.

  VALUES. At the extended reals a change of float format is the identity, a matrix product into a zero accumulator is
  a plain sum, and both programs compute the softmax the same way; what differs is the ROTATION. The reference rotates
  adjacent lanes of each head; the kernel permutes the query and key rows of the projection weight inside each head
  (even lanes first), permutes the cosine and sine tables the same way with the sign folded into the sine, and rotates
  by half a head. Lane `j` of the kernel's rotated row is lane `lperm j` of the reference's, a score sums over all 64
  lanes, and one eighth is one over the square root of sixty-four: the two whole-array functions are equal
  (Proof/Spec.lean, Proof/Bridge.lean). The kernel's result is the first (Proof/KI/KFinal.lean over the regions'
  array values and the host stretches' values), the reference's is the second (Proof/Ref/Out.lean over its generated
  read-at-an-index lemmas). The inputs' finiteness is not used: only commutativity and associativity of the sums and
  products, and negation distributing over a product.
-/
import proofs.«416673_j71210557768228_3_alg».proof.Defs
import proofs.«416673_j71210557768228_3_alg».proof.Proof.Gen.Kernel
import proofs.«416673_j71210557768228_3_alg».proof.Proof.Gen.KernelIdeal
import proofs.«416673_j71210557768228_3_alg».proof.Proof.Gen.ReferenceIdeal
import proofs.«416673_j71210557768228_3_alg».proof.Proof.Gen.ReferenceIdeal.Run
import proofs.«416673_j71210557768228_3_alg».proof.Proof.Gen.ReferenceIdeal.Read
import proofs.«416673_j71210557768228_3_alg».proof.Proof.Gen.Pre_finite_inputs
import proofs.«416673_j71210557768228_3_alg».proof.Proof.Bridge
import proofs.«416673_j71210557768228_3_alg».proof.Proof.Ref.Out
import proofs.«416673_j71210557768228_3_alg».proof.Proof.K.Run
import proofs.«416673_j71210557768228_3_alg».proof.Proof.KI.Run
import proofs.«416673_j71210557768228_3_alg».proof.Proof.KI.KFinal
import Idealize.ShloMosaic.Adequacy
import Idealize.ShloMosaic.Init

noncomputable section

namespace Cert.Proof

open Idealize.ShloMosaic Idealize.ShloMosaic.TcCoe Idealize.SL.Sem

/-- The word-level kernel runs and leaves its arguments. -/
theorem frame_k : Cert.frame_Kernel (hKernel := Cert.Kernel.Gen.facts) (hPre_finite_inputs := Cert.Pre_finite_inputs.Gen.facts) :=
  fun m ρ _ => Cert.Kernel.Hand.frame m ρ

/-- The idealized kernel runs and leaves its arguments. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the five arguments both idealized programs end with the one function of them in their
    result buffers: the kernel's by its run and the fold read at the result, the reference's by its run and its stages
    read at an index; the two functions are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attn.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ?_) (Cert.KernelIdeal.Hand.run_all (F := Ideal) m ρ)
    exact ⟨(h c _ (Cert.KernelIdeal.Hand.mem_ucH Cert.KernelIdeal.main_v33 (by decide))).trans (Cert.KernelIdeal.Hand.kernel_result m c),
      (h c _ (Cert.KernelIdeal.Hand.mem_ucH Cert.KernelIdeal.main_arg0 (by decide))).trans (Cert.KernelIdeal.Hand.W7_main_arg0 m c),
      (h c _ (Cert.KernelIdeal.Hand.mem_ucH Cert.KernelIdeal.main_arg1 (by decide))).trans (Cert.KernelIdeal.Hand.W7_main_arg1 m c),
      (h c _ (Cert.KernelIdeal.Hand.mem_ucH Cert.KernelIdeal.main_arg2 (by decide))).trans (Cert.KernelIdeal.Hand.W7_main_arg2 m c),
      (h c _ (Cert.KernelIdeal.Hand.mem_ucH Cert.KernelIdeal.main_arg3 (by decide))).trans (Cert.KernelIdeal.Hand.W7_main_arg3 m c),
      (h c _ (Cert.KernelIdeal.Hand.mem_ucH Cert.KernelIdeal.main_arg4 (by decide))).trans (Cert.KernelIdeal.Hand.W7_main_arg4 m c)⟩
  · refine (θ_run Cert.ReferenceIdeal.defs _ _).mono (fun _ h c => ⟨(h c).1.trans ?_, (h c).2⟩)
      (Cert.ReferenceIdeal.Value.run (F := Ideal) m' ρ')
    rw [show Cert.ReferenceIdeal.Value.res_main_v69 (F := Ideal) m' c = Cert.ReferenceIdeal.Value.res_out0 (F := Ideal) m' c from rfl,
      Cert.ReferenceIdeal.RefValue.res_out0_eq m' c, (hagree c).1, (hagree c).2.1, (hagree c).2.2.1, (hagree c).2.2.2.1, (hagree c).2.2.2.2]
    exact (Cert.Attn.kernelOut_eq_refOut _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
